-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xF149F2CA#32 ⊥
  ∧ IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x1024 : Shape := ⟨2, ![1024, 1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S4x4096x1024 .f32) (main_arg1 : FVec F S1024x1024 .f32) (main_arg2 : FVec F S1024x1024 .f32) (main_arg3 : FVec F S1024x1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S4x4096x1024 : Shape := ⟨3, ![4, 4096, 1024]⟩
abbrev S1024x1024 : Shape := ⟨2, ![1024, 1024]⟩
abbrev S36 : Shape := ⟨1, ![36]⟩
abbrev S16384x1024 : Shape := ⟨2, ![16384, 1024]⟩
abbrev S512x1024 : Shape := ⟨2, ![512, 1024]⟩
abbrev S1x512x1024 : Shape := ⟨3, ![1, 512, 1024]⟩
abbrev S1 : Shape := ⟨1, ![1]⟩
abbrev S512x1 : Shape := ⟨2, ![512, 1]⟩
abbrev S1024x512 : Shape := ⟨2, ![1024, 512]⟩
abbrev S512x512 : Shape := ⟨2, ![512, 512]⟩
abbrev S512 : Shape := ⟨1, ![512]⟩

abbrev nBuf : Space → Nat
  | .hbm => 18
  | .vmem => 22
  | .smem => 2
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .bf16⟩
  | .hbm, ⟨6, _⟩ => ⟨S1024x1024, .f32⟩
  | .hbm, ⟨7, _⟩ => ⟨S1024x1024, .bf16⟩
  | .hbm, ⟨8, _⟩ => ⟨S1024x1024, .f32⟩
  | .hbm, ⟨9, _⟩ => ⟨S1024x1024, .bf16⟩
  | .hbm, ⟨10, _⟩ => ⟨S16384x1024, .f32⟩
  | .hbm, ⟨11, _⟩ => ⟨S16384x1024, .bf16⟩
  | .hbm, ⟨12, _⟩ => ⟨S16384x1024, .bf16⟩
  | .hbm, ⟨13, _⟩ => ⟨S16384x1024, .bf16⟩
  | .hbm, ⟨14, _⟩ => ⟨S4x4096x1024, .bf16⟩
  | .hbm, ⟨15, _⟩ => ⟨S4x4096x1024, .bf16⟩
  | .hbm, ⟨16, _⟩ => ⟨S4x4096x1024, .bf16⟩
  | .hbm, ⟨17, _⟩ => ⟨S4x4096x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x512x1024, .bf16⟩
  | .local _ .vmem, ⟨17, _⟩ => ⟨S1x512x1024, .f32⟩
  | .local _ .vmem, ⟨18, _⟩ => ⟨S1x512x1024, .f32⟩
  | .local _ .vmem, ⟨19, _⟩ => ⟨S512x1, .f32⟩
  | .local _ .vmem, ⟨20, _⟩ => ⟨S512x1, .f32⟩
  | .local _ .vmem, ⟨21, _⟩ => ⟨S512x1024, .f32⟩
  | .local _ .smem, ⟨0, _⟩ => ⟨S36, .i32⟩
  | .local _ .smem, ⟨1, _⟩ => ⟨S36, .i32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![4, 36], ![false, false]⟩

abbrev pre1 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg1 : BitVec 32 := BitVec.ofNat 32 (i 1).val
  let v0 : Index := Scalar.indexCast arg1
  ![v0.toNat]
def k1_cond3 (v1 : BitVec 32) (v3 : BitVec 32) : BitVec 1 :=
  let v20 : BitVec 1 := Scalar.cmpi .eq v3 v1
  let v21 : BitVec 32 := Scalar.extui v20
  let c0_i32_11 : BitVec 32 := 0#32
  let v22 : BitVec 1 := Scalar.cmpi .ne v21 c0_i32_11
  v22

def cc1_transform_0 (k1_off1_inb : ∀ i : grid1.Coords, ∀ a, (k1_off1 i) a + S1.size a ≤ S36.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k1_off1_inb i)) numel1_S1
  let c0_i32 : BitVec 32 := 0#32
  let c0_i32_0 : BitVec 32 := 0#32
  ![arg0.toNat, v1.toNat, c0_i32.toNat]

def cc1_transform_1 (k1_off1_inb : ∀ i : grid1.Coords, ∀ a, (k1_off1 i) a + S1.size a ≤ S36.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k1_off1_inb i)) numel1_S1
  let c0_i32 : BitVec 32 := 0#32
  let c0_i32_0 : BitVec 32 := 0#32
  ![arg0.toNat, v1.toNat, c0_i32.toNat]

def cc1_transform_2 (k1_off1_inb : ∀ i : grid1.Coords, ∀ a, (k1_off1 i) a + S1.size a ≤ S36.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k1_off1_inb i)) numel1_S1
  let c0_i32 : BitVec 32 := 0#32
  let c0_i32_0 : BitVec 32 := 0#32
  ![arg0.toNat, v1.toNat, c0_i32.toNat]

def cc1_transform_3 (k1_off1_inb : ∀ i : grid1.Coords, ∀ a, (k1_off1 i) a + S1.size a ≤ S36.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k1_off1_inb i)) numel1_S1
  let c0_i32 : BitVec 32 := 0#32
  let c0_i32_0 : BitVec 32 := 0#32
  ![arg0.toNat, v1.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  transposes_S1024x1024_S1024x1024_1_0 : S1024x1024.Transposes [1, 0] S1024x1024
  bitsLt_bf16_f32 : FTy.bits .bf16 < FTy.bits .f32
  shapeCasts_S4x4096x1024_S16384x1024 : S4x4096x1024.ShapeCasts S16384x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S512x1024_S512x1024_0_0 : (Rect.unit (s := S512x1024) ![0, 0] S512x1024.size inb_S512x1024_S512x1024_0_0).PackedRows (EltTy.packing .bf16)
  shapeCasts_S16384x1024_S4x4096x1024 : S16384x1024.ShapeCasts S4x4096x1024
  numel1_S1 : S1.numel = 1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  transposes_S512x1024_p1_0_S1024x512 : S512x1024.Transposes [1, 0] S1024x512
  reduces_S512x512_S512 : S512x512.Reduces [1] S512
  shapeCasts_S512_S512x1 : S512.ShapeCasts S512x1
  broadcasts_S512x1_S512x512 : S512x1.Broadcasts S512x512
  broadcasts_S512x1_S512x1024 : S512x1.Broadcasts S512x1024
  iota_S512x512_d0_w32 : S512x512.Iotas .tc 32 [0]
  iota_S512x512_d1_w32 : S512x512.Iotas .tc 32 [1]
  shapeCasts_S512x1024_S1x512x1024 : S512x1024.ShapeCasts S1x512x1024
  dot_S512x1024_S1024x1024_S512x1024_1_0_0_1_n_n_wf : DotDims.WF S512x1024 S1024x1024 S512x1024 [1] [0] [0] [1] [] []
  dot_S512x1024_S1024x512_S512x512_1_0_0_1_n_n_wf : DotDims.WF S512x1024 S1024x512 S512x512 [1] [0] [0] [1] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S16384x1024.size a
  hwx0_4 : ∀ i : grid0.Coords, EltTy.bits .bf16 = 32 ∨ (Rect.block (s := S16384x1024) S512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S16384x1024.size a
  hwx0_5 : ∀ i : grid0.Coords, EltTy.bits .bf16 = 32 ∨ (Rect.block (s := S16384x1024) S512x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S16384x1024.size a
  hwx0_6 : ∀ i : grid0.Coords, EltTy.bits .bf16 = 32 ∨ (Rect.block (s := S16384x1024) S512x1024.size (cc0_transform_6 i) (hinb0_6 i)).WholeWords (EltTy.packing .bf16)
  hrank1 : 0 < grid1.rank
  k1_off1_inb : ∀ i : grid1.Coords, ∀ a, (k1_off1 i) a + S1.size a ≤ S36.size a
  hstage1_0 : ∀ j, (stage1_0 j).IsWhole
  nbuf1_0 : grid1.bufCount reads1_0 false = 2
  hreads1_0 : ∀ {F : FTy → Type} [FloatOps F] (pf : pre1.Contents (Elt F)) (i i' : grid1.Coords), (∀ a, reads1_0 a = true → i a = i' a) → cc1_transform_0 k1_off1_inb numel1_S1 pf i = cc1_transform_0 k1_off1_inb numel1_S1 pf i'
  hstage1_1 : ∀ j, (stage1_1 j).IsWhole
  nbuf1_1 : grid1.bufCount reads1_1 false = 2
  hreads1_1 : ∀ {F : FTy → Type} [FloatOps F] (pf : pre1.Contents (Elt F)) (i i' : grid1.Coords), (∀ a, reads1_1 a = true → i a = i' a) → cc1_transform_1 k1_off1_inb numel1_S1 pf i = cc1_transform_1 k1_off1_inb numel1_S1 pf i'
  hstage1_2 : ∀ j, (stage1_2 j).IsWhole
  nbuf1_2 : grid1.bufCount reads1_2 false = 2
  hreads1_2 : ∀ {F : FTy → Type} [FloatOps F] (pf : pre1.Contents (Elt F)) (i i' : grid1.Coords), (∀ a, reads1_2 a = true → i a = i' a) → cc1_transform_2 k1_off1_inb numel1_S1 pf i = cc1_transform_2 k1_off1_inb numel1_S1 pf i'
  hstage1_3 : ∀ j, (stage1_3 j).IsWhole
  nbuf1_3 : grid1.bufCount reads1_3 false = 2
  hreads1_3 : ∀ {F : FTy → Type} [FloatOps F] (pf : pre1.Contents (Elt F)) (i i' : grid1.Coords), (∀ a, reads1_3 a = true → i a = i' a) → cc1_transform_3 k1_off1_inb numel1_S1 pf i = cc1_transform_3 k1_off1_inb numel1_S1 pf i'

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_v6) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7_0) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7_1) S512x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7_2) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev spec1_0 : Pipeline.WinSpec sig grid1.rank :=
  Pipeline.WinSpec.ofSpec (Memref.whole main_v8) S1x512x1024.size reads1_0 false false 2 stage1_0 sem1_0 nbuf1_0 hstage1_0

abbrev spec1_1 : Pipeline.WinSpec sig grid1.rank :=
  Pipeline.WinSpec.ofSpec (Memref.whole main_v9) S1x512x1024.size reads1_1 false false 2 stage1_1 sem1_1 nbuf1_1 hstage1_1

abbrev spec1_2 : Pipeline.WinSpec sig grid1.rank :=
  Pipeline.WinSpec.ofSpec (Memref.whole main_v10) S1x512x1024.size reads1_2 false false 2 stage1_2 sem1_2 nbuf1_2 hstage1_2

abbrev spec1_3 : Pipeline.WinSpec sig grid1.rank :=
  Pipeline.WinSpec.ofSpec (Memref.whole main_v11) S1x512x1024.size reads1_3 true false 2 stage1_3 sem1_3 nbuf1_3 hstage1_3

abbrev spec1 : Fin 4 → Pipeline.WinSpec sig grid1.rank := fun | 0 => spec1_0 | 1 => spec1_1 | 2 => spec1_2 | 3 => spec1_3 | ⟨_ + 4, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | 3 => nbuf1_3 | ⟨_ + 4, h⟩ => absurd h (Nat.not_lt.2 (Nat.le_add_left _ _))
abbrev ix1 (pf : pre1.Contents (Elt F)) : (w : Fin 4) → grid1.Coords → Fin (spec1 w).shape.rank → Nat := fun | 0 => cc1_transform_0 k1_off1_inb numel1_S1 pf | 1 => cc1_transform_1 k1_off1_inb numel1_S1 pf | 2 => cc1_transform_2 k1_off1_inb numel1_S1 pf | 3 => cc1_transform_3 k1_off1_inb numel1_S1 pf | ⟨_ + 4, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 pf | 1 => hreads1_1 pf | 2 => hreads1_2 pf | 3 => hreads1_3 pf | ⟨_ + 4, h⟩ => absurd h (Nat.not_lt.2 (Nat.le_add_left _ _))
def ok1 (pf : pre1.Contents (Elt F)) : Prop :=
  (∀ i : grid1.Coords, ∃ h : (∀ a, (cc1_transform_0 k1_off1_inb numel1_S1 pf i a + 1) * S1x512x1024.size a ≤ S4x4096x1024.size a), EltTy.bits .bf16 = 32 ∨ (Rect.block (s := S4x4096x1024) S1x512x1024.size (cc1_transform_0 k1_off1_inb numel1_S1 pf i) h).WholeWords (EltTy.packing .bf16)) ∧
  (∀ i : grid1.Coords, ∃ h : (∀ a, (cc1_transform_1 k1_off1_inb numel1_S1 pf i a + 1) * S1x512x1024.size a ≤ S4x4096x1024.size a), EltTy.bits .bf16 = 32 ∨ (Rect.block (s := S4x4096x1024) S1x512x1024.size (cc1_transform_1 k1_off1_inb numel1_S1 pf i) h).WholeWords (EltTy.packing .bf16)) ∧
  (∀ i : grid1.Coords, ∃ h : (∀ a, (cc1_transform_2 k1_off1_inb numel1_S1 pf i a + 1) * S1x512x1024.size a ≤ S4x4096x1024.size a), EltTy.bits .bf16 = 32 ∨ (Rect.block (s := S4x4096x1024) S1x512x1024.size (cc1_transform_2 k1_off1_inb numel1_S1 pf i) h).WholeWords (EltTy.packing .bf16)) ∧
  (∀ i : grid1.Coords, ∃ h : (∀ a, (cc1_transform_3 k1_off1_inb numel1_S1 pf i a + 1) * S1x512x1024.size a ≤ S4x4096x1024.size a), EltTy.bits .f32 = 32 ∨ (Rect.block (s := S4x4096x1024) S1x512x1024.size (cc1_transform_3 k1_off1_inb numel1_S1 pf i) h).WholeWords (EltTy.packing .f32))
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2 i).elim fun h _ => h a | ⟨_ + 4, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun pf hok => fun | 0 => fun i => (hok.1 i).elim fun _ h => h | 1 => fun i => (hok.2.1 i).elim fun _ h => h | 2 => fun i => (hok.2.2.1 i).elim fun _ h => h | 3 => fun i => (hok.2.2.2 i).elim fun _ h => h | ⟨_ + 4, h⟩ => absurd h (Nat.not_lt.2 (Nat.le_add_left _ _))
abbrev idle1 (pf : pre1.Contents (Elt F)) : Fin 4 → grid1.Coords → Bool := fun | 0 => fun _ => false | 1 => fun _ => false | 2 => fun _ => false | 3 => fun i => !(k1_cond3 (pf.atD 0 (k1_off1 i)) (pf.atD 1 (k1_off1 i)) == 1#1) | ⟨_ + 4, h⟩ => absurd h (Nat.not_lt.2 (Nat.le_add_left _ _))

class Facts : Prop extends Facts₀ where
  harr1 : ∀ w, (spec1 w).arr.IsWhole

variable [Facts]
-- ==== ReferenceIdeal.lean ====
abbrev S4x4096x1024 : Shape := ⟨3, ![4, 4096, 1024]⟩
abbrev S1024x1024 : Shape := ⟨2, ![1024, 1024]⟩
abbrev S4x4096x4096 : Shape := ⟨3, ![4, 4096, 4096]⟩
abbrev S_ : Shape := ⟨0, ![]⟩
abbrev S4096x4096 : Shape := ⟨2, ![4096, 4096]⟩
abbrev S4x4096 : Shape := ⟨2, ![4, 4096]⟩
abbrev S4x4096x1 : Shape := ⟨3, ![4, 4096, 1]⟩

abbrev nBuf : Space → Nat
  | .hbm => 45
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S4x4096x1024, .f32⟩
  | .hbm, ⟨5, _⟩ => ⟨S4x4096x1024, .f32⟩
  | .hbm, ⟨6, _⟩ => ⟨S4x4096x1024, .f32⟩
  | .hbm, ⟨7, _⟩ => ⟨S4x4096x4096, .f32⟩
  | .hbm, ⟨8, _⟩ => ⟨S_, .i1⟩
  | .hbm, ⟨9, _⟩ => ⟨S4096x4096, .i1⟩
  | .hbm, ⟨10, _⟩ => ⟨S4096x4096, .i32⟩
  | .hbm, ⟨11, _⟩ => ⟨S_, .i32⟩
  | .hbm, ⟨12, _⟩ => ⟨S4096x4096, .i32⟩
  | .hbm, ⟨13, _⟩ => ⟨S4096x4096, .i32⟩
  | .hbm, ⟨14, _⟩ => ⟨S4096x4096, .i32⟩
  | .hbm, ⟨15, _⟩ => ⟨S4096x4096, .i1⟩
  | .hbm, ⟨16, _⟩ => ⟨S_, .i1⟩
  | .hbm, ⟨17, _⟩ => ⟨S4096x4096, .i1⟩
  | .hbm, ⟨18, _⟩ => ⟨S4096x4096, .i1⟩
  | .hbm, ⟨19, _⟩ => ⟨S_, .f32⟩
  | .hbm, ⟨20, _⟩ => ⟨S_, .f32⟩
  | .hbm, ⟨21, _⟩ => ⟨S4x4096x4096, .i1⟩
  | .hbm, ⟨22, _⟩ => ⟨S4x4096x4096, .f32⟩
  | .hbm, ⟨23, _⟩ => ⟨S4x4096x4096, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S4x4096x4096, .f32⟩
  | .hbm, ⟨29, _⟩ => ⟨S4x4096x4096, .f32⟩
  | .hbm, ⟨30, _⟩ => ⟨S_, .f32⟩
  | .hbm, ⟨31, _⟩ => ⟨S4x4096, .f32⟩
  | .hbm, ⟨32, _⟩ => ⟨S_, .f32⟩
  | .hbm, ⟨33, _⟩ => ⟨S4x4096, .f32⟩
  | .hbm, ⟨34, _⟩ => ⟨S4x4096, .f32⟩
  | .hbm, ⟨35, _⟩ => ⟨S4x4096x1, .f32⟩
  | .hbm, ⟨36, _⟩ => ⟨S4x4096x4096, .f32⟩
  | .hbm, ⟨37, _⟩ => ⟨S4x4096x4096, .f32⟩
  | .hbm, ⟨38, _⟩ => ⟨S4x4096x4096, .f32⟩
  | .hbm, ⟨39, _⟩ => ⟨S_, .f32⟩
  | .hbm, ⟨40, _⟩ => ⟨S4x4096, .f32⟩
  | .hbm, ⟨41, _⟩ => ⟨S4x4096x1, .f32⟩
  | .hbm, ⟨42, _⟩ => ⟨S4x4096x4096, .f32⟩
  | .hbm, ⟨43, _⟩ => ⟨S4x4096x4096, .f32⟩
  | .hbm, ⟨44, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_0 : Ref sig .tc := ⟨.hbm, 16, rfl⟩
abbrev main_call0_v5 : Ref sig .tc := ⟨.hbm, 17, rfl⟩
abbrev main_v5 : Ref sig .tc := ⟨.hbm, 18, rfl⟩
abbrev main_cst : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_2 : Ref sig .tc := ⟨.hbm, 30, rfl⟩
abbrev main_v11 : Ref sig .tc := ⟨.hbm, 31, rfl⟩
abbrev main_cst_3 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_4 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S4096x4096_S4x4096x4096_1_2 : S4096x4096.BroadcastsInDim S4x4096x4096 (![1, 2] : Fin 2 → Fin S4x4096x4096.rank)
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x1024_S1024x1024_S4x4096x1024_2_1_01_0_n_n_wf : DotDims.WF S4x4096x1024 S1024x1024 S4x4096x1024 [2] [1] [0, 1] [0] [] []
  dot_S4x4096x1024_S4x4096x1024_S4x4096x4096_2_2_1_1_0_0_wf : DotDims.WF S4x4096x1024 S4x4096x1024 S4x4096x4096 [2] [2] [1] [1] [0] [0]
  dot_S4x4096x4096_S4x4096x1024_S4x4096x1024_2_1_1_2_0_0_wf : DotDims.WF S4x4096x4096 S4x4096x1024 S4x4096x1024 [2] [1] [1] [2] [0] [0]

variable [Facts₀]

def dot_S4x4096x1024_S1024x1024_S4x4096x1024_2_1_01_0_n_n : DotDims S4x4096x1024 S1024x1024 S4x4096x1024 where
  lhsContracting := [2]
  rhsContracting := [1]
  lhsNonContracting := [0, 1]
  rhsNonContracting := [0]
  lhsBatch := []
  rhsBatch := []
  wf := dot_S4x4096x1024_S1024x1024_S4x4096x1024_2_1_01_0_n_n_wf
def dot_S4x4096x1024_S4x4096x1024_S4x4096x4096_2_2_1_1_0_0 : DotDims S4x4096x1024 S4x4096x1024 S4x4096x4096 where
  lhsContracting := [2]
  rhsContracting := [2]
  lhsNonContracting := [1]
  rhsNonContracting := [1]
  lhsBatch := [0]
  rhsBatch := [0]
  wf := dot_S4x4096x1024_S4x4096x1024_S4x4096x4096_2_2_1_1_0_0_wf
def dot_S4x4096x4096_S4x4096x1024_S4x4096x1024_2_1_1_2_0_0 : DotDims S4x4096x4096 S4x4096x1024 S4x4096x1024 where
  lhsContracting := [2]
  rhsContracting := [1]
  lhsNonContracting := [1]
  rhsNonContracting := [2]
  lhsBatch := [0]
  rhsBatch := [0]
  wf := dot_S4x4096x4096_S4x4096x1024_S4x4096x1024_2_1_1_2_0_0_wf

class Facts : Prop extends Facts₀ where

variable [Facts]
-- ==== Proof.Spec.lean ====
/-
  The mathematical statement both programs compute, over extended reals, index by index.

  For a batch `b`, a query row `r` and an output column `o`:
  * `proj x W b n o = ∑ d, x[b,n,d] · W[o,d]` is a linear projection of row `(b,n)`;
  * `score b r c = ∑ o, q[b,r,o] · k[b,c,o]` is the query/key inner product, `q = proj x Wq`, `k = proj x Wk`;
  * `logit b r c` is the score times `1/32 = 1/√1024` for a key `c ≤ r`, and `-∞` for a key after the query (the causal mask);
  * `rowMax b r` is the largest logit of the row, `weight b r c = exp (logit - rowMax)` (zero for a masked key),
    `denom b r = ∑ c, weight b r c`;
  * `attn` is `∑ c, (weight b r c / denom b r) · v[b,c,o]`, `v = proj x Wv`: the softmax-weighted mean of the value rows.
-/
import Idealize.ShloMosaic.PureOps.Ideal
import Idealize.ShloMosaic.Lib.ValueIdx

noncomputable section

namespace Cert.Spec

open Idealize.ShloMosaic Idealize.ShloMosaic.ValueIdx

/-- The shape of the input sequence and of the result: 4 batches of 4096 rows of 1024 features. -/
abbrev SX : Shape := ⟨3, ![4, 4096, 1024]⟩
/-- The shape of a weight matrix: 1024 output features by 1024 input features. -/
abbrev SW : Shape := ⟨2, ![1024, 1024]⟩

/-- Output feature `o` of row `(b, n)` projected by `W`: `∑ d, x[b,n,d] · W[o,d]`. -/
def proj (x : SX.Idx → EReal) (W : SW.Idx → EReal) (b : Fin 4) (n : Fin 4096) (o : Fin 1024) : EReal :=
  ∑ d : Fin 1024, x (ix3 b n d) * W (ix2 o d)

/-- The inner product of query row `r` and key row `c` of batch `b`. -/
def score (x : SX.Idx → EReal) (Wq Wk : SW.Idx → EReal) (b : Fin 4) (r c : Fin 4096) : EReal :=
  ∑ o : Fin 1024, proj x Wq b r o * proj x Wk b c o

/-- The scaled logit under the causal mask: `score / 32` for a key not after the query, `-∞` for a later key. -/
def logit (x : SX.Idx → EReal) (Wq Wk : SW.Idx → EReal) (b : Fin 4) (r c : Fin 4096) : EReal :=
  if c.val ≤ r.val then score x Wq Wk b r c * ((1 / 32 : ℝ) : EReal) else ⊥

/-- The largest logit of query row `r`. -/
def rowMax (x : SX.Idx → EReal) (Wq Wk : SW.Idx → EReal) (b : Fin 4) (r : Fin 4096) : EReal :=
  Finset.univ.sup fun c : Fin 4096 => logit x Wq Wk b r c

/-- The unnormalised softmax weight of key `c` for query `r`: `exp (logit - rowMax)`, zero for a masked key. -/
def weight (x : SX.Idx → EReal) (Wq Wk : SW.Idx → EReal) (b : Fin 4) (r c : Fin 4096) : EReal :=
  Ideal.exp (logit x Wq Wk b r c - rowMax x Wq Wk b r)

/-- The softmax denominator of query row `r`. -/
def denom (x : SX.Idx → EReal) (Wq Wk : SW.Idx → EReal) (b : Fin 4) (r : Fin 4096) : EReal :=
  ∑ c : Fin 4096, weight x Wq Wk b r c

/-- Causal softmax attention: entry `(b, r, o)` is `∑ c, (weight b r c / denom b r) · v[b,c,o]`. -/
def attn (x : SX.Idx → EReal) (Wq Wk Wv : SW.Idx → EReal) : SX.Idx → EReal := fun i =>
  ∑ c : Fin 4096, Ideal.div (weight x Wq Wk (i 0) (i 1) c) (denom x Wq Wk (i 0) (i 1)) * proj x Wv (i 0) c (i 2)

end Cert.Spec

end
-- ==== Proof.RefIsSpec.lean ====
/-
  The reference program computes causal softmax attention: its last stage, read at an index through every earlier
  stage, is `Cert.Spec.attn` of the four argument arrays.

  The stages are read one at a time at a symbolic index (b, r, c) or (b, r, o):
  the three projections are `proj`, their batched inner product is `score`, the triangular mask keeps the keys
  c ≤ r and sends the others to -∞, the scale 1 / √1024 is 1 / 32, the row maximum is the supremum of the logits,
  and the softmax quotient times the value rows, summed over the keys, is `attn`.
-/
import proofs.«431190_j5033701670934_3_alg».proof.Proof.Gen.ReferenceIdeal.Read
import proofs.«431190_j5033701670934_3_alg».proof.Proof.Spec
import Idealize.ShloMosaic.Lib.StableHlo.Predicate

noncomputable section

namespace Cert.RefIsSpec

open Cert.ReferenceIdeal Cert.ReferenceIdeal.Gen Cert.ReferenceIdeal.Read Idealize.ShloMosaic Idealize.ShloMosaic.ValueIdx

/-- The input sequence's array type. -/
abbrev X := (⟨S4x4096x1024, .f32⟩ : BufTy).Contents (Elt Ideal)
/-- A weight matrix's array type. -/
abbrev W := (⟨S1024x1024, .f32⟩ : BufTy).Contents (Elt Ideal)

/-! ## The float constants the program spells -/

/-- The pattern of -∞ denotes the bottom of the extended reals. -/
theorem ofBits_neg_inf : Ideal.ofBits .f32 0xFF800000#32 = ⊥ := by
  simp [Ideal.ofBits, Ideal.ieee]

/-- The pattern of +0.0 denotes 0. -/
theorem ofBits_zero : Ideal.ofBits .f32 0x00000000#32 = 0 := by
  simp [Ideal.ofBits, Ideal.ieee]

/-- The pattern of 1.0 denotes the real 1. -/
theorem ofBits_one : Ideal.ofBits .f32 0x3F800000#32 = ((1 : ℝ) : EReal) := by
  simp [Ideal.ofBits, Ideal.ieee, -EReal.coe_mul]; norm_num

/-- The pattern of 1024.0 denotes the real 1024. -/
theorem ofBits_1024 : Ideal.ofBits .f32 0x44800000#32 = ((1024 : ℝ) : EReal) := by
  simp [Ideal.ofBits, Ideal.ieee, -EReal.coe_mul]; norm_num

/-- √1024 = 32. -/
theorem sqrt_1024 : Real.sqrt 1024 = 32 := by
  rw [show (1024 : ℝ) = 32 ^ 2 by norm_num]; exact Real.sqrt_sq (by norm_num)

/-- The scale 1 / √1024 the scores are multiplied by is 1 / 32. -/
theorem scale_apply (i : S_.Idx) : val_main_v8 (F := Ideal) i = ((1 / 32 : ℝ) : EReal) := by
  rw [val_main_v8_apply, val_main_cst_1_apply, val_main_v7_apply, val_main_cst_0_apply]
  simp only [Ideal.ofBits_def, Ideal.hostUnary_sqrt_def, Ideal.hostDivf_def]
  rw [ofBits_1024, ofBits_one, Ideal.sqrt_coe, if_neg (by norm_num), sqrt_1024, Ideal.div_coe (by norm_num)]
  rw [← EReal.coe_mul, one_mul]

/-! ## The projections and the scores -/

/-- The query projection at (b, n, o). -/
theorem q_apply (x : X) (Wm : W) (b : Fin 4) (n : Fin 4096) (o : Fin 1024) :
    val_main_v0 (F := Ideal) x Wm (ix3 b n o) = Cert.Spec.proj x Wm b n o := by
  rw [val_main_v0_apply]; unfold Cert.Spec.proj
  refine Finset.sum_congr rfl fun d _ => ?_
  have el : lidx_main_v0 (ix3 b n o) d = ix3 b n d :=
    funext fun a => Fin.ext (by match a with | ⟨0, _⟩ => rfl | ⟨1, _⟩ => rfl | ⟨2, _⟩ => rfl)
  have er : ridx_main_v0 (ix3 b n o) d = ix2 o d :=
    funext fun a => Fin.ext (by match a with | ⟨0, _⟩ => rfl | ⟨1, _⟩ => rfl)
  rw [el, er]

/-- The key projection at (b, n, o). -/
theorem k_apply (x : X) (Wm : W) (b : Fin 4) (n : Fin 4096) (o : Fin 1024) :
    val_main_v1 (F := Ideal) x Wm (ix3 b n o) = Cert.Spec.proj x Wm b n o := by
  rw [val_main_v1_apply]; unfold Cert.Spec.proj
  refine Finset.sum_congr rfl fun d _ => ?_
  have el : lidx_main_v1 (ix3 b n o) d = ix3 b n d :=
    funext fun a => Fin.ext (by match a with | ⟨0, _⟩ => rfl | ⟨1, _⟩ => rfl | ⟨2, _⟩ => rfl)
  have er : ridx_main_v1 (ix3 b n o) d = ix2 o d :=
    funext fun a => Fin.ext (by match a with | ⟨0, _⟩ => rfl | ⟨1, _⟩ => rfl)
  rw [el, er]

/-- The value projection at (b, n, o). -/
theorem v_apply (x : X) (Wm : W) (b : Fin 4) (n : Fin 4096) (o : Fin 1024) :
    val_main_v2 (F := Ideal) x Wm (ix3 b n o) = Cert.Spec.proj x Wm b n o := by
  rw [val_main_v2_apply]; unfold Cert.Spec.proj
  refine Finset.sum_congr rfl fun d _ => ?_
  have el : lidx_main_v2 (ix3 b n o) d = ix3 b n d :=
    funext fun a => Fin.ext (by match a with | ⟨0, _⟩ => rfl | ⟨1, _⟩ => rfl | ⟨2, _⟩ => rfl)
  have er : ridx_main_v2 (ix3 b n o) d = ix2 o d :=
    funext fun a => Fin.ext (by match a with | ⟨0, _⟩ => rfl | ⟨1, _⟩ => rfl)
  rw [el, er]

/-- The query/key inner product at (b, r, c). -/
theorem score_apply (x : X) (Wq Wk : W) (b : Fin 4) (r c : Fin 4096) :
    val_main_v3 (F := Ideal) x Wq Wk (ix3 b r c) = Cert.Spec.score x Wq Wk b r c := by
  rw [val_main_v3_apply]; unfold Cert.Spec.score
  refine Finset.sum_congr rfl fun o _ => ?_
  have el : lidx_main_v3 (ix3 b r c) o = ix3 b r o :=
    funext fun a => Fin.ext (by match a with | ⟨0, _⟩ => rfl | ⟨1, _⟩ => rfl | ⟨2, _⟩ => rfl)
  have er : ridx_main_v3 (ix3 b r c) o = ix3 b c o :=
    funext fun a => Fin.ext (by match a with | ⟨0, _⟩ => rfl | ⟨1, _⟩ => rfl | ⟨2, _⟩ => rfl)
  rw [el, er, q_apply, k_apply]

/-! ## The causal mask -/

/-- A coordinate below 4096 is its own 32-bit word's value. -/
theorem toNat_ofNat_coord (n : Fin 4096) : (BitVec.ofNat 32 n.val).toNat = n.val := by
  have := n.isLt
  simp only [BitVec.toNat_ofNat]; omega

/-- The mask bit at (b, r, c): clear for a key not after the query, set for a later key. -/
theorem mask_apply (b : Fin 4) (r c : Fin 4096) :
    val_main_call1_v1 (F := Ideal) (ix3 b r c) = if c.val ≤ r.val then 0#1 else 1#1 := by
  rw [val_main_call1_v1_apply, val_main_v5_apply, val_main_call0_v4_apply, val_main_call0_v2_apply,
    val_main_call0_v0_apply, val_main_call0_v1_apply, val_main_call0_c_apply, val_main_call0_v3_apply,
    val_main_call0_v5_apply, val_main_call0_c_0_apply, val_main_v4_apply, val_main_c_apply]
  show Scalar.select (IntOp.cmpi .sge (IntOp.addi (BitVec.ofNat 32 r.val) 0#32) (BitVec.ofNat 32 c.val)) 0#1 1#1 = _
  have hadd : IntOp.addi (BitVec.ofNat 32 r.val) 0#32 = BitVec.ofNat 32 r.val := by
    unfold IntOp.addi; exact BitVec.add_zero _
  rw [hadd]
  have hr := toNat_ofNat_coord r
  have hc := toNat_ofNat_coord c
  have hrl : (BitVec.ofNat 32 r.val).toNat < 2 ^ 31 := by have := r.isLt; omega
  have hcl : (BitVec.ofNat 32 c.val).toNat < 2 ^ 31 := by have := c.isLt; omega
  have hiff := StableHlo.Predicate.sge_iff_toNat hrl hcl
  rw [hr, hc] at hiff
  by_cases h : c.val ≤ r.val
  · rw [if_pos h, hiff.mpr h, select_one]
  · rw [if_neg h, eq_zero_of_ne_one (fun h1 => h (hiff.mp h1)), select_zero]

/-- The masked, scaled score at (b, r, c) is the logit. -/
theorem logit_apply (x : X) (Wq Wk : W) (b : Fin 4) (r c : Fin 4096) :
    val_main_v10 (F := Ideal) x Wq Wk (ix3 b r c) = Cert.Spec.logit x Wq Wk b r c := by
  rw [val_main_v10_apply, val_main_v6_apply, mask_apply, val_main_v9_apply, scale_apply, score_apply,
    val_main_call1_v2_apply, val_main_call1_v0_apply, val_main_cst_apply]
  unfold Cert.Spec.logit
  simp only [Ideal.ofBits_def, Ideal.mulf_def]
  rw [ofBits_neg_inf]
  by_cases h : c.val ≤ r.val
  · rw [if_pos h, if_pos h, select_zero]
  · rw [if_neg h, if_neg h, select_one]
    exact EReal.bot_mul_coe_of_pos (by norm_num)

/-! ## The row maximum -/

/-- The fold of `max` from -∞ over a finite set is the supremum over it. -/
theorem fold_max_bot_eq_sup {ι : Type} (s : Finset ι) (f : ι → EReal) : s.fold max ⊥ f = s.sup f := rfl

/-- The maximum over the keys at (b, r) is the largest logit of the row. -/
theorem rowmax_apply (x : X) (Wq Wk : W) (b : Fin 4) (r : Fin 4096) :
    val_main_v11 (F := Ideal) x Wq Wk (ix2 b r) = Cert.Spec.rowMax x Wq Wk b r := by
  unfold val_main_v11
  have H : S4x4096x4096.Reduces [2] S4x4096 := by decide
  rw [Host.reduce_eq_fold_single FloatOps.maximumf _ _ reducesTo_S4x4096x4096_S4x4096_d2 H h_S_ (ix2 b r)]
  have hpt : ∀ c : Fin 4096,
      val_main_v10 (F := Ideal) x Wq Wk (H.lift (ix2 b r) c) = Cert.Spec.logit x Wq Wk b r c := by
    intro c
    rw [← logit_apply]
    exact congrArg (val_main_v10 (F := Ideal) x Wq Wk)
      (funext fun a => Fin.ext (by match a with | ⟨0, _⟩ => rfl | ⟨1, _⟩ => rfl | ⟨2, _⟩ => rfl))
  have hfun : (val_main_v10 (F := Ideal) x Wq Wk ∘ H.lift (ix2 b r))
      = fun c : Fin 4096 => Cert.Spec.logit x Wq Wk b r c := funext hpt
  rw [hfun, val_main_cst_2_apply]
  simp only [Ideal.ofBits_def]
  rw [ofBits_neg_inf]
  exact fold_max_bot_eq_sup _ _

/-- The row maximum, joined with -∞ and broadcast along the keys, at (b, r, c). -/
theorem rowmax_bcast_apply (x : X) (Wq Wk : W) (b : Fin 4) (r c : Fin 4096) :
    val_main_v15 (F := Ideal) x Wq Wk (ix3 b r c) = Cert.Spec.rowMax x Wq Wk b r := by
  rw [val_main_v15_apply, val_main_v14_apply, val_main_v13_apply, val_main_v12_apply, val_main_cst_3_apply]
  have e : idx_main_v14 (idx_main_v15 (ix3 b r c)) = ix2 b r :=
    funext fun a => Fin.ext (by match a with | ⟨0, _⟩ => rfl | ⟨1, _⟩ => rfl)
  rw [e, rowmax_apply]
  simp only [Ideal.ofBits_def, Ideal.maximumf_def]
  rw [ofBits_neg_inf]
  exact max_eq_right bot_le

/-! ## The softmax weights, their sum, and the result -/

/-- The exponential of the shifted logit at (b, r, c) is the unnormalised weight. -/
theorem weight_apply (x : X) (Wq Wk : W) (b : Fin 4) (r c : Fin 4096) :
    val_main_v17 (F := Ideal) x Wq Wk (ix3 b r c) = Cert.Spec.weight x Wq Wk b r c := by
  rw [val_main_v17_apply, val_main_v16_apply, logit_apply, rowmax_bcast_apply]
  rfl

/-- The sum of the weights over the keys at (b, r) is the softmax denominator. -/
theorem denom_apply (x : X) (Wq Wk : W) (b : Fin 4) (r : Fin 4096) :
    val_main_v18 (F := Ideal) x Wq Wk (ix2 b r) = Cert.Spec.denom x Wq Wk b r := by
  rw [val_main_v18_apply, val_main_cst_4_apply]
  simp only [Ideal.ofBits_def]
  rw [ofBits_zero, zero_add]; unfold Cert.Spec.denom
  refine Finset.sum_congr rfl fun c _ => ?_
  have e : idx_main_v18 (ix2 b r) c = ix3 b r c :=
    funext fun a => Fin.ext (by match a with | ⟨0, _⟩ => rfl | ⟨1, _⟩ => rfl | ⟨2, _⟩ => rfl)
  rw [e, weight_apply]

/-- The normalised weight at (b, r, c). -/
theorem prob_apply (x : X) (Wq Wk : W) (b : Fin 4) (r c : Fin 4096) :
    val_main_v21 (F := Ideal) x Wq Wk (ix3 b r c)
      = Ideal.div (Cert.Spec.weight x Wq Wk b r c) (Cert.Spec.denom x Wq Wk b r) := by
  rw [val_main_v21_apply, weight_apply, val_main_v20_apply, val_main_v19_apply]
  have e : idx_main_v19 (idx_main_v20 (ix3 b r c)) = ix2 b r :=
    funext fun a => Fin.ext (by match a with | ⟨0, _⟩ => rfl | ⟨1, _⟩ => rfl)
  rw [e, denom_apply]
  rfl

/-- The reference's result as a function of its arguments is the specification, entry by entry. -/
theorem val_eq_attn (x : (⟨S4x4096x1024, .f32⟩ : BufTy).Contents (Elt Ideal))
    (Wq Wk Wv : (⟨S1024x1024, .f32⟩ : BufTy).Contents (Elt Ideal)) :
    val_main_v22 (F := Ideal) x Wq Wk Wv = Cert.Spec.attn x Wq Wk Wv := by
  funext i
  obtain ⟨b, r, o, rfl⟩ : ∃ b r o, i = ix3 b r o := ⟨i 0, i 1, i 2, eq_ix3 i⟩
  rw [val_main_v22_apply]
  show _ = ∑ c : Fin 4096, Ideal.div (Cert.Spec.weight x Wq Wk b r c) (Cert.Spec.denom x Wq Wk b r) * Cert.Spec.proj x Wv b c o
  refine Finset.sum_congr rfl fun c _ => ?_
  have el : lidx_main_v22 (ix3 b r o) c = ix3 b r c :=
    funext fun a => Fin.ext (by match a with | ⟨0, _⟩ => rfl | ⟨1, _⟩ => rfl | ⟨2, _⟩ => rfl)
  have er : ridx_main_v22 (ix3 b r o) c = ix3 b c o :=
    funext fun a => Fin.ext (by match a with | ⟨0, _⟩ => rfl | ⟨1, _⟩ => rfl | ⟨2, _⟩ => rfl)
  rw [el, er, prob_apply, v_apply]

end Cert.RefIsSpec

end
-- ==== Proof.Finite.lean ====
/-
  Finiteness of the inputs.

  The precondition says that for each of the four input arrays the conjunction, over all entries, of
  `|a| < +∞` holds. Over the extended reals `|a| = max a (-a)`; at `a = -∞` and at `a = +∞` this is `+∞`,
  which is not below `+∞`. Hence every entry is a real number.
-/
import proofs.«431190_j5033701670934_3_alg».proof.Defs
import proofs.«431190_j5033701670934_3_alg».proof.Proof.Gen.Pre_finite_inputs
import Idealize.ShloMosaic.Lib.ReduceAll
import Idealize.ShloMosaic.Lib.ValueIdx

noncomputable section

namespace Cert.Finite

open Idealize.ShloMosaic

/-- The scalar shape has exactly one index. -/
instance : Subsingleton Cert.Pre_finite_inputs.S_.Idx := ⟨fun a b => funext fun d => d.elim0⟩

/-- The f32 pattern `0x7F800000` denotes `+∞`. -/
theorem inf_pattern : Ideal.ofBits .f32 0x7F800000#32 = (⊤ : EReal) := by
  simp [Ideal.ofBits, Ideal.ieee]

/-- An extended real whose absolute value `max a (-a)` lies strictly below `+∞` is a real number:
    at `a = -∞` the maximum is `-(-∞) = +∞`, at `a = +∞` it is `+∞` itself. -/
theorem real_of_abs_lt_top (a : Ideal .f32)
    (h : FloatOps.cmpf (F := Ideal) .olt (FloatOps.hostAbsf a) (FloatOps.ofBits .f32 0x7F800000#32) = 1#1) :
    a ≠ ⊥ ∧ a ≠ ⊤ := by
  change Ideal.cmp .olt (max a (-a)) (Ideal.ofBits .f32 0x7F800000#32) = 1#1 at h
  rw [inf_pattern] at h
  induction a using EReal.rec with
  | bot => simp [Ideal.cmp] at h
  | top => simp [Ideal.cmp] at h
  | coe r => exact ⟨EReal.coe_ne_bot r, EReal.coe_ne_top r⟩

/-- Under the precondition every entry of every input array is a real number. -/
theorem finite_of_pre [hP : Cert.Pre_finite_inputs.Facts]
    (x : FVec Ideal Cert.Pre_finite_inputs.S4x4096x1024 .f32)
    (Wq Wk Wv : FVec Ideal Cert.Pre_finite_inputs.S1024x1024 .f32)
    (h : Cert.Pre_finite_inputs.fn (F := Ideal) x Wq Wk Wv = (fun _ => 1#1)) :
    (∀ i, x i ≠ ⊥ ∧ x i ≠ ⊤) ∧ (∀ i, Wq i ≠ ⊥ ∧ Wq i ≠ ⊤) ∧ (∀ i, Wk i ≠ ⊥ ∧ Wk i ≠ ⊤)
      ∧ (∀ i, Wv i ≠ ⊥ ∧ Wv i ≠ ⊤) := by
  have h0 := congrFun h ValueIdx.ix0
  dsimp only [Cert.Pre_finite_inputs.fn, Cert.Pre_finite_inputs.fn_part1, andi] at h0
  obtain ⟨h123, h4⟩ := IntOp.andi_eq_one.1 h0
  obtain ⟨h12, h3⟩ := IntOp.andi_eq_one.1 h123
  obtain ⟨h1, h2⟩ := IntOp.andi_eq_one.1 h12
  refine ⟨fun i => ?_, fun i => ?_, fun i => ?_, fun i => ?_⟩
  · exact real_of_abs_lt_top _ (Host.reduce_andi_all _ _ _ _ _ h1 i)
  · exact real_of_abs_lt_top _ (Host.reduce_andi_all _ _ _ _ _ h2 i)
  · exact real_of_abs_lt_top _ (Host.reduce_andi_all _ _ _ _ _ h3 i)
  · exact real_of_abs_lt_top _ (Host.reduce_andi_all _ _ _ _ _ h4 i)

/-- The same, for the argument arrays of a memory that satisfies the kernel's precondition. -/
theorem finite_of_Pre_KernelIdeal [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, m ((c.tc : Thread Cert.KernelIdeal.nD Cert.KernelIdeal.τ).loc Cert.KernelIdeal.main_arg0) i ≠ (⊥ : EReal)
        ∧ m ((c.tc : Thread Cert.KernelIdeal.nD Cert.KernelIdeal.τ).loc Cert.KernelIdeal.main_arg0) i ≠ (⊤ : EReal))
    ∧ (∀ i, m ((c.tc : Thread Cert.KernelIdeal.nD Cert.KernelIdeal.τ).loc Cert.KernelIdeal.main_arg1) i ≠ (⊥ : EReal)
        ∧ m ((c.tc : Thread Cert.KernelIdeal.nD Cert.KernelIdeal.τ).loc Cert.KernelIdeal.main_arg1) i ≠ (⊤ : EReal))
    ∧ (∀ i, m ((c.tc : Thread Cert.KernelIdeal.nD Cert.KernelIdeal.τ).loc Cert.KernelIdeal.main_arg2) i ≠ (⊥ : EReal)
        ∧ m ((c.tc : Thread Cert.KernelIdeal.nD Cert.KernelIdeal.τ).loc Cert.KernelIdeal.main_arg2) i ≠ (⊤ : EReal))
    ∧ (∀ i, m ((c.tc : Thread Cert.KernelIdeal.nD Cert.KernelIdeal.τ).loc Cert.KernelIdeal.main_arg3) i ≠ (⊥ : EReal)
        ∧ m ((c.tc : Thread Cert.KernelIdeal.nD Cert.KernelIdeal.τ).loc Cert.KernelIdeal.main_arg3) i ≠ (⊤ : EReal)) :=
  finite_of_pre _ _ _ _ (h c)

end Cert.Finite

end
-- ==== Proof.R0Half.lean ====
/-
  Region 0 of the program: the fused Q/K/V projection, one pipeline over a grid of 32 points.
  At each point the body multiplies the current 512×1024 block of activations (rounded to bf16) by each of
  the three 1024×1024 weight matrices and stores the three rounded products, each as one whole block.
  Everything is stated at a parameter "V": the contents of the core's buffers when the region is entered.
-/
import proofs.«431190_j5033701670934_3_alg».proof.Proof.Gen.KernelIdeal.Launch
import proofs.«431190_j5033701670934_3_alg».proof.Proof.Gen.KernelIdeal.Skeleton
import proofs.«431190_j5033701670934_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region0

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' window (fetched at every point) holds its block at every point, for any proof data over
    the entry contents whose body leaves that block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- A weight matrix's window is fetched at the first point only; its block index never moves, so at every later
    point the buffer still holds the one block, which is that point's block too. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and every store is of a whole block -/

/-- The whole 512×1024 block (activations; each product). -/
abbrev rX0 : Rect S512x1024 := Rect.unit (s := S512x1024) ![0, 0] S512x1024.size inb_S512x1024_S512x1024_0_0
/-- The whole 1024×1024 weight matrix. -/
abbrev rW0 : Rect S1024x1024 := Rect.unit (s := S1024x1024) ![0, 0] S1024x1024.size inb_S1024x1024_S1024x1024_0_0

/-! ## What the body leaves in each output window's buffer -/

/-- The first product: the activations block times the first weight matrix, rounded; one store over the block. -/
def out0_4 (x0 : Vec F S512x1024 .f32) (x1 : Vec F S1024x1024 .bf16) : Vec F S512x1024 .bf16 :=
  View.canon [⟨rX0, k0_pay2 (View.ld x0 rX0) (View.ld x1 rW0)⟩]
/-- The second product, with the second weight matrix. -/
def out0_5 (x0 : Vec F S512x1024 .f32) (x2 : Vec F S1024x1024 .bf16) : Vec F S512x1024 .bf16 :=
  View.canon [⟨rX0, k0_pay3 (View.ld x0 rX0) (View.ld x2 rW0)⟩]
/-- The third product, with the third weight matrix. -/
def out0_6 (x0 : Vec F S512x1024 .f32) (x3 : Vec F S1024x1024 .bf16) : Vec F S512x1024 .bf16 :=
  View.canon [⟨rX0, k0_pay4 (View.ld x0 rX0) (View.ld x3 rW0)⟩]

/-- One store over the whole block tiles it, so it covers it. -/
theorem cover0 (p0 : Vec F S512x1024 .bf16) (y : S512x1024.Idx) :
    ∃ pc ∈ ([⟨rX0, p0⟩] : List (View.Piece (Elt F) S512x1024 .bf16)), y ∈ pc.1.set :=
  View.cover_of_tiled [⟨rX0, p0⟩] S512x1024.size (by rfl) y

/-! ## The body's triple -/

set_option maxHeartbeats 4000000 in
/-- The body on whole staging memrefs — the four inputs' at read contents x0..x3, the three outputs' at anything —
    runs to the continuation holding the inputs' as they were and each output's at its product. The body reads
    each output buffer once before storing over it; what it reads there is discarded. -/
theorem sound_kernel0 (c : Dev nD) (E : Set ℕ) (i : grid0.Coords)
    (arg1 : Memref sig .tc .vmem S512x1024 .f32) (harg1 : arg1.IsWhole)
    (arg2 : Memref sig .tc .vmem S1024x1024 .bf16) (harg2 : arg2.IsWhole)
    (arg3 : Memref sig .tc .vmem S1024x1024 .bf16) (harg3 : arg3.IsWhole)
    (arg4 : Memref sig .tc .vmem S1024x1024 .bf16) (harg4 : arg4.IsWhole)
    (arg5 : Memref sig .tc .vmem S512x1024 .bf16) (harg5 : arg5.IsWhole)
    (arg6 : Memref sig .tc .vmem S512x1024 .bf16) (harg6 : arg6.IsWhole)
    (arg7 : Memref sig .tc .vmem S512x1024 .bf16) (harg7 : arg7.IsWhole)
    (x0 : Vec F S512x1024 .f32) (x1 x2 x3 : Vec F S1024x1024 .bf16) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1) ∗ owns (c : Thread nD τ) arg6 fullShare (out0_5 x0 x2)
            ∗ owns (c : Thread nD τ) arg7 fullShare (out0_6 x0 x3)) -∗ K ⟨⟩))
      ⊢ wp frame (wpE (defs₀ (F := F)) Variants.none c none) E
          (cc0__proj_kernel i arg1 harg1 arg2 harg2 arg3 harg3 arg4 harg4 arg5 harg5 arg6 harg6 arg7 harg7) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0 _)
  isplitl [H5]
  · iexists _; isplitr
    swap; · iexact H5
    ipureintro
    exact View.read_writes_eq_canon _ _ _ (cover0 _)
  iexists _; isplitr
  swap; · iexact H6
  ipureintro
  exact View.read_writes_eq_canon _ _ _ (cover0 _)

/-! ## The pipeline's proof data -/

/-- The proof data of the projection's pipeline on core c: the arrays as the region finds them; after the body
    at point t each input's buffer at its block and each output's at its product of the input blocks; nothing
    kept from point to point beyond the untouched rest; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.AttnStep.lean ====
/-
  One grid point of the attention kernel as a pure function of what it reads.

  The kernel keeps, per query row of the current block, a running maximum `m`, a running denominator `l` and a running
  numerator row `acc` (the triple `Sc`). At a point it reads the two schedule words `qi` (query block) and `ki` (key block):
  * at the first key block of a query block (`ki = 0`) the triple is reset to `(-∞, 0, 0)`;
  * at a key block strictly below the diagonal (`ki < qi`) the triple takes the whole block in;
  * at the diagonal block (`ki = qi`) it takes in the block under the causal mask, and the output block is
    `acc · (1 / l)`.
  Each component is the kernel's own arithmetic, named once in the generated skeleton.
-/
import proofs.«431190_j5033701670934_3_alg».proof.Proof.Gen.KernelIdeal.Skeleton

noncomputable section

namespace Cert.KernelIdeal.Hand

open Cert.KernelIdeal Cert.KernelIdeal.Gen Idealize.ShloMosaic

variable {F : FTy → Type} [FloatOps F] [Named F]

/-- The running triple of a query block: maximum, denominator, numerator. -/
abbrev Sc (F : FTy → Type) : Type := Vec F S512x1 .f32 × Vec F S512x1 .f32 × Vec F S512x1024 .f32

/-- The reset triple `(-∞, 0, 0)`. -/
def scReset : Sc F := (k1_pay1, k1_pay2, k1_pay3)

/-- The triple after a whole key block `k`, `v` against the query block `q`. -/
def scBelow (q k v : Vec F S1x512x1024 .bf16) (s : Sc F) : Sc F :=
  (k1_pay11 q k s.1, k1_pay9 q k s.1 s.2.1, k1_pay10 q k v s.1 s.2.2)

/-- The triple after the diagonal key block, taken in under the causal mask. -/
def scDiag (q k v : Vec F S1x512x1024 .bf16) (s : Sc F) : Sc F :=
  (k1_pay19 (k1_pay5 q k) s.1, k1_pay17 (k1_pay5 q k) s.1 s.2.1, k1_pay18 (k1_pay4 v) (k1_pay5 q k) s.1 s.2.2)

/-- The output block from the finished triple: `acc · (1 / l)`, `l` guarded against zero. -/
def outDiag (s : Sc F) : Vec F S1x512x1024 .f32 := k1_pay12 (k1_pay20 s.2.1) s.2.1 s.2.2

/-- `ki = 0`, as the kernel computes it from the key-block word. -/
abbrev cFirst (ki : BitVec 32) : Prop := Scalar.cmpi .ne (Scalar.extui (Scalar.cmpi .eq ki 0#32)) 0#32 = 1#1
/-- `ki < qi`, as the kernel computes it from the two words. -/
abbrev cBelow (qi ki : BitVec 32) : Prop := Scalar.cmpi .ne (Scalar.extui (Scalar.cmpi .slt ki qi)) 0#32 = 1#1
/-- `ki = qi`, as the kernel computes it from the two words. -/
abbrev cDiag (qi ki : BitVec 32) : Prop := k1_cond3 qi ki = 1#1

/-- The triple after one grid point: reset if first, then one of the two updates. -/
def scStep (qi ki : BitVec 32) (q k v : Vec F S1x512x1024 .bf16) (s : Sc F) : Sc F :=
  let s1 := if cFirst ki then scReset else s
  let s2 := if cBelow qi ki then scBelow q k v s1 else s1
  if cDiag qi ki then scDiag q k v s2 else s2

end Cert.KernelIdeal.Hand

end
-- ==== Proof.R1Data.lean ====
/-
  The proof data of the attention region: what each window's staging buffer holds after a grid point, and
  the running triple the three scratch buffers carry from point to point.

  The region visits, per batch, the pairs (query block, key block) listed in two schedule tables. At point
  t the two schedule words are qiw a t and kiw a t; the three input windows hold the blocks of the
  query, key and value arrays the index maps select there; the triple after the point is scStep of the
  triple before it. The output window holds outDiag of the triple at the points where the key block is the
  diagonal one, and is left alone elsewhere.
-/
import proofs.«431190_j5033701670934_3_alg».proof.Proof.AttnStep
import proofs.«431190_j5033701670934_3_alg».proof.Proof.Gen.KernelIdeal.Launch
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The schedule words -/

/-- The query-block word of point t: the first table's element at the point's offset. -/
def qiw (a : (pcfg1 (F := F)).Adm) (t : Fin (cfg1 a).N) : BitVec 32 :=
  a.1.atD 0 (k1_off1 ((cfg1 a).grid.coords t))

/-- The key-block word of point t: the second table's element at the point's offset. -/
def kiw (a : (pcfg1 (F := F)).Adm) (t : Fin (cfg1 a).N) : BitVec 32 :=
  a.1.atD 1 (k1_off1 ((cfg1 a).grid.coords t))

section Data

variable (V : (c : Dev nD) → (b : Ref sig .tc) → Buf (Elt F) ((c : Thread nD τ).loc b)) (a : (pcfg1 (F := F)).Adm)

/-! ## The windows' blocks -/

/-- Window w's block at point t, read off its array as the region finds it. -/
def iblk1 (c : Dev nD) (w : Fin (cfg1 a).W) (t : Fin (cfg1 a).N) :
    (((cfg1 a).win w).xblock ((cfg1 a).grid.coords t)).Idx → Elt F ((cfg1 a).win w).elt :=
  (((cfg1 a).win w).blk t).view.read (Elt F) (V c (Pipeline.arrRef spec1 w))

/-! ## The running triple, point by point -/

/-- The triple after the first n points: the reset triple stepped through them in order. -/
def scAt (c : Dev nD) : ℕ → Sc F
  | 0 => scReset
  | n + 1 =>
    if h : n < (cfg1 a).N then
      scStep (qiw a ⟨n, h⟩) (kiw a ⟨n, h⟩) (iblk1 V a c 0 ⟨n, h⟩) (iblk1 V a c 1 ⟨n, h⟩) (iblk1 V a c 2 ⟨n, h⟩) (scAt c n)
    else scAt c n

theorem scAt_zero (c : Dev nD) : scAt V a c 0 = scReset := rfl

theorem scAt_succ (c : Dev nD) (n : ℕ) (h : n < (cfg1 a).N) :
    scAt V a c (n + 1)
      = scStep (qiw a ⟨n, h⟩) (kiw a ⟨n, h⟩) (iblk1 V a c 0 ⟨n, h⟩) (iblk1 V a c 1 ⟨n, h⟩) (iblk1 V a c 2 ⟨n, h⟩) (scAt V a c n) := by
  rw [scAt, dif_pos h]

/-! ## The scratch buffers and the invariant -/

/-- The three scratch buffers as the body is handed them: maximum, denominator, numerator. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x1024 .f32 := Memref.whole cc1_scratch2
/-- Their buffers, listed. -/
abbrev scL1 : List (Ref sig .tc) := [cc1_scratch0, cc1_scratch1, cc1_scratch2]

/-- What the invariant carries beside the scratch triple: every other scoped buffer that is no staging buffer of
    this region at some contents, the generator register at some state, and the two schedule tables at a. -/
def restS1 (c : Dev nD) : sProp 𝕄 :=
  iprop(Pipeline.scopedRestBut (Ix := Unit) (Name := ℕ) (U := UR sig nD τ) (Lvl := ℕ) (Val := Elt F) spec1 c scL1
    ∗ (∃ r, prngReg c r) ∗ Pipeline.prefHeld pre1 c (fun _ => fullShare) a.1)

/-- The invariant before position n: before the first point the scratch buffers hold anything; afterwards they
    hold the running triple scAt. -/
def PhiS1 (c : Dev nD) : (n : ℕ) → n ≤ (cfg1 a).N → sProp 𝕄
  | 0, _ => iprop((∃ d, owns (c : Thread nD τ) scM1_0 fullShare d) ∗ (∃ d, owns (c : Thread nD τ) scM1_1 fullShare d)
      ∗ (∃ d, owns (c : Thread nD τ) scM1_2 fullShare d) ∗ restS1 a c)
  | n + 1, _ => iprop(owns (c : Thread nD τ) scM1_0 fullShare (scAt V a c (n + 1)).1
      ∗ owns (c : Thread nD τ) scM1_1 fullShare (scAt V a c (n + 1)).2.1
      ∗ owns (c : Thread nD τ) scM1_2 fullShare (scAt V a c (n + 1)).2.2 ∗ restS1 a c)

theorem PhiS1_zero (c : Dev nD) (n : ℕ) (h : n ≤ (cfg1 a).N) (hz : n = 0) :
    PhiS1 V a c n h = iprop((∃ d, owns (c : Thread nD τ) scM1_0 fullShare d) ∗ (∃ d, owns (c : Thread nD τ) scM1_1 fullShare d)
      ∗ (∃ d, owns (c : Thread nD τ) scM1_2 fullShare d) ∗ restS1 a c) := by
  subst hz; rfl

theorem PhiS1_succ (c : Dev nD) (n : ℕ) (hn : n + 1 ≤ (cfg1 a).N) :
    PhiS1 V a c (n + 1) hn = iprop(owns (c : Thread nD τ) scM1_0 fullShare (scAt V a c (n + 1)).1
      ∗ owns (c : Thread nD τ) scM1_1 fullShare (scAt V a c (n + 1)).2.1
      ∗ owns (c : Thread nD τ) scM1_2 fullShare (scAt V a c (n + 1)).2.2 ∗ restS1 a c) := rfl

theorem PhiS1_pos (c : Dev nD) (n : ℕ) (h : n ≤ (cfg1 a).N) (hz : n ≠ 0) :
    PhiS1 V a c n h = iprop(owns (c : Thread nD τ) scM1_0 fullShare (scAt V a c n).1
      ∗ owns (c : Thread nD τ) scM1_1 fullShare (scAt V a c n).2.1
      ∗ owns (c : Thread nD τ) scM1_2 fullShare (scAt V a c n).2.2 ∗ restS1 a c) := by
  cases n with
  | zero => exact absurd rfl hz
  | succ n => rfl

/-! ## The proof data -/

/-- The region's proof data on core c: the arrays as the region finds them; after the body at point t each input
    window at its block and the output window at outDiag of the triple after the point; the invariant PhiS1;
    full shares; nothing owed. -/
def dat1 (c : Dev nD) : Dat τ (Elt F) Unit ℕ (UR sig nD τ) ℕ (cfg1 a) c where
  A w := V c (Pipeline.arrRef spec1 w)
  after w t := match w with
    | ⟨0, _⟩ => iblk1 V a c 0 t
    | ⟨1, _⟩ => iblk1 V a c 1 t
    | ⟨2, _⟩ => iblk1 V a c 2 t
    | ⟨3, _⟩ => outDiag (scAt V a c (t.val + 1))
  Φ t := PhiS1 V a c t.val (Nat.le_of_lt_succ t.isLt)
  q _ := fullShare
  owed _ := 0

theorem A_eq1 (c : Dev nD) (w : Fin (cfg1 a).W) : (dat1 V a c).A w = V c (Pipeline.arrRef spec1 w) := by
  dsimp only [dat1]

theorem after1_0 (c : Dev nD) (t : Fin (cfg1 a).N) : (dat1 V a c).after 0 t = iblk1 V a c 0 t := by dsimp only [dat1]; rfl
theorem after1_1 (c : Dev nD) (t : Fin (cfg1 a).N) : (dat1 V a c).after 1 t = iblk1 V a c 1 t := by dsimp only [dat1]; rfl
theorem after1_2 (c : Dev nD) (t : Fin (cfg1 a).N) : (dat1 V a c).after 2 t = iblk1 V a c 2 t := by dsimp only [dat1]; rfl
theorem after1_3 (c : Dev nD) (t : Fin (cfg1 a).N) : (dat1 V a c).after 3 t = outDiag (scAt V a c (t.val + 1)) := by dsimp only [dat1]; rfl

/-- The invariant at a point's start, restated at the point's position. -/
theorem PhiS1_castSucc (c : Dev nD) (t : Fin (cfg1 a).N) :
    (dat1 V a c).Φ t.castSucc = PhiS1 V a c t.val (Nat.le_of_lt t.isLt) := by
  dsimp only [dat1]; simp only [Fin.coe_castSucc]

end Data

end Cert.KernelIdeal.Hand

end
-- ==== Proof.Boundary.lean ====
/-
  The contents of the core's buffers at each boundary of the program: at launch, after the first stretch of
  host operations, after the projection region, after the second stretch, after the attention region; and
  the contents of the two schedule tables the attention region reads, which are the two constant tables
  the first stretch writes.
-/
import proofs.«431190_j5033701670934_3_alg».proof.Proof.R0Half
import proofs.«431190_j5033701670934_3_alg».proof.Proof.R1Data
import proofs.«431190_j5033701670934_3_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The schedule tables -/

/-- The two schedule tables: the query-block word and the key-block word of each of the 36 pairs. -/
def tab1 : pre1.Contents (Elt F) := fun k => match k with
  | ⟨0, _⟩ => fun i => lit0 (S36.rowMajor i)
  | ⟨1, _⟩ => fun i => lit1 (S36.rowMajor i)

theorem tab1_0 (x) : (tab1 (F := F)) 0 x = lit0 (S36.rowMajor x) := rfl
theorem tab1_1 (x) : (tab1 (F := F)) 1 x = lit1 (S36.rowMajor x) := rfl

/-- Every word of either table is a block number below 8. -/
theorem lit0_lt : ∀ j : Fin 36, (lit0 j).toNat < 8 := by decide
theorem lit1_lt : ∀ j : Fin 36, (lit1 j).toNat < 8 := by decide

/-- A block whose second index is a word below 8 and whose third index is 0 lies inside the
    [4, 4096, 1024] array, and its rows start and end on even rows. -/
theorem ok_block (f : Fin 3 → Nat) (b w : Nat) (hb : b < 4) (hw : w < 8) (e : f = ![b, w, 0]) :
    ∃ h : (∀ a, (f a + 1) * S1x512x1024.size a ≤ S4x4096x1024.size a),
      (Rect.block (s := S4x4096x1024) S1x512x1024.size f h).WholeWords 2 := by
  subst e
  refine ⟨fun a => ?_, ?_⟩
  · fin_cases a <;> simp [S1x512x1024, S4x4096x1024] <;> omega
  · refine Or.inl (Or.inr ⟨(by decide : 2 ≤ S4x4096x1024.rank), rfl, Or.inl ⟨?_, ?_⟩⟩)
    · show 2 ∣ w * 512
      exact Dvd.dvd.mul_left (by decide) _
    · show 2 ∣ 512
      decide

theorem coord0_lt (i : grid1.Coords) : (BitVec.ofNat 32 (i 0).val).toNat < 4 := by
  have h : (i 0).val < 4 := (i 0).isLt
  rw [BitVec.toNat_ofNat]; omega

/-- The side condition of the attention pipeline holds of the schedule tables. -/
theorem ok1_tab1 : ok1 (F := F) tab1 := by
  refine ⟨fun i => ?_, fun i => ?_, fun i => ?_, fun i => ?_⟩
  · obtain ⟨h, hw⟩ := ok_block (cc1_transform_0 k1_off1_inb numel1_S1 (tab1 (F := F)) i) _ _ (coord0_lt i) (lit0_lt _) rfl
    exact ⟨h, Or.inr hw⟩
  · obtain ⟨h, hw⟩ := ok_block (cc1_transform_1 k1_off1_inb numel1_S1 (tab1 (F := F)) i) _ _ (coord0_lt i) (lit1_lt _) rfl
    exact ⟨h, Or.inr hw⟩
  · obtain ⟨h, hw⟩ := ok_block (cc1_transform_2 k1_off1_inb numel1_S1 (tab1 (F := F)) i) _ _ (coord0_lt i) (lit1_lt _) rfl
    exact ⟨h, Or.inr hw⟩
  · obtain ⟨h, hw⟩ := ok_block (cc1_transform_3 k1_off1_inb numel1_S1 (tab1 (F := F)) i) _ _ (coord0_lt i) (lit0_lt _) rfl
    exact ⟨h, Or.inl rfl⟩

/-- The tables as admissible contents of the attention pipeline. -/
def adm1 : (pcfg1 (F := F)).Adm := ⟨tab1, ok1_tab1⟩

theorem adm1_val : (adm1 (F := F)).1 = tab1 := rfl

/-- Every pipeline's tables: the projection has none; the attention region's are the schedule tables. -/
abbrev adm : (p : Fin 2) → (pcfgs (F := F) p).Adm
  | ⟨0, _⟩ => cfg0.toPCfg_adm
  | ⟨1, _⟩ => adm1

/-! ## The buffers' contents at each boundary -/

section Run

variable (m : (ℓ : Loc nD τ sig) → Buf (Elt F) ℓ) (ρ : Dev nD → PrngReg)

/-- Core c's buffers at launch. -/
abbrev W0 : Dev nD → Valuation τ sig (Elt F) := fun c b => (⟨m, fun _ => 0, ρ⟩ : MemSt nD τ sig (Elt F)).mem ((c : Dev nD), b)
/-- After the first stretch of host operations: the projection region's entry. -/
abbrev W1 : Dev nD → Valuation τ sig (Elt F) := fun c => StableHlo.after hostOps0 (W0 m ρ c)
/-- The same read at the core's references. -/
abbrev V1 : (c : Dev nD) → (b : Ref sig .tc) → Buf (Elt F) ((c : Thread nD τ).loc b) := fun c b => W1 m ρ c b
/-- At the projection region's exit: its arrays at what the pipeline leaves (the inputs as entered, each output's
    write-backs folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 winFacts0.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
/-- At the projection region's exit each of its arrays holds what the pipeline leaves and every other buffer what
    it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch of host operations: the attention region's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the attention region's exit: its arrays at what the pipeline leaves, every other buffer as entered. -/
def W4 (c : Dev nD) : Valuation τ sig (Elt F) :=
  Pipeline.withArrays spec1 c (W3 m ρ c) fun w => (dat1 (V3 m ρ) (adm 1) c).arrAt w (cfg1 (F := F) (adm 1)).N
theorem W4_arr (c : Dev nD) (w : Fin (cfg1 (F := F) (adm 1)).W) :
    W4 m ρ c (Proc.devRef .tc (Pipeline.arrRef spec1 w)) = (dat1 (V3 m ρ) (adm 1) c).arrAt w (cfg1 (F := F) (adm 1)).N := by
  unfold W4; exact Pipeline.withArrays_arr spec1 winFacts1.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin (cfg1 (F := F) (adm 1)).W) :
    (dat1 (V3 m ρ) (adm 1) c).arrAt w (cfg1 (F := F) (adm 1)).N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### What no stretch writes and no region changes walks back unchanged -/

/-- A buffer the first stretch does not write holds its launch contents after it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- A buffer the second stretch does not write holds after it what it held before. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h

/-- An argument array is written by no host operation and is no region's array: it ends as launched. -/
theorem W4_main_arg0 (c : Dev nD) : W4 m ρ c (Proc.devRef .tc main_arg0) = m ((c : Thread nD τ).loc main_arg0) :=
  (W4_of_ne m ρ c main_arg0 (by decide)).trans <| (W3_of m ρ c main_arg0 (by decide)).trans <|
    (W2_of_ne m ρ c main_arg0 (by decide)).trans <| (W1_of m ρ c main_arg0 (by decide)).trans rfl
theorem W4_main_arg1 (c : Dev nD) : W4 m ρ c (Proc.devRef .tc main_arg1) = m ((c : Thread nD τ).loc main_arg1) :=
  (W4_of_ne m ρ c main_arg1 (by decide)).trans <| (W3_of m ρ c main_arg1 (by decide)).trans <|
    (W2_of_ne m ρ c main_arg1 (by decide)).trans <| (W1_of m ρ c main_arg1 (by decide)).trans rfl
theorem W4_main_arg2 (c : Dev nD) : W4 m ρ c (Proc.devRef .tc main_arg2) = m ((c : Thread nD τ).loc main_arg2) :=
  (W4_of_ne m ρ c main_arg2 (by decide)).trans <| (W3_of m ρ c main_arg2 (by decide)).trans <|
    (W2_of_ne m ρ c main_arg2 (by decide)).trans <| (W1_of m ρ c main_arg2 (by decide)).trans rfl
theorem W4_main_arg3 (c : Dev nD) : W4 m ρ c (Proc.devRef .tc main_arg3) = m ((c : Thread nD τ).loc main_arg3) :=
  (W4_of_ne m ρ c main_arg3 (by decide)).trans <| (W3_of m ρ c main_arg3 (by decide)).trans <|
    (W2_of_ne m ρ c main_arg3 (by decide)).trans <| (W1_of m ρ c main_arg3 (by decide)).trans rfl

/-- The result array holds at the end what the attention pipeline's write-backs leave in it. -/
theorem W4_main_v11 (c : Dev nD) :
    W4 m ρ c (Proc.devRef .tc main_v11) = (dat1 (V3 m ρ) (adm 1) c).arrAt 3 (cfg1 (F := F) (adm 1)).N :=
  W4_arr m ρ c 3

/-- The three projections hold after the projection region what its write-backs leave in them. -/
theorem W2_main_v7_0 (c : Dev nD) : W2 m ρ c (Proc.devRef .tc main_v7_0) = (dat0 (V1 m ρ) c).arrAt 4 cfg0.N := W2_arr m ρ c 4
theorem W2_main_v7_1 (c : Dev nD) : W2 m ρ c (Proc.devRef .tc main_v7_1) = (dat0 (V1 m ρ) c).arrAt 5 cfg0.N := W2_arr m ρ c 5
theorem W2_main_v7_2 (c : Dev nD) : W2 m ρ c (Proc.devRef .tc main_v7_2) = (dat0 (V1 m ρ) c).arrAt 6 cfg0.N := W2_arr m ρ c 6

/-! ### The schedule tables are written once, by the first stretch, and never after -/

theorem W1_main_c (c : Dev nD) : W1 m ρ c (Proc.devRef .tc main_c) = fun i => lit0 (S36.rowMajor i) := by
  show StableHlo.after (_ :: _ :: _) (W0 m ρ c) (Proc.devRef .tc main_c) = _
  rw [StableHlo.after_cons, StableHlo.after_cons,
    StableHlo.after_of_forall_not_mem (b := Proc.devRef .tc main_c) _ _ (List.forall_iff_forall_mem.mp (by
      simp only [List.Forall, StableHlo.unary_writes, StableHlo.reshape_writes, Finset.mem_singleton]
      repeat' apply And.intro
      all_goals exact StableHlo.devRef_ne_of_ne (by decide))),
    HloOp.result_of_not_mem _ _ (by rw [StableHlo.nullary_writes, Finset.mem_singleton]; exact StableHlo.devRef_ne_of_ne (by decide))]
  exact StableHlo.nullary_result _ _ _ _

theorem W1_main_c_0 (c : Dev nD) : W1 m ρ c (Proc.devRef .tc main_c_0) = fun i => lit1 (S36.rowMajor i) := by
  show StableHlo.after (_ :: _ :: _) (W0 m ρ c) (Proc.devRef .tc main_c_0) = _
  rw [StableHlo.after_cons, StableHlo.after_cons,
    StableHlo.after_of_forall_not_mem (b := Proc.devRef .tc main_c_0) _ _ (List.forall_iff_forall_mem.mp (by
      simp only [List.Forall, StableHlo.unary_writes, StableHlo.reshape_writes, Finset.mem_singleton]
      repeat' apply And.intro
      all_goals exact StableHlo.devRef_ne_of_ne (by decide)))]
  exact StableHlo.nullary_result _ _ _ _

/-- At the attention region's entry the two tables hold the schedule. -/
theorem V3_tab (c : Dev nD) : ∀ k : Fin 2, V3 m ρ c (pre1.ref k) = (adm1 (F := F)).1 k
  | ⟨0, _⟩ => (W3_of m ρ c main_c (by decide)).trans <| (W2_of_ne m ρ c main_c (by decide)).trans <| W1_main_c m ρ c
  | ⟨1, _⟩ => (W3_of m ρ c main_c_0 (by decide)).trans <| (W2_of_ne m ρ c main_c_0 (by decide)).trans <| W1_main_c_0 m ρ c

end Run

end Cert.KernelIdeal.Hand

end
-- ==== Proof.ProjValue.lean ====
/-
  Values, index by index.

  First, what one step of the projection region computes. The body rounds its 512×1024 block of
  activations to bf16 (the identity on extended reals), multiplies it by a 1024×1024 matrix into a zero
  accumulator and rounds the product again; so entry (r, o) of each of its three products is the inner
  product of row r of the block with column o of the matrix.
-/
import proofs.«431190_j5033701670934_3_alg».proof.Proof.Gen.KernelIdeal.Skeleton
import proofs.«431190_j5033701670934_3_alg».proof.Proof.Gen.KernelIdeal.Launch
import proofs.«431190_j5033701670934_3_alg».proof.Proof.Gen.KernelIdeal.Regions
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.TcCoe Idealize.ShloMosaic.ValueIdx
open Idealize.SL.Sem

/-! ## One product of the projection step at an index -/

/-- Axis 0 of the left operand's index is the output's row. -/
theorem projDot_lhs_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl

/-- Axis 1 of the left operand's index is the contracted coordinate. -/
theorem projDot_lhs_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q

/-- Axis 0 of the right operand's index is the contracted coordinate. -/
theorem projDot_rhs_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q

/-- Axis 1 of the right operand's index is the output's column. -/
theorem projDot_rhs_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- A 512×1024 by 1024×1024 product into the zero accumulator, at entry (r, o): the inner product of row r
    and column o. -/
theorem projDot_apply (a : FVec Ideal S512x1024 .bf16) (w : FVec Ideal S1024x1024 .bf16) (r : Fin 512) (o : Fin 1024) :
    FloatOps.matmul dot_S512x1024_S1024x1024_S512x1024_1_0_0_1_n_n none a w (constant S512x1024 .f32 0x00000000#32) (ix2 r o)
      = ∑ d : Fin 1024, a (ix2 r d) * w (ix2 d o) := by
  rw [Ideal.matmul_constant_zero_apply, ← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 r o) ((ValueIdx.contrEquiv1 dot_S512x1024_S1024x1024_S512x1024_1_0_0_1_n_n 1024 rfl rfl).symm k) = ix2 r k := funext fun a => Fin.ext (by
    match a with
    | ⟨0, _⟩ => exact projDot_lhs_0 _ _
    | ⟨1, _⟩ => exact (projDot_lhs_1 _ _).trans hk)
  have er : dot_S512x1024_S1024x1024_S512x1024_1_0_0_1_n_n.rhsIdx (ix2 r o) ((ValueIdx.contrEquiv1 dot_S512x1024_S1024x1024_S512x1024_1_0_0_1_n_n 1024 rfl rfl).symm k) = ix2 k o := funext fun a => Fin.ext (by
    match a with
    | ⟨0, _⟩ => exact (projDot_rhs_0 _ _).trans hk
    | ⟨1, _⟩ => exact projDot_rhs_1 _ _)
  rw [el, er]

/-- The first product of the step (the query projection's block) at entry (r, o). -/
theorem k0_pay2_apply (x0 : Vec Ideal S512x1024 .f32) (w : Vec Ideal S1024x1024 .bf16) (r : Fin 512) (o : Fin 1024) :
    k0_pay2 x0 w (ix2 r o) = ∑ d : Fin 1024, x0 (ix2 r d) * w (ix2 d o) := by
  unfold k0_pay2 k0_pay1
  rw [truncf_apply, shapeCast_self, shapeCast_self]
  exact projDot_apply _ _ r o

/-- The second product of the step (the key projection's block) at entry (r, o). -/
theorem k0_pay3_apply (x0 : Vec Ideal S512x1024 .f32) (w : Vec Ideal S1024x1024 .bf16) (r : Fin 512) (o : Fin 1024) :
    k0_pay3 x0 w (ix2 r o) = ∑ d : Fin 1024, x0 (ix2 r d) * w (ix2 d o) := by
  unfold k0_pay3 k0_pay1
  rw [truncf_apply, shapeCast_self, shapeCast_self]
  exact projDot_apply _ _ r o

/-- The third product of the step (the value projection's block) at entry (r, o). -/
theorem k0_pay4_apply (x0 : Vec Ideal S512x1024 .f32) (w : Vec Ideal S1024x1024 .bf16) (r : Fin 512) (o : Fin 1024) :
    k0_pay4 x0 w (ix2 r o) = ∑ d : Fin 1024, x0 (ix2 r d) * w (ix2 d o) := by
  unfold k0_pay4 k0_pay1
  rw [truncf_apply, shapeCast_self, shapeCast_self]
  exact projDot_apply _ _ r o

/-! ## The host operations around the projection region, read at an index

The first stretch transposes each weight matrix and rounds it to bf16 (the identity on extended reals), and
flattens the activations' two leading axes into 16384 rows; the second regroups each projection's 16384 rows
into 4 batches of 4096. Each fact holds from any contents `W` of the buffers. -/

/-- The buffer the first host stretch leaves holding the transposed matrix, as a term of the stretch's input. -/
theorem host0_v1_eq (W : Valuation τ sig (Elt Ideal)) :
    (StableHlo.after hostOps0 W (Proc.devRef .tc main_v1) : S1024x1024.Idx → EReal)
      = truncf (F := Ideal) .bf16 (transpose S1024x1024 [1, 0] (W (Proc.devRef .tc main_arg1) : FVec Ideal S1024x1024 .f32) transposes_S1024x1024_S1024x1024_1_0) bitsLt_bf16_f32 := by
  after_results <;> rfl

/-- Its entry (d, o) is the input matrix's entry (o, d): a transposition, the rounding dropped. -/
theorem host0_v1_apply (W : Valuation τ sig (Elt Ideal)) (d o : Fin 1024) :
    (StableHlo.after hostOps0 W (Proc.devRef .tc main_v1) : S1024x1024.Idx → EReal) (ix2 d o)
      = (W (Proc.devRef .tc main_arg1) : S1024x1024.Idx → EReal) (ix2 o d) := by
  rw [host0_v1_eq, truncf_apply]
  refine transpose_apply _ _ _ _ _ fun b => ?_
  match b with
  | ⟨0, _⟩ => rfl
  | ⟨1, _⟩ => rfl

/-- The buffer the first host stretch leaves holding the transposed matrix, as a term of the stretch's input. -/
theorem host0_v3_eq (W : Valuation τ sig (Elt Ideal)) :
    (StableHlo.after hostOps0 W (Proc.devRef .tc main_v3) : S1024x1024.Idx → EReal)
      = truncf (F := Ideal) .bf16 (transpose S1024x1024 [1, 0] (W (Proc.devRef .tc main_arg2) : FVec Ideal S1024x1024 .f32) transposes_S1024x1024_S1024x1024_1_0) bitsLt_bf16_f32 := by
  after_results <;> rfl

/-- Its entry (d, o) is the input matrix's entry (o, d): a transposition, the rounding dropped. -/
theorem host0_v3_apply (W : Valuation τ sig (Elt Ideal)) (d o : Fin 1024) :
    (StableHlo.after hostOps0 W (Proc.devRef .tc main_v3) : S1024x1024.Idx → EReal) (ix2 d o)
      = (W (Proc.devRef .tc main_arg2) : S1024x1024.Idx → EReal) (ix2 o d) := by
  rw [host0_v3_eq, truncf_apply]
  refine transpose_apply _ _ _ _ _ fun b => ?_
  match b with
  | ⟨0, _⟩ => rfl
  | ⟨1, _⟩ => rfl

/-- The buffer the first host stretch leaves holding the transposed matrix, as a term of the stretch's input. -/
theorem host0_v5_eq (W : Valuation τ sig (Elt Ideal)) :
    (StableHlo.after hostOps0 W (Proc.devRef .tc main_v5) : S1024x1024.Idx → EReal)
      = truncf (F := Ideal) .bf16 (transpose S1024x1024 [1, 0] (W (Proc.devRef .tc main_arg3) : FVec Ideal S1024x1024 .f32) transposes_S1024x1024_S1024x1024_1_0) bitsLt_bf16_f32 := by
  after_results <;> rfl

/-- Its entry (d, o) is the input matrix's entry (o, d): a transposition, the rounding dropped. -/
theorem host0_v5_apply (W : Valuation τ sig (Elt Ideal)) (d o : Fin 1024) :
    (StableHlo.after hostOps0 W (Proc.devRef .tc main_v5) : S1024x1024.Idx → EReal) (ix2 d o)
      = (W (Proc.devRef .tc main_arg3) : S1024x1024.Idx → EReal) (ix2 o d) := by
  rw [host0_v5_eq, truncf_apply]
  refine transpose_apply _ _ _ _ _ fun b => ?_
  match b with
  | ⟨0, _⟩ => rfl
  | ⟨1, _⟩ => rfl

/-- The buffer the first host stretch leaves holding the activations with their leading axes flattened. -/
theorem host0_v6_eq (W : Valuation τ sig (Elt Ideal)) :
    (StableHlo.after hostOps0 W (Proc.devRef .tc main_v6) : S16384x1024.Idx → EReal)
      = shapeCast S16384x1024 (W (Proc.devRef .tc main_arg0) : S4x4096x1024.Idx → EReal) shapeCasts_S4x4096x1024_S16384x1024 := by
  after_results <;> rfl

/-- Row j of the flattened activations is row j % 4096 of batch j / 4096. -/
theorem host0_v6_apply (W : Valuation τ sig (Elt Ideal)) (j : Fin 16384) (d : Fin 1024) :
    (StableHlo.after hostOps0 W (Proc.devRef .tc main_v6) : S16384x1024.Idx → EReal) (ix2 j d)
      = (W (Proc.devRef .tc main_arg0) : S4x4096x1024.Idx → EReal)
          (ix3 (⟨j.val / 4096, by omega⟩ : Fin 4) (⟨j.val % 4096, Nat.mod_lt _ (by decide)⟩ : Fin 4096) d) := by
  rw [host0_v6_eq]
  refine shapeCast_apply (s := S4x4096x1024) (t := S16384x1024) _ _ _ _ ?_
  rw [Shape.rowMajor_val_two, Shape.rowMajor_val_three]
  show ((j.val / 4096) * 4096 + j.val % 4096) * 1024 + d.val = j.val * 1024 + d.val
  omega

/-- The buffer the second host stretch leaves holding a projection regrouped by batch, as a term of the stretch's input. -/
theorem host1_v8_eq (W : Valuation τ sig (Elt Ideal)) :
    (StableHlo.after hostOps1 W (Proc.devRef .tc main_v8) : S4x4096x1024.Idx → EReal)
      = shapeCast S4x4096x1024 (W (Proc.devRef .tc main_v7_0) : S16384x1024.Idx → EReal) shapeCasts_S16384x1024_S4x4096x1024 := by
  after_results <;> rfl

/-- Its entry (b, n, o) is entry (4096·b + n, o) of the flat array. -/
theorem host1_v8_apply (W : Valuation τ sig (Elt Ideal)) (b : Fin 4) (n : Fin 4096) (o : Fin 1024) :
    (StableHlo.after hostOps1 W (Proc.devRef .tc main_v8) : S4x4096x1024.Idx → EReal) (ix3 b n o)
      = (W (Proc.devRef .tc main_v7_0) : S16384x1024.Idx → EReal) (ix2 (⟨4096 * b.val + n.val, by omega⟩ : Fin 16384) o) := by
  rw [host1_v8_eq]
  refine shapeCast_apply (s := S16384x1024) (t := S4x4096x1024) _ _ _ _ ?_
  rw [Shape.rowMajor_val_two, Shape.rowMajor_val_three]
  show (4096 * b.val + n.val) * 1024 + o.val = (b.val * 4096 + n.val) * 1024 + o.val
  omega

/-- The buffer the second host stretch leaves holding a projection regrouped by batch, as a term of the stretch's input. -/
theorem host1_v9_eq (W : Valuation τ sig (Elt Ideal)) :
    (StableHlo.after hostOps1 W (Proc.devRef .tc main_v9) : S4x4096x1024.Idx → EReal)
      = shapeCast S4x4096x1024 (W (Proc.devRef .tc main_v7_1) : S16384x1024.Idx → EReal) shapeCasts_S16384x1024_S4x4096x1024 := by
  after_results <;> rfl

/-- Its entry (b, n, o) is entry (4096·b + n, o) of the flat array. -/
theorem host1_v9_apply (W : Valuation τ sig (Elt Ideal)) (b : Fin 4) (n : Fin 4096) (o : Fin 1024) :
    (StableHlo.after hostOps1 W (Proc.devRef .tc main_v9) : S4x4096x1024.Idx → EReal) (ix3 b n o)
      = (W (Proc.devRef .tc main_v7_1) : S16384x1024.Idx → EReal) (ix2 (⟨4096 * b.val + n.val, by omega⟩ : Fin 16384) o) := by
  rw [host1_v9_eq]
  refine shapeCast_apply (s := S16384x1024) (t := S4x4096x1024) _ _ _ _ ?_
  rw [Shape.rowMajor_val_two, Shape.rowMajor_val_three]
  show (4096 * b.val + n.val) * 1024 + o.val = (b.val * 4096 + n.val) * 1024 + o.val
  omega

/-- The buffer the second host stretch leaves holding a projection regrouped by batch, as a term of the stretch's input. -/
theorem host1_v10_eq (W : Valuation τ sig (Elt Ideal)) :
    (StableHlo.after hostOps1 W (Proc.devRef .tc main_v10) : S4x4096x1024.Idx → EReal)
      = shapeCast S4x4096x1024 (W (Proc.devRef .tc main_v7_2) : S16384x1024.Idx → EReal) shapeCasts_S16384x1024_S4x4096x1024 := by
  after_results <;> rfl

/-- Its entry (b, n, o) is entry (4096·b + n, o) of the flat array. -/
theorem host1_v10_apply (W : Valuation τ sig (Elt Ideal)) (b : Fin 4) (n : Fin 4096) (o : Fin 1024) :
    (StableHlo.after hostOps1 W (Proc.devRef .tc main_v10) : S4x4096x1024.Idx → EReal) (ix3 b n o)
      = (W (Proc.devRef .tc main_v7_2) : S16384x1024.Idx → EReal) (ix2 (⟨4096 * b.val + n.val, by omega⟩ : Fin 16384) o) := by
  rw [host1_v10_eq]
  refine shapeCast_apply (s := S16384x1024) (t := S4x4096x1024) _ _ _ _ ?_
  rw [Shape.rowMajor_val_two, Shape.rowMajor_val_three]
  show (4096 * b.val + n.val) * 1024 + o.val = (b.val * 4096 + n.val) * 1024 + o.val
  omega

/-- The first host stretch changes no buffer but the nine it writes. -/
theorem host0_keeps (W : Valuation τ sig (Elt Ideal)) (r : Ref sig .tc) (h : r ∉ hostOps0_W) :
    StableHlo.after hostOps0 W (Proc.devRef .tc r) = W (Proc.devRef .tc r) :=
  StableHlo.after_of_writes_sub hostOps0 W hostOps0_writes h

/-- The second host stretch changes no buffer but the three it writes. -/
theorem host1_keeps (W : Valuation τ sig (Elt Ideal)) (r : Ref sig .tc) (h : r ∉ hostOps1_W) :
    StableHlo.after hostOps1 W (Proc.devRef .tc r) = W (Proc.devRef .tc r) :=
  StableHlo.after_of_writes_sub hostOps1 W hostOps1_writes h

end Cert.KernelIdeal.Hand

end
-- ==== Proof.ProjArrays.lean ====
/-
  The projection region's three results as whole arrays.

  Each grid point t multiplies rows 512·t … 512·t + 511 of the flattened activations by a whole weight matrix
  and writes the product back as the same rows of the result. The 32 row blocks tile the 16384 rows, so each
  result array ends as the full matrix product of the activations and its weight matrix, entry by entry.
-/
import proofs.«431190_j5033701670934_3_alg».proof.Proof.ProjValue
import proofs.«431190_j5033701670934_3_alg».proof.Proof.R0Half
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The zero offset of a whole-block access. -/
theorem offZero2 : (![0, 0] : Fin 2 → Nat) = fun _ => 0 := funext fun a => by fin_cases a <;> rfl

/-- The 16384×1024 product of the activations `a` and a weight matrix `w`: entry (j, o) is `∑ d, a[j,d] · w[d,o]`. -/
abbrev projG (a : S16384x1024.Idx → EReal) (w : S1024x1024.Idx → EReal) : S16384x1024.Idx → EReal :=
  fun j => ∑ d : Fin 1024, a (ix2 (j 0) d) * w (ix2 d (j 1))

/-- The windows' block indices at grid point t: the activations' and the three results' blocks are row block t,
    column block 0; each weight matrix is its one block (0, 0) at every point. -/
theorem blockIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-! ## Result 0: the query projection -/

/-- What point t writes back to the query projection's array is block t of the full product. -/
theorem flushed0_4_eq (c : Dev nD) (t : Fin cfg0.N) :
    (dat0 V c).flushed 4 t = ((cfg0.win 4).blk t).view.read (Elt Ideal) (projG (V c main_v6) (V c main_v1)) := by
  show (cfg0.win 4).cut (grid0.coords t) ((dat0 V c).after 4 t) = _
  rw [after0_4]
  unfold out0_4
  rw [View.canon_unit_zero offZero2]
  simp only [View.ld_unit_zero (S := S512x1024) offZero2, View.ld_unit_zero (S := S1024x1024) offZero2]
  funext y
  obtain ⟨r, o, rfl⟩ : ∃ (r : Fin 512) (o : Fin 1024), y = ix2 r o := ⟨y 0, y 1, eq_ix2 y⟩
  show k0_pay2 (iblk0 V c 0 t) (iblk0 V c 1 t) (ix2 r o) = projG (V c main_v6) (V c main_v1) (((cfg0.win 4).blk t).view.emb (ix2 r o))
  rw [k0_pay2_apply]
  obtain ⟨e00, e01, e10, e11, e20, e21, e30, e31, e40, e41, e50, e51, e60, e61⟩ := blockIdx0 t
  refine Finset.sum_congr rfl fun d _ => ?_
  have hx : iblk0 V c 0 t (ix2 r d) = V c main_v6 (ix2 ((((cfg0.win 4).blk t).view.emb (ix2 r o)) 0) d) := by
    show V c main_v6 (((cfg0.win 0).blk t).view.emb (ix2 r d)) = _
    refine congrArg _ (funext fun a => Fin.ext ?_)
    match a with
    | ⟨0, _⟩ => show win0_0.index t (0 : Fin 2) * 512 + 1 * r.val = win0_4.index t (0 : Fin 2) * 512 + 1 * r.val; omega
    | ⟨1, _⟩ => show win0_0.index t (1 : Fin 2) * 1024 + 1 * d.val = d.val; omega
  have hw : iblk0 V c 1 t (ix2 d o) = V c main_v1 (ix2 d ((((cfg0.win 4).blk t).view.emb (ix2 r o)) 1)) := by
    show V c main_v1 (((cfg0.win 1).blk t).view.emb (ix2 d o)) = _
    refine congrArg _ (funext fun a => Fin.ext ?_)
    match a with
    | ⟨0, _⟩ => show win0_1.index t (0 : Fin 2) * 1024 + 1 * d.val = d.val; omega
    | ⟨1, _⟩ => show win0_1.index t (1 : Fin 2) * 1024 + 1 * o.val = win0_4.index t (1 : Fin 2) * 1024 + 1 * o.val; omega
  rw [hx, hw]

/-- An index is in point t's block of the query projection's array iff each coordinate is in the block's range. -/
theorem mem_blk0_4 (t : Fin cfg0.N) (i : S16384x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v7_0).slice (win0_4.rect t)).set ↔ _
  rw [View.set_slice_whole, Rect.mem_set_unit]
  exact Iff.rfl

/-- Row j is in the block of point j / 512: the 32 row blocks cover the array. -/
theorem cover0_4 (i : S16384x1024.Idx) :
    ∃ t : Fin cfg0.N, (cfg0.win 4).flush t = true ∧ i ∈ ((cfg0.win 4).blk t).view.set := by
  have hi0 : (i 0).val < 16384 := (i 0).isLt
  have hi1 : (i 1).val < 1024 := (i 1).isLt
  obtain ⟨t, ht⟩ : ∃ t : Fin cfg0.N, t.val = (i 0).val / 512 :=
    ⟨⟨(i 0).val / 512, by show (i 0).val / 512 < grid0.N; rw [N_0]; omega⟩, rfl⟩
  obtain ⟨e00, e01, e10, e11, e20, e21, e30, e31, e40, e41, e50, e51, e60, e61⟩ := blockIdx0 t
  refine ⟨t, flush0_4 t, ?_⟩
  rw [mem_blk0_4]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 1024 ≤ (i 1).val ∧ (i 1).val < win0_4.index t (1 : Fin 2) * 1024 + 1024; omega

/-- After the region the query projection's array is the full product of the flattened activations and the
    transposed query weights, as the region found them. -/
theorem proj0_4 (c : Dev nD) :
    (dat0 V c).arrAt 4 cfg0.N = projG (V c main_v6) (V c main_v1) :=
  (dat0 V c).arrAt_eq_of_cover 4 (projG (V c main_v6) (V c main_v1)) (fun t _ => flushed0_4_eq V c t) cover0_4

/-! ## Result 1: the key projection -/

/-- What point t writes back to the key projection's array is block t of the full product. -/
theorem flushed0_5_eq (c : Dev nD) (t : Fin cfg0.N) :
    (dat0 V c).flushed 5 t = ((cfg0.win 5).blk t).view.read (Elt Ideal) (projG (V c main_v6) (V c main_v3)) := by
  show (cfg0.win 5).cut (grid0.coords t) ((dat0 V c).after 5 t) = _
  rw [after0_5]
  unfold out0_5
  rw [View.canon_unit_zero offZero2]
  simp only [View.ld_unit_zero (S := S512x1024) offZero2, View.ld_unit_zero (S := S1024x1024) offZero2]
  funext y
  obtain ⟨r, o, rfl⟩ : ∃ (r : Fin 512) (o : Fin 1024), y = ix2 r o := ⟨y 0, y 1, eq_ix2 y⟩
  show k0_pay3 (iblk0 V c 0 t) (iblk0 V c 2 t) (ix2 r o) = projG (V c main_v6) (V c main_v3) (((cfg0.win 5).blk t).view.emb (ix2 r o))
  rw [k0_pay3_apply]
  obtain ⟨e00, e01, e10, e11, e20, e21, e30, e31, e40, e41, e50, e51, e60, e61⟩ := blockIdx0 t
  refine Finset.sum_congr rfl fun d _ => ?_
  have hx : iblk0 V c 0 t (ix2 r d) = V c main_v6 (ix2 ((((cfg0.win 5).blk t).view.emb (ix2 r o)) 0) d) := by
    show V c main_v6 (((cfg0.win 0).blk t).view.emb (ix2 r d)) = _
    refine congrArg _ (funext fun a => Fin.ext ?_)
    match a with
    | ⟨0, _⟩ => show win0_0.index t (0 : Fin 2) * 512 + 1 * r.val = win0_5.index t (0 : Fin 2) * 512 + 1 * r.val; omega
    | ⟨1, _⟩ => show win0_0.index t (1 : Fin 2) * 1024 + 1 * d.val = d.val; omega
  have hw : iblk0 V c 2 t (ix2 d o) = V c main_v3 (ix2 d ((((cfg0.win 5).blk t).view.emb (ix2 r o)) 1)) := by
    show V c main_v3 (((cfg0.win 2).blk t).view.emb (ix2 d o)) = _
    refine congrArg _ (funext fun a => Fin.ext ?_)
    match a with
    | ⟨0, _⟩ => show win0_2.index t (0 : Fin 2) * 1024 + 1 * d.val = d.val; omega
    | ⟨1, _⟩ => show win0_2.index t (1 : Fin 2) * 1024 + 1 * o.val = win0_5.index t (1 : Fin 2) * 1024 + 1 * o.val; omega
  rw [hx, hw]

/-- An index is in point t's block of the key projection's array iff each coordinate is in the block's range. -/
theorem mem_blk0_5 (t : Fin cfg0.N) (i : S16384x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v7_1).slice (win0_5.rect t)).set ↔ _
  rw [View.set_slice_whole, Rect.mem_set_unit]
  exact Iff.rfl

/-- Row j is in the block of point j / 512: the 32 row blocks cover the array. -/
theorem cover0_5 (i : S16384x1024.Idx) :
    ∃ t : Fin cfg0.N, (cfg0.win 5).flush t = true ∧ i ∈ ((cfg0.win 5).blk t).view.set := by
  have hi0 : (i 0).val < 16384 := (i 0).isLt
  have hi1 : (i 1).val < 1024 := (i 1).isLt
  obtain ⟨t, ht⟩ : ∃ t : Fin cfg0.N, t.val = (i 0).val / 512 :=
    ⟨⟨(i 0).val / 512, by show (i 0).val / 512 < grid0.N; rw [N_0]; omega⟩, rfl⟩
  obtain ⟨e00, e01, e10, e11, e20, e21, e30, e31, e40, e41, e50, e51, e60, e61⟩ := blockIdx0 t
  refine ⟨t, flush0_5 t, ?_⟩
  rw [mem_blk0_5]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 1024 ≤ (i 1).val ∧ (i 1).val < win0_5.index t (1 : Fin 2) * 1024 + 1024; omega

/-- After the region the key projection's array is the full product of the flattened activations and the
    transposed key weights, as the region found them. -/
theorem proj0_5 (c : Dev nD) :
    (dat0 V c).arrAt 5 cfg0.N = projG (V c main_v6) (V c main_v3) :=
  (dat0 V c).arrAt_eq_of_cover 5 (projG (V c main_v6) (V c main_v3)) (fun t _ => flushed0_5_eq V c t) cover0_5

/-! ## Result 2: the value projection -/

/-- What point t writes back to the value projection's array is block t of the full product. -/
theorem flushed0_6_eq (c : Dev nD) (t : Fin cfg0.N) :
    (dat0 V c).flushed 6 t = ((cfg0.win 6).blk t).view.read (Elt Ideal) (projG (V c main_v6) (V c main_v5)) := by
  show (cfg0.win 6).cut (grid0.coords t) ((dat0 V c).after 6 t) = _
  rw [after0_6]
  unfold out0_6
  rw [View.canon_unit_zero offZero2]
  simp only [View.ld_unit_zero (S := S512x1024) offZero2, View.ld_unit_zero (S := S1024x1024) offZero2]
  funext y
  obtain ⟨r, o, rfl⟩ : ∃ (r : Fin 512) (o : Fin 1024), y = ix2 r o := ⟨y 0, y 1, eq_ix2 y⟩
  show k0_pay4 (iblk0 V c 0 t) (iblk0 V c 3 t) (ix2 r o) = projG (V c main_v6) (V c main_v5) (((cfg0.win 6).blk t).view.emb (ix2 r o))
  rw [k0_pay4_apply]
  obtain ⟨e00, e01, e10, e11, e20, e21, e30, e31, e40, e41, e50, e51, e60, e61⟩ := blockIdx0 t
  refine Finset.sum_congr rfl fun d _ => ?_
  have hx : iblk0 V c 0 t (ix2 r d) = V c main_v6 (ix2 ((((cfg0.win 6).blk t).view.emb (ix2 r o)) 0) d) := by
    show V c main_v6 (((cfg0.win 0).blk t).view.emb (ix2 r d)) = _
    refine congrArg _ (funext fun a => Fin.ext ?_)
    match a with
    | ⟨0, _⟩ => show win0_0.index t (0 : Fin 2) * 512 + 1 * r.val = win0_6.index t (0 : Fin 2) * 512 + 1 * r.val; omega
    | ⟨1, _⟩ => show win0_0.index t (1 : Fin 2) * 1024 + 1 * d.val = d.val; omega
  have hw : iblk0 V c 3 t (ix2 d o) = V c main_v5 (ix2 d ((((cfg0.win 6).blk t).view.emb (ix2 r o)) 1)) := by
    show V c main_v5 (((cfg0.win 3).blk t).view.emb (ix2 d o)) = _
    refine congrArg _ (funext fun a => Fin.ext ?_)
    match a with
    | ⟨0, _⟩ => show win0_3.index t (0 : Fin 2) * 1024 + 1 * d.val = d.val; omega
    | ⟨1, _⟩ => show win0_3.index t (1 : Fin 2) * 1024 + 1 * o.val = win0_6.index t (1 : Fin 2) * 1024 + 1 * o.val; omega
  rw [hx, hw]

/-- An index is in point t's block of the value projection's array iff each coordinate is in the block's range. -/
theorem mem_blk0_6 (t : Fin cfg0.N) (i : S16384x1024.Idx) :
    i ∈ ((cfg0.win 6).blk t).view.set ↔ ∀ a : Fin 2, win0_6.index t a * S512x1024.size a ≤ (i a).val ∧ (i a).val < win0_6.index t a * S512x1024.size a + S512x1024.size a := by
  show i ∈ ((View.whole main_v7_2).slice (win0_6.rect t)).set ↔ _
  rw [View.set_slice_whole, Rect.mem_set_unit]
  exact Iff.rfl

/-- Row j is in the block of point j / 512: the 32 row blocks cover the array. -/
theorem cover0_6 (i : S16384x1024.Idx) :
    ∃ t : Fin cfg0.N, (cfg0.win 6).flush t = true ∧ i ∈ ((cfg0.win 6).blk t).view.set := by
  have hi0 : (i 0).val < 16384 := (i 0).isLt
  have hi1 : (i 1).val < 1024 := (i 1).isLt
  obtain ⟨t, ht⟩ : ∃ t : Fin cfg0.N, t.val = (i 0).val / 512 :=
    ⟨⟨(i 0).val / 512, by show (i 0).val / 512 < grid0.N; rw [N_0]; omega⟩, rfl⟩
  obtain ⟨e00, e01, e10, e11, e20, e21, e30, e31, e40, e41, e50, e51, e60, e61⟩ := blockIdx0 t
  refine ⟨t, flush0_6 t, ?_⟩
  rw [mem_blk0_6]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 1024 ≤ (i 1).val ∧ (i 1).val < win0_6.index t (1 : Fin 2) * 1024 + 1024; omega

/-- After the region the value projection's array is the full product of the flattened activations and the
    transposed value weights, as the region found them. -/
theorem proj0_6 (c : Dev nD) :
    (dat0 V c).arrAt 6 cfg0.N = projG (V c main_v6) (V c main_v5) :=
  (dat0 V c).arrAt_eq_of_cover 6 (projG (V c main_v6) (V c main_v5)) (fun t _ => flushed0_6_eq V c t) cover0_6

end Cert.KernelIdeal.Hand

end
-- ==== Proof.QkvValue.lean ====
/-
  The attention region's three inputs are the three projections of the launch arrays.

  The flat 16384×1024 product of the flattened activations and a transposed weight matrix, regrouped into
  4 batches of 4096 rows, is entry by entry the projection `∑ d, x[b,n,d] · W[o,d]`: row 4096·b + n of the
  flattened activations is row n of batch b, and the transposed matrix's entry (d, o) is `W[o,d]`.
-/
import proofs.«431190_j5033701670934_3_alg».proof.Proof.ProjArrays
import proofs.«431190_j5033701670934_3_alg».proof.Proof.Boundary
import proofs.«431190_j5033701670934_3_alg».proof.Proof.Spec

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-- Flat row 4096·b + n splits back into batch b and row n. -/
theorem flatRow_split (x : S4x4096x1024.Idx → EReal) (b : Fin 4) (n : Fin 4096) (d : Fin 1024) (j : Fin 16384)
    (hj : j.val = 4096 * b.val + n.val) (h1 : j.val / 4096 < 4) (h2 : j.val % 4096 < 4096) :
    x (ix3 (⟨j.val / 4096, h1⟩ : Fin 4) (⟨j.val % 4096, h2⟩ : Fin 4096) d) = x (ix3 b n d) := by
  have hb := b.isLt
  have hn := n.isLt
  have e1 : (⟨j.val / 4096, h1⟩ : Fin 4) = b := Fin.ext (by show j.val / 4096 = b.val; omega)
  have e2 : (⟨j.val % 4096, h2⟩ : Fin 4096) = n := Fin.ext (by show j.val % 4096 = n.val; omega)
  rw [e1, e2]

/-- The flat product of the flattened activations `a` and the transposed weights `wt`, at row 4096·b + n and
    column o, is the projection of row (b, n) of `x` by `w` at output feature o. -/
theorem regroup_projG (x : S4x4096x1024.Idx → EReal) (w : S1024x1024.Idx → EReal)
    (a : S16384x1024.Idx → EReal) (wt : S1024x1024.Idx → EReal)
    (ha : ∀ (j : Fin 16384) (d : Fin 1024), a (ix2 j d)
      = x (ix3 (⟨j.val / 4096, by omega⟩ : Fin 4) (⟨j.val % 4096, Nat.mod_lt _ (by decide)⟩ : Fin 4096) d))
    (hw : ∀ d o : Fin 1024, wt (ix2 d o) = w (ix2 o d)) (b : Fin 4) (n : Fin 4096) (o : Fin 1024) :
    projG a wt (ix2 (⟨4096 * b.val + n.val, by omega⟩ : Fin 16384) o) = Cert.Spec.proj x w b n o := by
  show ∑ d : Fin 1024, a (ix2 (⟨4096 * b.val + n.val, by omega⟩ : Fin 16384) d) * wt (ix2 d o) = _
  unfold Cert.Spec.proj
  refine Finset.sum_congr rfl fun d _ => ?_
  rw [ha, hw, flatRow_split x b n d _ rfl]

section Run

variable (m : (ℓ : Loc nD τ sig) → Buf (Elt Ideal) ℓ) (ρ : Dev nD → PrngReg)

/-- At the attention region's entry its query, key and value arrays hold the projections of the launch
    activations by the three launch weight matrices. -/
theorem qkv_value (c : Dev nD) :
    (∀ (b : Fin 4) (n : Fin 4096) (o : Fin 1024), (V3 m ρ c main_v8 : S4x4096x1024.Idx → EReal) (ix3 b n o)
        = Cert.Spec.proj (m ((c.tc : Thread nD τ).loc main_arg0)) (m ((c.tc : Thread nD τ).loc main_arg1)) b n o)
    ∧ (∀ (b : Fin 4) (n : Fin 4096) (o : Fin 1024), (V3 m ρ c main_v9 : S4x4096x1024.Idx → EReal) (ix3 b n o)
        = Cert.Spec.proj (m ((c.tc : Thread nD τ).loc main_arg0)) (m ((c.tc : Thread nD τ).loc main_arg2)) b n o)
    ∧ (∀ (b : Fin 4) (n : Fin 4096) (o : Fin 1024), (V3 m ρ c main_v10 : S4x4096x1024.Idx → EReal) (ix3 b n o)
        = Cert.Spec.proj (m ((c.tc : Thread nD τ).loc main_arg0)) (m ((c.tc : Thread nD τ).loc main_arg3)) b n o) := by
  refine ⟨fun b n o => ?_, fun b n o => ?_, fun b n o => ?_⟩
  · show (StableHlo.after hostOps1 (W2 m ρ c) (Proc.devRef .tc main_v8) : S4x4096x1024.Idx → EReal) (ix3 b n o) = _
    rw [host1_v8_apply, W2_main_v7_0, proj0_4]
    exact regroup_projG _ _ _ _ (host0_v6_apply (W0 m ρ c)) (host0_v1_apply (W0 m ρ c)) b n o
  · show (StableHlo.after hostOps1 (W2 m ρ c) (Proc.devRef .tc main_v9) : S4x4096x1024.Idx → EReal) (ix3 b n o) = _
    rw [host1_v9_apply, W2_main_v7_1, proj0_5]
    exact regroup_projG _ _ _ _ (host0_v6_apply (W0 m ρ c)) (host0_v3_apply (W0 m ρ c)) b n o
  · show (StableHlo.after hostOps1 (W2 m ρ c) (Proc.devRef .tc main_v10) : S4x4096x1024.Idx → EReal) (ix3 b n o) = _
    rw [host1_v10_apply, W2_main_v7_2, proj0_6]
    exact regroup_projG _ _ _ _ (host0_v6_apply (W0 m ρ c)) (host0_v5_apply (W0 m ρ c)) b n o

end Run

end Cert.KernelIdeal.Hand

end
-- ==== Proof.Online.lean ====
/-
  Softmax accumulated block by block. For logits `z c` (real or `-∞`) and real values `v c`, the running triple over a
  set `K` of keys already seen is: the largest logit `mx`, the sum `den` of `exp (z c - mx)`, and the sum `num` of
  `exp (z c - mx) · v c`. Taking in a new block rescales the old sums by `exp (mx - mx')`; the result is the triple of the
  larger set (`step`). Once every key outside `K` is masked (`-∞`), `num / den` is the softmax-weighted mean over ALL keys
  (`final`).
-/
import Idealize.ShloMosaic.PureOps.Ideal

noncomputable section

namespace Cert.Online

open Idealize.ShloMosaic

variable {ι : Type} [DecidableEq ι]

/-- The largest logit among the keys of `K` (`-∞` for no key). -/
def mx (z : ι → EReal) (K : Finset ι) : EReal := K.sup z
/-- The sum of `exp (z c - mx)` over the keys of `K`. -/
def den (z : ι → EReal) (K : Finset ι) : EReal := ∑ c ∈ K, Ideal.exp (z c - mx z K)
/-- The sum of `exp (z c - mx) · v c` over the keys of `K`. -/
def num (z v : ι → EReal) (K : Finset ι) : EReal := ∑ c ∈ K, Ideal.exp (z c - mx z K) * v c

theorem mx_empty (z : ι → EReal) : mx z ∅ = ⊥ := by
  unfold mx; exact Finset.sup_empty
theorem den_empty (z : ι → EReal) : den z ∅ = 0 := by
  unfold den; exact Finset.sum_empty
theorem num_empty (z v : ι → EReal) : num z v ∅ = 0 := by
  unfold num; exact Finset.sum_empty

/-! ### Real witnesses

Against a real level `M`, every weight `exp (x - M)` with `x < +∞` is a nonnegative real: `0` at `x = -∞` and
`e^(r - M)` at a real `r`. All sums below are therefore coercions of real sums, and the algebra is done in `ℝ`. -/

/-- The coercion `ℝ → EReal` commutes with finite sums. -/
theorem coe_sum {α : Type} (s : Finset α) (f : α → ℝ) :
    ((∑ a ∈ s, f a : ℝ) : EReal) = ∑ a ∈ s, (f a : EReal) := by
  classical
  refine Finset.induction_on s ?_ ?_
  · simp
  · intro a s ha ih
    rw [Finset.sum_insert ha, Finset.sum_insert ha, EReal.coe_add, ih]

/-- The weight `exp (x - M)` as a real number. -/
def wtx (x : EReal) (M : ℝ) : ℝ := (Ideal.exp (x - (M : EReal))).toReal

theorem wtx_bot (M : ℝ) : wtx ⊥ M = 0 := by
  unfold wtx; rw [EReal.bot_sub, Ideal.exp_bot, EReal.toReal_zero]

theorem wtx_coe (r M : ℝ) : wtx (r : EReal) M = Real.exp (r - M) := by
  unfold wtx; rw [← EReal.coe_sub, Ideal.exp_coe, EReal.toReal_coe]

theorem exp_sub_eq (x : EReal) (hx : x ≠ ⊤) (M : ℝ) :
    Ideal.exp (x - (M : EReal)) = ((wtx x M : ℝ) : EReal) := by
  induction x using EReal.rec with
  | bot => rw [wtx_bot, EReal.bot_sub, Ideal.exp_bot, EReal.coe_zero]
  | coe r => rw [wtx_coe, ← EReal.coe_sub, Ideal.exp_coe]
  | top => exact absurd rfl hx

theorem wtx_nonneg (x : EReal) (M : ℝ) : 0 ≤ wtx x M := by
  induction x using EReal.rec with
  | bot => rw [wtx_bot]
  | coe r => rw [wtx_coe]; exact (Real.exp_pos _).le
  | top => unfold wtx; rw [EReal.top_sub_coe, Ideal.exp_top, EReal.toReal_top]

theorem wtx_pos (x : EReal) (hx : x ≠ ⊤) (hb : x ≠ ⊥) (M : ℝ) : 0 < wtx x M := by
  induction x using EReal.rec with
  | bot => exact absurd rfl hb
  | coe r => rw [wtx_coe]; exact Real.exp_pos _
  | top => exact absurd rfl hx

/-- Changing the level from `M` to `M'` multiplies every weight by `e^(M - M')`. -/
theorem wtx_rescale (x : EReal) (M M' : ℝ) : wtx x M' = Real.exp (M - M') * wtx x M := by
  induction x using EReal.rec with
  | bot => rw [wtx_bot, wtx_bot, mul_zero]
  | coe r => rw [wtx_coe, wtx_coe, ← Real.exp_add]; congr 1; ring
  | top =>
    unfold wtx
    rw [EReal.top_sub_coe, EReal.top_sub_coe, Ideal.exp_top, EReal.toReal_top, mul_zero]

theorem sum_exp_coe {α : Type} (z : α → EReal) (hz : ∀ c, z c ≠ ⊤) (K : Finset α) (M : ℝ) :
    ∑ c ∈ K, Ideal.exp (z c - (M : EReal)) = ((∑ c ∈ K, wtx (z c) M : ℝ) : EReal) := by
  rw [coe_sum]
  exact Finset.sum_congr rfl fun c _ => exp_sub_eq (z c) (hz c) M

theorem sum_exp_mul_coe {α : Type} (z v : α → EReal) (hz : ∀ c, z c ≠ ⊤) (hv : ∀ c, v c ≠ ⊥ ∧ v c ≠ ⊤)
    (K : Finset α) (M : ℝ) :
    ∑ c ∈ K, Ideal.exp (z c - (M : EReal)) * v c
      = ((∑ c ∈ K, wtx (z c) M * (v c).toReal : ℝ) : EReal) := by
  rw [coe_sum]
  refine Finset.sum_congr rfl fun c _ => ?_
  rw [EReal.coe_mul, ← exp_sub_eq (z c) (hz c) M, EReal.coe_toReal (hv c).2 (hv c).1]

/-! ### The running maximum -/

theorem mx_ne_top (z : ι → EReal) (hz : ∀ c, z c ≠ ⊤) (K : Finset ι) : mx z K ≠ ⊤ := by
  have h : K.sup z < ⊤ := (Finset.sup_lt_iff bot_lt_top).2 fun c _ => lt_top_iff_ne_top.2 (hz c)
  exact h.ne

theorem mx_ne_bot (z : ι → EReal) (K : Finset ι) (c : ι) (hc : c ∈ K) (h : z c ≠ ⊥) : mx z K ≠ ⊥ := by
  intro hb
  have hle : z c ≤ mx z K := Finset.le_sup (f := z) hc
  rw [hb] at hle
  exact h (le_bot_iff.1 hle)

theorem mx_real (z : ι → EReal) (hz : ∀ c, z c ≠ ⊤) (K : Finset ι) (hb : mx z K ≠ ⊥) :
    ∃ M : ℝ, mx z K = (M : EReal) :=
  ⟨_, (EReal.coe_toReal (mx_ne_top z hz K) hb).symm⟩

theorem den_eq_coe (z : ι → EReal) (hz : ∀ c, z c ≠ ⊤) (K : Finset ι) (M : ℝ) (hM : mx z K = (M : EReal)) :
    den z K = ((∑ c ∈ K, wtx (z c) M : ℝ) : EReal) := by
  unfold den; rw [hM]; exact sum_exp_coe z hz K M

theorem num_eq_coe (z v : ι → EReal) (hz : ∀ c, z c ≠ ⊤) (hv : ∀ c, v c ≠ ⊥ ∧ v c ≠ ⊤) (K : Finset ι) (M : ℝ)
    (hM : mx z K = (M : EReal)) :
    num z v K = ((∑ c ∈ K, wtx (z c) M * (v c).toReal : ℝ) : EReal) := by
  unfold num; rw [hM]; exact sum_exp_mul_coe z v hz hv K M

theorem mx_union_map {β : Type} [Fintype β] (z : ι → EReal) (K : Finset ι) (e : β ↪ ι) :
    max (mx z K) (Finset.univ.sup fun y => z (e y)) = mx z (K ∪ Finset.univ.map e) := by
  unfold mx
  rw [Finset.sup_union, Finset.sup_map]
  rfl

/-- The rescaling identity in `ℝ`: the old weighted sum at level `M`, multiplied by `e^(M - M')`, plus the block's
    weighted sum at level `M'`, is the weighted sum of the enlarged set at level `M'`. -/
theorem real_step {β : Type} [Fintype β] (z : ι → EReal) (g : ι → ℝ) (K : Finset ι) (e : β ↪ ι)
    (hdisj : ∀ y, e y ∉ K) (M M' : ℝ) :
    Real.exp (M - M') * ∑ c ∈ K, wtx (z c) M * g c + ∑ y, wtx (z (e y)) M' * g (e y)
      = ∑ c ∈ K ∪ Finset.univ.map e, wtx (z c) M' * g c := by
  have hd : Disjoint K (Finset.univ.map e) := by
    rw [Finset.disjoint_left]
    intro c hc hm
    obtain ⟨y, -, rfl⟩ := Finset.mem_map.1 hm
    exact hdisj y hc
  rw [Finset.sum_union hd, Finset.sum_map, Finset.mul_sum]
  congr 1
  refine Finset.sum_congr rfl fun c _ => ?_
  rw [wtx_rescale (z c) M M']; ring

/-- Taking in a block of new keys `e y` (none of them seen before, at least one unmasked): the new maximum, and the old
    sums rescaled by `exp (mx - mx')` plus the block's own sums, are the triple of the enlarged set. The keys seen so far
    are none, or have a finite maximum. -/
theorem step {β : Type} [Fintype β] (z v : ι → EReal) (K : Finset ι) (e : β ↪ ι)
    (hdisj : ∀ y, e y ∉ K) (hz : ∀ c, z c ≠ ⊤) (hv : ∀ c, v c ≠ ⊥ ∧ v c ≠ ⊤)
    (hJ : ∃ y, z (e y) ≠ ⊥) (hK : K = ∅ ∨ mx z K ≠ ⊥) :
    max (mx z K) (Finset.univ.sup fun y => z (e y)) = mx z (K ∪ Finset.univ.map e)
    ∧ Ideal.exp (mx z K - mx z (K ∪ Finset.univ.map e)) * den z K
        + ∑ y, Ideal.exp (z (e y) - mx z (K ∪ Finset.univ.map e)) = den z (K ∪ Finset.univ.map e)
    ∧ Ideal.exp (mx z K - mx z (K ∪ Finset.univ.map e)) * num z v K
        + ∑ y, Ideal.exp (z (e y) - mx z (K ∪ Finset.univ.map e)) * v (e y) = num z v (K ∪ Finset.univ.map e)
    ∧ mx z (K ∪ Finset.univ.map e) ≠ ⊥ := by
  obtain ⟨y0, hy0⟩ := hJ
  have hbot : mx z (K ∪ Finset.univ.map e) ≠ ⊥ :=
    mx_ne_bot z _ (e y0) (Finset.mem_union_right _ (Finset.mem_map_of_mem e (Finset.mem_univ y0))) hy0
  refine ⟨mx_union_map z K e, ?_, ?_, hbot⟩
  · rcases hK with rfl | hK
    · -- nothing seen yet: the old sum is empty, and the block's sum is the sum over its image
      rw [Finset.empty_union, den_empty, mul_zero, zero_add]
      unfold den
      rw [Finset.sum_map]
    · obtain ⟨M, hM⟩ := mx_real z hz K hK
      obtain ⟨M', hM'⟩ := mx_real z hz _ hbot
      have hblk : ∑ y, Ideal.exp (z (e y) - (M' : EReal)) = ((∑ y, wtx (z (e y)) M' : ℝ) : EReal) :=
        sum_exp_coe (fun y => z (e y)) (fun y => hz (e y)) Finset.univ M'
      rw [den_eq_coe z hz K M hM, den_eq_coe z hz _ M' hM', hM, hM', hblk, ← EReal.coe_sub, Ideal.exp_coe,
        ← EReal.coe_mul, ← EReal.coe_add]
      congr 1
      simpa using real_step z (fun _ => 1) K e hdisj M M'
  · rcases hK with rfl | hK
    · rw [Finset.empty_union, num_empty, mul_zero, zero_add]
      unfold num
      rw [Finset.sum_map]
    · obtain ⟨M, hM⟩ := mx_real z hz K hK
      obtain ⟨M', hM'⟩ := mx_real z hz _ hbot
      have hblk : ∑ y, Ideal.exp (z (e y) - (M' : EReal)) * v (e y)
          = ((∑ y, wtx (z (e y)) M' * (v (e y)).toReal : ℝ) : EReal) :=
        sum_exp_mul_coe (fun y => z (e y)) (fun y => v (e y)) (fun y => hz (e y)) (fun y => hv (e y)) Finset.univ M'
      rw [num_eq_coe z v hz hv K M hM, num_eq_coe z v hz hv _ M' hM', hM, hM', hblk, ← EReal.coe_sub, Ideal.exp_coe,
        ← EReal.coe_mul, ← EReal.coe_add]
      congr 1
      exact real_step z (fun c => (v c).toReal) K e hdisj M M'

/-- With every key outside `K` masked and some key of `K` unmasked: the denominator is a positive real, and
    `num · (1 / den)` is the softmax-weighted mean `∑ c, (exp (z c - M) / ∑ c', exp (z c' - M)) · v c` over all keys,
    `M` the largest logit of all. -/
theorem final [Fintype ι] (z v : ι → EReal) (K : Finset ι)
    (hout : ∀ c, c ∉ K → z c = ⊥) (hreal : ∃ c ∈ K, z c ≠ ⊥) (hz : ∀ c, z c ≠ ⊤) (hv : ∀ c, v c ≠ ⊥ ∧ v c ≠ ⊤) :
    0 < den z K ∧ den z K ≠ ⊤
    ∧ num z v K * Ideal.div 1 (den z K)
        = ∑ c, Ideal.div (Ideal.exp (z c - Finset.univ.sup z)) (∑ c', Ideal.exp (z c' - Finset.univ.sup z)) * v c := by
  obtain ⟨c0, hc0K, hc0⟩ := hreal
  obtain ⟨M, hM⟩ := mx_real z hz K (mx_ne_bot z K c0 hc0K hc0)
  -- masked keys do not move the maximum
  have hsup : Finset.univ.sup z = (M : EReal) := by
    rw [← hM]; unfold mx
    refine le_antisymm (Finset.sup_le fun c _ => ?_) (Finset.sup_mono (Finset.subset_univ K))
    by_cases hc : c ∈ K
    · exact Finset.le_sup (f := z) hc
    · rw [hout c hc]; exact bot_le
  have hDpos : 0 < ∑ c ∈ K, wtx (z c) M :=
    Finset.sum_pos' (fun c _ => wtx_nonneg _ _) ⟨c0, hc0K, wtx_pos (z c0) (hz c0) hc0 M⟩
  have hden := den_eq_coe z hz K M hM
  have hnum := num_eq_coe z v hz hv K M hM
  obtain ⟨D, hD⟩ : ∃ D : ℝ, ∑ c ∈ K, wtx (z c) M = D := ⟨_, rfl⟩
  rw [hD] at hDpos hden
  -- masked keys have weight zero, so the sum over all keys is the sum over `K`
  have hall : ∑ c', Ideal.exp (z c' - (M : EReal)) = (D : EReal) := by
    rw [sum_exp_coe z hz Finset.univ M, ← hD]
    congr 1
    exact (Finset.sum_subset (Finset.subset_univ K) fun c _ hc => by rw [hout c hc, wtx_bot]).symm
  have hterm : ∀ c, Ideal.div (Ideal.exp (z c - (M : EReal))) (D : EReal) * v c
      = ((wtx (z c) M * (1 / D) * (v c).toReal : ℝ) : EReal) := by
    intro c
    rw [Ideal.div_coe hDpos.ne', exp_sub_eq (z c) (hz c) M, EReal.coe_mul, EReal.coe_mul,
      EReal.coe_toReal (hv c).2 (hv c).1]
  refine ⟨by rw [hden]; exact EReal.coe_pos.2 hDpos, by rw [hden]; exact EReal.coe_ne_top _, ?_⟩
  rw [hsup, hall, hnum, hden, Ideal.div_coe hDpos.ne' 1, Finset.sum_congr rfl fun c _ => hterm c, ← coe_sum, one_mul,
    ← EReal.coe_mul]
  congr 1
  rw [← Finset.sum_subset (Finset.subset_univ K) (fun c _ hc => by rw [hout c hc, wtx_bot]; ring), Finset.sum_mul]
  exact Finset.sum_congr rfl fun c _ => by ring

end Cert.Online

end
-- ==== Proof.FlashPay.lean ====
/-
  The attention kernel's vector operations read at one entry.

  Every operation of one grid point is a row-wise or entry-wise operation on a 512 × 512 score block, a 512-column of
  maxima or denominators, and a 512 × 1024 numerator block. Read at row p (and column c or o) each is a scalar
  expression on the extended reals: a dot product scaled by 1/32, a row maximum, an exponential, a row sum.
-/
import proofs.«431190_j5033701670934_3_alg».proof.Proof.AttnStep
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

namespace Cert.KernelIdeal.Hand

open Cert.KernelIdeal Cert.KernelIdeal.Gen Idealize.ShloMosaic Idealize.ShloMosaic.ValueIdx

/-! ## Constants -/

/-- The pattern of 1/32. -/
theorem ofBits_inv32 : Ideal.ofBits .f32 0x3D000000#32 = ((1 / 32 : ℝ) : EReal) := by
  simp [Ideal.ofBits, Ideal.ieee, -EReal.coe_mul]; norm_num

/-- The pattern of 1. -/
theorem ofBits_one : Ideal.ofBits .f32 0x3F800000#32 = 1 := by
  simp [Ideal.ofBits, Ideal.ieee, -EReal.coe_mul]; norm_num

/-- The pattern of -∞. -/
theorem ofBits_neg_inf : Ideal.ofBits .f32 0xFF800000#32 = ⊥ := by
  simp [Ideal.ofBits, Ideal.ieee]

/-- The mask value is -∞. -/
theorem neg_big : Named.named (F := Ideal) κ "neg_big" (φ := .f32) 0xF149F2CA#32 = (⊥ : EReal) :=
  IdealRules.named_const.ideal_named_scalar _ _ _ _ rfl

/-! ## Columns -/

variable {α : Type}

/-- A vector of length a viewed as a column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ValueIdx.ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along the rows reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## Row reductions of a score block -/

/-- The largest of finitely many extended reals, as a fold of max from -∞. -/
theorem fold_max_bot {β : Type} (s : Finset β) (f : β → EReal) : s.fold max ⊥ f = s.sup f :=
  eq_of_forall_ge_iff fun c => by
    rw [Finset.fold_max_le, Finset.sup_le_iff]; exact ⟨fun h => h.2, fun h => ⟨bot_le, h⟩⟩

/-- Column c put back into row p is the entry (p, c). -/
theorem lift_row (h : S512x512.Reduces [1] S512) (p c : Fin 512) : h.lift (ValueIdx.ix1 p) c = ix2 p c :=
  funext fun a => Fin.ext (match a with | ⟨0, _⟩ => rfl | ⟨1, _⟩ => rfl)

/-- A row sum of a score block. -/
theorem rowSum_at (src : FVec Ideal S512x512 .f32) (h : S512x512.Reduces [1] S512) (hφ : FKind.Formats .f32)
    (hacc : (0x00000000#32 : BitVec 32) = FKind.add.neutral .f32 hφ) (p : Fin 512) :
    multiReduction .add [1] S512 src 0x00000000#32 h hφ hacc (ValueIdx.ix1 p) = ∑ c : Fin 512, src (ix2 p c) :=
  (Ideal.multiReduction_add_single src _ h hφ hacc (ValueIdx.ix1 p)).trans
    (Finset.sum_congr rfl fun c _ => congrArg src (lift_row h p c))

/-- A row maximum of a score block, taken from -∞. -/
theorem rowMax_at (src : FVec Ideal S512x512 .f32) (h : S512x512.Reduces [1] S512) (hφ : FKind.Formats .f32)
    (hacc : (0xFF800000#32 : BitVec 32) = FKind.maximumf.neutral .f32 hφ) (p : Fin 512) :
    multiReduction .maximumf [1] S512 src 0xFF800000#32 h hφ hacc (ValueIdx.ix1 p)
      = Finset.univ.sup fun c : Fin 512 => src (ix2 p c) := by
  refine (Ideal.multiReduction_maximumf_single src _ h hφ hacc (ValueIdx.ix1 p)).trans ?_
  show (Finset.univ : Finset (Fin 512)).fold max (Ideal.ofBits .f32 0xFF800000#32) (src ∘ h.lift (ValueIdx.ix1 p)) = _
  rw [ofBits_neg_inf]
  exact (fold_max_bot _ _).trans (Finset.sup_congr rfl fun c _ => congrArg src (lift_row h p c))

/-! ## The two products -/

/-- The score product: rows of the query block against columns of the transposed key block. -/
abbrev dQK : DotDims S512x1024 S1024x512 S512x512 := dot_S512x1024_S1024x512_S512x512_1_0_0_1_n_n
/-- The value product: rows of the weight block against columns of the value block. -/
abbrev dPV : DotDims S512x512 S512x1024 S512x1024 := dot_S512x512_S512x1024_S512x1024_1_0_0_1_n_n

theorem lhsQK_0 (i : S512x512.Idx) (q : dot_S512x1024_S1024x512_S512x512_1_0_0_1_n_n.contr.Idx) :
    (dot_S512x1024_S1024x512_S512x512_1_0_0_1_n_n.lhsIdx i q 0).val = (i 0).val := by
  unfold DotDims.lhsIdx
  rw [dif_neg (show ¬(0 : Fin S512x1024.rank) ∈ dot_S512x1024_S1024x512_S512x512_1_0_0_1_n_n.lhsBatch by decide), dif_pos (show (0 : Fin S512x1024.rank) ∈ dot_S512x1024_S1024x512_S512x512_1_0_0_1_n_n.lhsNonContracting by decide)]
  rfl
theorem lhsQK_1 (i : S512x512.Idx) (q : dot_S512x1024_S1024x512_S512x512_1_0_0_1_n_n.contr.Idx) :
    (dot_S512x1024_S1024x512_S512x512_1_0_0_1_n_n.lhsIdx i q 1).val = (q ⟨0, by decide⟩).val :=
  dot_S512x1024_S1024x512_S512x512_1_0_0_1_n_n.lhsIdx_val_of_single rfl i q
theorem rhsQK_0 (i : S512x512.Idx) (q : dot_S512x1024_S1024x512_S512x512_1_0_0_1_n_n.contr.Idx) :
    (dot_S512x1024_S1024x512_S512x512_1_0_0_1_n_n.rhsIdx i q 0).val = (q ⟨0, by decide⟩).val :=
  dot_S512x1024_S1024x512_S512x512_1_0_0_1_n_n.rhsIdx_val_of_single rfl i q
theorem rhsQK_1 (i : S512x512.Idx) (q : dot_S512x1024_S1024x512_S512x512_1_0_0_1_n_n.contr.Idx) :
    (dot_S512x1024_S1024x512_S512x512_1_0_0_1_n_n.rhsIdx i q 1).val = (i 1).val := by
  unfold DotDims.rhsIdx
  rw [dif_neg (show ¬(1 : Fin S1024x512.rank) ∈ dot_S512x1024_S1024x512_S512x512_1_0_0_1_n_n.rhsBatch by decide), dif_pos (show (1 : Fin S1024x512.rank) ∈ dot_S512x1024_S1024x512_S512x512_1_0_0_1_n_n.rhsNonContracting by decide)]
  rfl

/-- The score product into a zero block, at (p, c): the dot product of row p and column c. -/
theorem matmulQK_at (lhs : FVec Ideal S512x1024 .bf16) (rhs : FVec Ideal S1024x512 .bf16) (p c : Fin 512) :
    matmul dot_S512x1024_S1024x512_S512x512_1_0_0_1_n_n none lhs rhs (constant (F := Ideal) S512x512 .f32 0x00000000#32) (ix2 p c)
      = ∑ d : Fin 1024, lhs (ix2 p d) * rhs (ix2 d c) := by
  simp only [matmul]
  rw [Ideal.matmul_constant_zero_apply, ← Equiv.sum_comp (contrEquiv1 dot_S512x1024_S1024x512_S512x512_1_0_0_1_n_n 1024 rfl rfl).symm]
  refine Finset.sum_congr rfl fun k _ => ?_
  have hk := contrEquiv1_symm_val dot_S512x1024_S1024x512_S512x512_1_0_0_1_n_n 1024 rfl rfl k
  have el : dot_S512x1024_S1024x512_S512x512_1_0_0_1_n_n.lhsIdx (ix2 p c) ((contrEquiv1 dot_S512x1024_S1024x512_S512x512_1_0_0_1_n_n 1024 rfl rfl).symm k) = ix2 p k := funext fun a => Fin.ext (by
    match a with
    | ⟨0, _⟩ => exact lhsQK_0 _ _
    | ⟨1, _⟩ => exact (lhsQK_1 _ _).trans hk)
  have er : dot_S512x1024_S1024x512_S512x512_1_0_0_1_n_n.rhsIdx (ix2 p c) ((contrEquiv1 dot_S512x1024_S1024x512_S512x512_1_0_0_1_n_n 1024 rfl rfl).symm k) = ix2 k c := funext fun a => Fin.ext (by
    match a with
    | ⟨0, _⟩ => exact (rhsQK_0 _ _).trans hk
    | ⟨1, _⟩ => exact rhsQK_1 _ _)
  rw [el, er]

theorem lhsPV_0 (i : S512x1024.Idx) (q : dot_S512x512_S512x1024_S512x1024_1_0_0_1_n_n.contr.Idx) :
    (dot_S512x512_S512x1024_S512x1024_1_0_0_1_n_n.lhsIdx i q 0).val = (i 0).val := by
  unfold DotDims.lhsIdx
  rw [dif_neg (show ¬(0 : Fin S512x512.rank) ∈ dot_S512x512_S512x1024_S512x1024_1_0_0_1_n_n.lhsBatch by decide), dif_pos (show (0 : Fin S512x512.rank) ∈ dot_S512x512_S512x1024_S512x1024_1_0_0_1_n_n.lhsNonContracting by decide)]
  rfl
theorem lhsPV_1 (i : S512x1024.Idx) (q : dot_S512x512_S512x1024_S512x1024_1_0_0_1_n_n.contr.Idx) :
    (dot_S512x512_S512x1024_S512x1024_1_0_0_1_n_n.lhsIdx i q 1).val = (q ⟨0, by decide⟩).val :=
  dot_S512x512_S512x1024_S512x1024_1_0_0_1_n_n.lhsIdx_val_of_single rfl i q
theorem rhsPV_0 (i : S512x1024.Idx) (q : dot_S512x512_S512x1024_S512x1024_1_0_0_1_n_n.contr.Idx) :
    (dot_S512x512_S512x1024_S512x1024_1_0_0_1_n_n.rhsIdx i q 0).val = (q ⟨0, by decide⟩).val :=
  dot_S512x512_S512x1024_S512x1024_1_0_0_1_n_n.rhsIdx_val_of_single rfl i q
theorem rhsPV_1 (i : S512x1024.Idx) (q : dot_S512x512_S512x1024_S512x1024_1_0_0_1_n_n.contr.Idx) :
    (dot_S512x512_S512x1024_S512x1024_1_0_0_1_n_n.rhsIdx i q 1).val = (i 1).val := by
  unfold DotDims.rhsIdx
  rw [dif_neg (show ¬(1 : Fin S512x1024.rank) ∈ dot_S512x512_S512x1024_S512x1024_1_0_0_1_n_n.rhsBatch by decide), dif_pos (show (1 : Fin S512x1024.rank) ∈ dot_S512x512_S512x1024_S512x1024_1_0_0_1_n_n.rhsNonContracting by decide)]
  rfl

/-- The value product into a zero block, at (p, o): row p of the weights against column o of the values. -/
theorem matmulPV_at (lhs : FVec Ideal S512x512 .bf16) (rhs : FVec Ideal S512x1024 .bf16) (p : Fin 512) (o : Fin 1024) :
    matmul dot_S512x512_S512x1024_S512x1024_1_0_0_1_n_n none lhs rhs (constant (F := Ideal) S512x1024 .f32 0x00000000#32) (ix2 p o)
      = ∑ c : Fin 512, lhs (ix2 p c) * rhs (ix2 c o) := by
  simp only [matmul]
  rw [Ideal.matmul_constant_zero_apply, ← Equiv.sum_comp (contrEquiv1 dot_S512x512_S512x1024_S512x1024_1_0_0_1_n_n 512 rfl rfl).symm]
  refine Finset.sum_congr rfl fun k _ => ?_
  have hk := contrEquiv1_symm_val dot_S512x512_S512x1024_S512x1024_1_0_0_1_n_n 512 rfl rfl k
  have el : dot_S512x512_S512x1024_S512x1024_1_0_0_1_n_n.lhsIdx (ix2 p o) ((contrEquiv1 dot_S512x512_S512x1024_S512x1024_1_0_0_1_n_n 512 rfl rfl).symm k) = ix2 p k := funext fun a => Fin.ext (by
    match a with
    | ⟨0, _⟩ => exact lhsPV_0 _ _
    | ⟨1, _⟩ => exact (lhsPV_1 _ _).trans hk)
  have er : dot_S512x512_S512x1024_S512x1024_1_0_0_1_n_n.rhsIdx (ix2 p o) ((contrEquiv1 dot_S512x512_S512x1024_S512x1024_1_0_0_1_n_n 512 rfl rfl).symm k) = ix2 k o := funext fun a => Fin.ext (by
    match a with
    | ⟨0, _⟩ => exact (rhsPV_0 _ _).trans hk
    | ⟨1, _⟩ => exact rhsPV_1 _ _)
  rw [el, er]

/-! ## The payloads at an entry -/

/-- The scaled score of query row p against key row c of the two blocks. -/
theorem pay5_at (q k : Vec Ideal S1x512x1024 .bf16) (p c : Fin 512) :
    k1_pay5 q k (ix2 p c)
      = (∑ d : Fin 1024, q (ix3 (0 : Fin 1) p d) * k (ix3 (0 : Fin 1) c d)) * ((1 / 32 : ℝ) : EReal) := by
  unfold k1_pay5
  show (matmul _ none _ _ (constant (F := Ideal) S512x512 .f32 0x00000000#32) (ix2 p c)) * Ideal.ofBits .f32 0x3D000000#32 = _
  rw [matmulQK_at, ofBits_inv32]
  congr 1
  refine Finset.sum_congr rfl fun d _ => ?_
  rw [shapeCast_1ab_ab_apply, transpose_ix2_apply, shapeCast_1ab_ab_apply]

/-- A row index read as a signed word is itself. -/
theorem toInt_ofNat_small (n : ℕ) (h : n < 512) : (BitVec.ofNat 32 n).toInt = (n : ℤ) := by
  have h1 : (BitVec.ofNat 32 n).toNat = n := by rw [BitVec.toNat_ofNat]; omega
  rw [BitVec.toInt_eq_toNat_of_lt (by rw [h1]; omega), h1]

/-- The causal mask inside the diagonal block: entry (p, c) is kept for c ≤ p and is -∞ otherwise. -/
theorem pay13_at (s : FVec Ideal S512x512 .f32) (p c : Fin 512) :
    k1_pay13 s (ix2 p c) = if c.val ≤ p.val then s (ix2 p c) else ⊥ := by
  unfold k1_pay13
  simp only [select_apply, broadcast_apply, neg_big]
  show Scalar.select (IntOp.cmpi .sge (iota .tc S512x512 32 [0] _ (ix2 p c)) (iota .tc S512x512 32 [1] _ (ix2 p c))) _ _ = _
  rw [iota_single_apply, iota_single_apply]
  show Scalar.select (IntOp.cmpi .sge (BitVec.ofNat 32 p.val) (BitVec.ofNat 32 c.val)) _ _ = _
  by_cases h : c.val ≤ p.val
  · have h1 : IntOp.cmpi .sge (BitVec.ofNat 32 p.val) (BitVec.ofNat 32 c.val) = 1#1 :=
      IntOp.cmpi_sge.2 (by rw [toInt_ofNat_small _ p.isLt, toInt_ofNat_small _ c.isLt]; exact_mod_cast h)
    rw [h1, select_one, if_pos h]
  · have h0 : IntOp.cmpi .sge (BitVec.ofNat 32 p.val) (BitVec.ofNat 32 c.val) = 0#1 :=
      eq_zero_of_ne_one fun h1 => h (by
        have h2 := IntOp.cmpi_sge.1 h1
        rw [toInt_ofNat_small _ p.isLt, toInt_ofNat_small _ c.isLt] at h2
        exact_mod_cast h2)
    rw [h0, select_zero, if_neg h]

/-- The new maximum of row p after a whole block. -/
theorem pay6_at (q k : Vec Ideal S1x512x1024 .bf16) (m : Vec Ideal S512x1 .f32) (p : Fin 512) :
    k1_pay6 q k m (ix2 p (0 : Fin 1))
      = max (m (ix2 p (0 : Fin 1))) (Finset.univ.sup fun c : Fin 512 => k1_pay5 q k (ix2 p c)) := by
  unfold k1_pay6
  simp only [maximumf_apply, shapeCast_a_a1_apply]
  exact congrArg (max _) (rowMax_at _ _ _ _ p)

/-- The new maximum of row p after the masked block. -/
theorem pay14_at (s : FVec Ideal S512x512 .f32) (m : Vec Ideal S512x1 .f32) (p : Fin 512) :
    k1_pay14 s m (ix2 p (0 : Fin 1))
      = max (m (ix2 p (0 : Fin 1))) (Finset.univ.sup fun c : Fin 512 => k1_pay13 s (ix2 p c)) := by
  unfold k1_pay14
  simp only [maximumf_apply, shapeCast_a_a1_apply]
  exact congrArg (max _) (rowMax_at _ _ _ _ p)

/-- The rescaling factor of row p after a whole block. -/
theorem pay7_at (q k : Vec Ideal S1x512x1024 .bf16) (m : Vec Ideal S512x1 .f32) (p : Fin 512) :
    k1_pay7 q k m (ix2 p (0 : Fin 1))
      = Ideal.exp (m (ix2 p (0 : Fin 1)) - k1_pay6 q k m (ix2 p (0 : Fin 1))) := by
  unfold k1_pay7
  rfl

/-- The weight of entry (p, c) of a whole block. -/
theorem pay8_at (q k : Vec Ideal S1x512x1024 .bf16) (m : Vec Ideal S512x1 .f32) (p c : Fin 512) :
    k1_pay8 q k m (ix2 p c) = Ideal.exp (k1_pay5 q k (ix2 p c) - k1_pay6 q k m (ix2 p (0 : Fin 1))) := by
  unfold k1_pay8
  show Ideal.exp (k1_pay5 q k (ix2 p c) - broadcastTo S512x512 (k1_pay6 q k m) _ (ix2 p c)) = _
  rw [broadcastTo_a1_ab_apply]

/-- The new denominator of row p after a whole block. -/
theorem pay9_at (q k : Vec Ideal S1x512x1024 .bf16) (m l : Vec Ideal S512x1 .f32) (p : Fin 512) :
    k1_pay9 q k m l (ix2 p (0 : Fin 1))
      = k1_pay7 q k m (ix2 p (0 : Fin 1)) * l (ix2 p (0 : Fin 1)) + ∑ c : Fin 512, k1_pay8 q k m (ix2 p c) := by
  unfold k1_pay9
  simp only [shapeCast_self, addf_apply, mulf_apply, shapeCast_a_a1_apply]
  exact congrArg (_ + ·) (rowSum_at _ _ _ _ p)

/-- The new numerator of row p, column o, after a whole block. -/
theorem pay10_at (q k v : Vec Ideal S1x512x1024 .bf16) (m : Vec Ideal S512x1 .f32) (acc : Vec Ideal S512x1024 .f32)
    (p : Fin 512) (o : Fin 1024) :
    k1_pay10 q k v m acc (ix2 p o)
      = k1_pay7 q k m (ix2 p (0 : Fin 1)) * acc (ix2 p o)
        + ∑ c : Fin 512, k1_pay8 q k m (ix2 p c) * v (ix3 (0 : Fin 1) c o) := by
  unfold k1_pay10 k1_pay4
  simp only [shapeCast_self, addf_apply, mulf_apply, broadcastTo_a1_ab_apply]
  rw [matmulPV_at]
  simp only [truncf_apply, shapeCast_1ab_ab_apply]

/-- The maximum column stored after a whole block is the new maximum. -/
theorem pay11_eq (q k : Vec Ideal S1x512x1024 .bf16) (m : Vec Ideal S512x1 .f32) : k1_pay11 q k m = k1_pay6 q k m := by
  unfold k1_pay11
  exact shapeCast_self _ _

/-- The rescaling factor of row p after the masked block. -/
theorem pay15_at (s : FVec Ideal S512x512 .f32) (m : Vec Ideal S512x1 .f32) (p : Fin 512) :
    k1_pay15 s m (ix2 p (0 : Fin 1)) = Ideal.exp (m (ix2 p (0 : Fin 1)) - k1_pay14 s m (ix2 p (0 : Fin 1))) := by
  unfold k1_pay15
  rfl

/-- The weight of entry (p, c) of the masked block. -/
theorem pay16_at (s : FVec Ideal S512x512 .f32) (m : Vec Ideal S512x1 .f32) (p c : Fin 512) :
    k1_pay16 s m (ix2 p c) = Ideal.exp (k1_pay13 s (ix2 p c) - k1_pay14 s m (ix2 p (0 : Fin 1))) := by
  unfold k1_pay16
  show Ideal.exp (k1_pay13 s (ix2 p c) - broadcastTo S512x512 (k1_pay14 s m) _ (ix2 p c)) = _
  rw [broadcastTo_a1_ab_apply]

/-- The new denominator of row p after the masked block. -/
theorem pay17_at (s : FVec Ideal S512x512 .f32) (m l : Vec Ideal S512x1 .f32) (p : Fin 512) :
    k1_pay17 s m l (ix2 p (0 : Fin 1))
      = k1_pay15 s m (ix2 p (0 : Fin 1)) * l (ix2 p (0 : Fin 1)) + ∑ c : Fin 512, k1_pay16 s m (ix2 p c) := by
  unfold k1_pay17
  simp only [shapeCast_self, addf_apply, mulf_apply, shapeCast_a_a1_apply]
  exact congrArg (_ + ·) (rowSum_at _ _ _ _ p)

/-- The new numerator of row p, column o, after the masked block. -/
theorem pay18_at (v : Vec Ideal S1x512x1024 .bf16) (s : FVec Ideal S512x512 .f32) (m : Vec Ideal S512x1 .f32)
    (acc : Vec Ideal S512x1024 .f32) (p : Fin 512) (o : Fin 1024) :
    k1_pay18 (k1_pay4 v) s m acc (ix2 p o)
      = k1_pay15 s m (ix2 p (0 : Fin 1)) * acc (ix2 p o)
        + ∑ c : Fin 512, k1_pay16 s m (ix2 p c) * v (ix3 (0 : Fin 1) c o) := by
  unfold k1_pay18 k1_pay4
  simp only [shapeCast_self, addf_apply, mulf_apply, broadcastTo_a1_ab_apply]
  rw [matmulPV_at]
  simp only [truncf_apply, shapeCast_1ab_ab_apply]

/-- The maximum column stored after the masked block is the new maximum. -/
theorem pay19_eq (s : FVec Ideal S512x512 .f32) (m : Vec Ideal S512x1 .f32) : k1_pay19 s m = k1_pay14 s m := by
  unfold k1_pay19
  exact shapeCast_self _ _

/-- The output entry: the numerator times the reciprocal of the denominator, the denominator replaced by 1 where it is
    not positive. -/
theorem out_at (l : Vec Ideal S512x1 .f32) (acc : Vec Ideal S512x1024 .f32) (p : Fin 512) (o : Fin 1024) :
    k1_pay12 (k1_pay20 l) l acc (ix3 (0 : Fin 1) p o)
      = acc (ix2 p o) * Ideal.div 1 (if 0 < l (ix2 p (0 : Fin 1)) then l (ix2 p (0 : Fin 1)) else 1) := by
  unfold k1_pay12 k1_pay20
  rw [shapeCast_ab_1ab_apply]
  simp only [mulf_apply, broadcastTo_a1_ab_apply, divf_apply, broadcast_apply, select_apply, cmpf_apply]
  show acc (ix2 p o) * Ideal.div (Ideal.ofBits .f32 0x3F800000#32)
    (Scalar.select (Ideal.cmp .ogt (l (ix2 p (0 : Fin 1))) (Ideal.ofBits .f32 0x00000000#32)) (l (ix2 p (0 : Fin 1)))
      (Ideal.ofBits .f32 0x3F800000#32)) = _
  rw [ofBits_one, Ideal.ofBits_zero_f32]
  by_cases h : 0 < l (ix2 p (0 : Fin 1))
  · have h1 : Ideal.cmp .ogt (l (ix2 p (0 : Fin 1))) 0 = 1#1 := by simp [Ideal.cmp, h]
    rw [h1, select_one, if_pos h]
  · have h0 : Ideal.cmp .ogt (l (ix2 p (0 : Fin 1))) 0 = 0#1 := by simp [Ideal.cmp, h]
    rw [h0, select_zero, if_neg h]

/-- The reset triple at an entry: -∞, 0, 0. -/
theorem reset_at (p : Fin 512) (o : Fin 1024) :
    (k1_pay1 (F := Ideal)) (ix2 p (0 : Fin 1)) = ⊥ ∧ (k1_pay2 (F := Ideal)) (ix2 p (0 : Fin 1)) = 0
      ∧ (k1_pay3 (F := Ideal)) (ix2 p o) = 0 := by
  refine ⟨?_, ?_, ?_⟩
  · unfold k1_pay1
    simp only [shapeCast_self, broadcast_apply, neg_big]
  · unfold k1_pay2
    simp only [shapeCast_self, broadcast_apply]
    exact Ideal.ofBits_zero_f32
  · unfold k1_pay3
    simp only [shapeCast_self, broadcast_apply]
    exact Ideal.ofBits_zero_f32

end Cert.KernelIdeal.Hand

end
-- ==== Proof.FlashRows.lean ====
/-
  The attention kernel's running triple, followed along one query block, ends at causal softmax attention.

  Fix a batch `b` and a query block `qi` (512 rows). The kernel visits the key blocks `0, 1, …, qi` in order; `rowSt … n`
  is the triple (maximum, denominator, numerator) after the first `n` of them. For query row `r = 512·qi + p` the logits
  are `z c = (∑ d, Q[b,r,d] · K[b,c,d]) / 32` for `c ≤ r` and `-∞` for `c > r`; after `qi + 1` blocks the output block's
  entry `(p, o)` is `∑ c, (exp (z c - M) / ∑ c', exp (z c' - M)) · V[b,c,o]`, `M` the largest logit.
-/
import proofs.«431190_j5033701670934_3_alg».proof.Proof.AttnStep
import proofs.«431190_j5033701670934_3_alg».proof.Proof.Online
import proofs.«431190_j5033701670934_3_alg».proof.Proof.FlashPay
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.ValueIdx

/-- Row `512·j + y` of the sequence axis, kept inside the axis. -/
def seqRow (j : ℕ) (y : Fin 512) : Fin 4096 := ⟨(512 * j + y.val) % 4096, Nat.mod_lt _ (by decide)⟩

/-- Block `j` of batch `b` of a `[4, 4096, 1024]` array, as a window of 512 rows hands it to the kernel. -/
def blk (A : Vec Ideal S4x4096x1024 .bf16) (b : Fin 4) (j : ℕ) : Vec Ideal S1x512x1024 .bf16 :=
  fun y => A (ix3 b (seqRow j (y 1)) (y 2))

/-- The running triple of query block `qi` of batch `b` after its first `n` key blocks. -/
def rowSt (Q K Vv : Vec Ideal S4x4096x1024 .bf16) (b : Fin 4) (qi : ℕ) : ℕ → Sc Ideal
  | 0 => scReset
  | n + 1 => scStep (BitVec.ofNat 32 qi) (BitVec.ofNat 32 n) (blk Q b qi) (blk K b n) (blk Vv b n) (rowSt Q K Vv b qi n)

/-- The causal logit of key `c` for query row `r` of batch `b`. -/
def zrow (Q K : Vec Ideal S4x4096x1024 .bf16) (b : Fin 4) (r c : Fin 4096) : EReal :=
  if c.val ≤ r.val then (∑ d : Fin 1024, Q (ix3 b r d) * K (ix3 b c d)) * ((1 / 32 : ℝ) : EReal) else ⊥

/-! ## The schedule words -/

/-- For key block n and query block qi below 8: the kernel's three conditions say n = 0, n < qi, n = qi. -/
theorem conds : ∀ qi n : Fin 8,
    (cFirst (BitVec.ofNat 32 n.val) ↔ n.val = 0)
      ∧ (cBelow (BitVec.ofNat 32 qi.val) (BitVec.ofNat 32 n.val) ↔ n.val < qi.val)
      ∧ (cDiag (BitVec.ofNat 32 qi.val) (BitVec.ofNat 32 n.val) ↔ n.val = qi.val) := by
  decide

/-- Resetting at the first key block changes nothing: the triple before it is the reset triple already. -/
theorem reset_first (Q K Vv : Vec Ideal S4x4096x1024 .bf16) (b : Fin 4) (qi : Fin 8) (n : ℕ) (hn : n < 8) :
    (if cFirst (BitVec.ofNat 32 n) then scReset else rowSt Q K Vv b qi.val n) = rowSt Q K Vv b qi.val n := by
  have h1 : cFirst (BitVec.ofNat 32 n) ↔ n = 0 := (conds qi ⟨n, hn⟩).1
  by_cases h0 : n = 0
  · subst h0
    rw [if_pos (h1.2 rfl)]
    rfl
  · rw [if_neg fun h => h0 (h1.1 h)]

/-- A key block strictly below the diagonal is taken in whole. -/
theorem rowSt_below (Q K Vv : Vec Ideal S4x4096x1024 .bf16) (b : Fin 4) (qi : Fin 8) (n : ℕ) (hn : n < qi.val) :
    rowSt Q K Vv b qi.val (n + 1)
      = scBelow (blk Q b qi.val) (blk K b n) (blk Vv b n) (rowSt Q K Vv b qi.val n) := by
  have hn8 : n < 8 := by have := qi.isLt; omega
  have h2 : cBelow (BitVec.ofNat 32 qi.val) (BitVec.ofNat 32 n) ↔ n < qi.val := (conds qi ⟨n, hn8⟩).2.1
  have h3 : cDiag (BitVec.ofNat 32 qi.val) (BitVec.ofNat 32 n) ↔ n = qi.val := (conds qi ⟨n, hn8⟩).2.2
  show scStep _ _ _ _ _ _ = _
  unfold scStep
  simp only [reset_first Q K Vv b qi n hn8, if_pos (h2.2 hn), if_neg fun h => (by omega : n ≠ qi.val) (h3.1 h)]

/-- The diagonal key block is taken in under the mask. -/
theorem rowSt_diag (Q K Vv : Vec Ideal S4x4096x1024 .bf16) (b : Fin 4) (qi : Fin 8) :
    rowSt Q K Vv b qi.val (qi.val + 1)
      = scDiag (blk Q b qi.val) (blk K b qi.val) (blk Vv b qi.val) (rowSt Q K Vv b qi.val qi.val) := by
  have h2 : cBelow (BitVec.ofNat 32 qi.val) (BitVec.ofNat 32 qi.val) ↔ qi.val < qi.val := (conds qi qi).2.1
  have h3 : cDiag (BitVec.ofNat 32 qi.val) (BitVec.ofNat 32 qi.val) ↔ qi.val = qi.val := (conds qi qi).2.2
  show scStep _ _ _ _ _ _ = _
  unfold scStep
  simp only [reset_first Q K Vv b qi qi.val qi.isLt, if_neg fun h => (lt_irrefl _) (h2.1 h), if_pos (h3.2 rfl)]

/-! ## Rows and key sets -/

theorem seqRow_val (j : ℕ) (hj : j < 8) (y : Fin 512) : (seqRow j y).val = 512 * j + y.val := by
  show (512 * j + y.val) % 4096 = _
  have := y.isLt
  omega

/-- The 512 keys of block n, as a part of the key axis. -/
def blkEmb (n : ℕ) (hn : n < 8) : Fin 512 ↪ Fin 4096 :=
  ⟨seqRow n, fun y y' h => Fin.ext (by
    have h' := congrArg Fin.val h
    rw [seqRow_val n hn, seqRow_val n hn] at h'
    omega)⟩

theorem blkEmb_apply (n : ℕ) (hn : n < 8) (y : Fin 512) : blkEmb n hn y = seqRow n y := rfl

/-- The keys of the first n blocks. -/
def keysBefore (n : ℕ) : Finset (Fin 4096) := Finset.univ.filter fun c => c.val < 512 * n

theorem mem_keysBefore (n : ℕ) (c : Fin 4096) : c ∈ keysBefore n ↔ c.val < 512 * n := by
  unfold keysBefore
  rw [Finset.mem_filter]
  exact ⟨fun h => h.2, fun h => ⟨Finset.mem_univ _, h⟩⟩

theorem keysBefore_zero : keysBefore 0 = ∅ := by
  refine Finset.eq_empty_of_forall_notMem fun c hc => ?_
  rw [mem_keysBefore] at hc
  omega

theorem blkEmb_notMem (n : ℕ) (hn : n < 8) (y : Fin 512) : blkEmb n hn y ∉ keysBefore n := by
  rw [mem_keysBefore, blkEmb_apply, seqRow_val n hn]
  omega

theorem keysBefore_succ (n : ℕ) (hn : n < 8) : keysBefore n ∪ Finset.univ.map (blkEmb n hn) = keysBefore (n + 1) := by
  ext c
  rw [Finset.mem_union, mem_keysBefore, mem_keysBefore, Finset.mem_map]
  constructor
  · rintro (h | ⟨y, -, rfl⟩)
    · omega
    · rw [blkEmb_apply, seqRow_val n hn]
      have := y.isLt
      omega
  · intro h
    by_cases h' : c.val < 512 * n
    · exact Or.inl h'
    · refine Or.inr ⟨⟨c.val - 512 * n, by omega⟩, Finset.mem_univ _, Fin.ext ?_⟩
      rw [blkEmb_apply, seqRow_val n hn]
      show 512 * n + (c.val - 512 * n) = c.val
      omega

/-! ## The logits are real or -∞ -/

/-- A scaled dot product of real rows is real. -/
theorem dot_real (Q K : Vec Ideal S4x4096x1024 .bf16) (hQ : ∀ i, Q i ≠ ⊥ ∧ Q i ≠ ⊤) (hK : ∀ i, K i ≠ ⊥ ∧ K i ≠ ⊤)
    (b : Fin 4) (r c : Fin 4096) :
    ∃ x : ℝ, (∑ d : Fin 1024, Q (ix3 b r d) * K (ix3 b c d)) * ((1 / 32 : ℝ) : EReal) = (x : EReal) := by
  refine ⟨(∑ d : Fin 1024, (Q (ix3 b r d)).toReal * (K (ix3 b c d)).toReal) * (1 / 32), ?_⟩
  rw [EReal.coe_mul, Online.coe_sum]
  congr 1
  refine Finset.sum_congr rfl fun d _ => ?_
  rw [EReal.coe_mul, EReal.coe_toReal (hQ _).2 (hQ _).1, EReal.coe_toReal (hK _).2 (hK _).1]

theorem zrow_ne_top (Q K : Vec Ideal S4x4096x1024 .bf16) (hQ : ∀ i, Q i ≠ ⊥ ∧ Q i ≠ ⊤) (hK : ∀ i, K i ≠ ⊥ ∧ K i ≠ ⊤)
    (b : Fin 4) (r c : Fin 4096) : zrow Q K b r c ≠ ⊤ := by
  unfold zrow
  split
  · obtain ⟨x, hx⟩ := dot_real Q K hQ hK b r c
    rw [hx]
    exact EReal.coe_ne_top x
  · exact bot_ne_top

theorem zrow_ne_bot (Q K : Vec Ideal S4x4096x1024 .bf16) (hQ : ∀ i, Q i ≠ ⊥ ∧ Q i ≠ ⊤) (hK : ∀ i, K i ≠ ⊥ ∧ K i ≠ ⊤)
    (b : Fin 4) (r c : Fin 4096) (h : c.val ≤ r.val) : zrow Q K b r c ≠ ⊥ := by
  unfold zrow
  rw [if_pos h]
  obtain ⟨x, hx⟩ := dot_real Q K hQ hK b r c
  rw [hx]
  exact EReal.coe_ne_bot x

theorem zrow_masked (Q K : Vec Ideal S4x4096x1024 .bf16) (b : Fin 4) (r c : Fin 4096) (h : ¬ c.val ≤ r.val) :
    zrow Q K b r c = ⊥ := by
  unfold zrow
  rw [if_neg h]

/-! ## One block taken in, at a row -/

/-- At row p the triple is the softmax triple of the logits z and the value columns vv over the key set Ks. -/
def RowInv (s : Sc Ideal) (p : Fin 512) (z : Fin 4096 → EReal) (vv : Fin 1024 → Fin 4096 → EReal)
    (Ks : Finset (Fin 4096)) : Prop :=
  s.1 (ix2 p (0 : Fin 1)) = Online.mx z Ks ∧ s.2.1 (ix2 p (0 : Fin 1)) = Online.den z Ks
    ∧ ∀ o : Fin 1024, s.2.2 (ix2 p o) = Online.num z (vv o) Ks

/-- A whole block whose scores are the logits of new keys e y. -/
theorem below_step (q k v : Vec Ideal S1x512x1024 .bf16) (s : Sc Ideal) (p : Fin 512) (z : Fin 4096 → EReal)
    (vv : Fin 1024 → Fin 4096 → EReal) (Ks : Finset (Fin 4096)) (e : Fin 512 ↪ Fin 4096)
    (hS : ∀ c, k1_pay5 q k (ix2 p c) = z (e c)) (hV : ∀ c o, v (ix3 (0 : Fin 1) c o) = vv o (e c))
    (hdisj : ∀ y, e y ∉ Ks) (hz : ∀ c, z c ≠ ⊤) (hv : ∀ o c, vv o c ≠ ⊥ ∧ vv o c ≠ ⊤) (hJ : ∃ y, z (e y) ≠ ⊥)
    (hK : Ks = ∅ ∨ Online.mx z Ks ≠ ⊥) (inv : RowInv s p z vv Ks) :
    RowInv (scBelow q k v s) p z vv (Ks ∪ Finset.univ.map e) ∧ Online.mx z (Ks ∪ Finset.univ.map e) ≠ ⊥ := by
  obtain ⟨i1, i2, i3⟩ := inv
  have st := fun o => Online.step z (vv o) Ks e hdisj hz (hv o) hJ hK
  have hm' : k1_pay6 q k s.1 (ix2 p (0 : Fin 1)) = Online.mx z (Ks ∪ Finset.univ.map e) := by
    rw [pay6_at, i1]
    simp only [hS]
    exact (st 0).1
  refine ⟨⟨?_, ?_, fun o => ?_⟩, (st 0).2.2.2⟩
  · show k1_pay11 q k s.1 (ix2 p (0 : Fin 1)) = _
    rw [pay11_eq, hm']
  · show k1_pay9 q k s.1 s.2.1 (ix2 p (0 : Fin 1)) = _
    rw [pay9_at, pay7_at, hm', i1, i2]
    simp only [pay8_at, hm', hS]
    exact (st 0).2.1
  · show k1_pay10 q k v s.1 s.2.2 (ix2 p o) = _
    rw [pay10_at, pay7_at, hm', i1, i3 o]
    simp only [pay8_at, hm', hS, hV]
    exact (st o).2.2.1

/-- The masked block whose masked scores are the logits of new keys e y. -/
theorem diag_step (q k v : Vec Ideal S1x512x1024 .bf16) (s : Sc Ideal) (p : Fin 512) (z : Fin 4096 → EReal)
    (vv : Fin 1024 → Fin 4096 → EReal) (Ks : Finset (Fin 4096)) (e : Fin 512 ↪ Fin 4096)
    (hS : ∀ c, k1_pay13 (k1_pay5 q k) (ix2 p c) = z (e c)) (hV : ∀ c o, v (ix3 (0 : Fin 1) c o) = vv o (e c))
    (hdisj : ∀ y, e y ∉ Ks) (hz : ∀ c, z c ≠ ⊤) (hv : ∀ o c, vv o c ≠ ⊥ ∧ vv o c ≠ ⊤) (hJ : ∃ y, z (e y) ≠ ⊥)
    (hK : Ks = ∅ ∨ Online.mx z Ks ≠ ⊥) (inv : RowInv s p z vv Ks) :
    RowInv (scDiag q k v s) p z vv (Ks ∪ Finset.univ.map e) := by
  obtain ⟨i1, i2, i3⟩ := inv
  have st := fun o => Online.step z (vv o) Ks e hdisj hz (hv o) hJ hK
  have hm' : k1_pay14 (k1_pay5 q k) s.1 (ix2 p (0 : Fin 1)) = Online.mx z (Ks ∪ Finset.univ.map e) := by
    rw [pay14_at, i1]
    simp only [hS]
    exact (st 0).1
  refine ⟨?_, ?_, fun o => ?_⟩
  · show k1_pay19 (k1_pay5 q k) s.1 (ix2 p (0 : Fin 1)) = _
    rw [pay19_eq, hm']
  · show k1_pay17 (k1_pay5 q k) s.1 s.2.1 (ix2 p (0 : Fin 1)) = _
    rw [pay17_at, pay15_at, hm', i1, i2]
    simp only [pay16_at, hm', hS]
    exact (st 0).2.1
  · show k1_pay18 (k1_pay4 v) (k1_pay5 q k) s.1 s.2.2 (ix2 p o) = _
    rw [pay18_at, pay15_at, hm', i1, i3 o]
    simp only [pay16_at, hm', hS, hV]
    exact (st o).2.2.1

/-! ## The invariant along the key blocks -/

/-- After the first n key blocks (n ≤ qi) row p holds the softmax triple over their keys. -/
theorem row_inv (Q K Vv : Vec Ideal S4x4096x1024 .bf16)
    (hQ : ∀ i, Q i ≠ ⊥ ∧ Q i ≠ ⊤) (hK : ∀ i, K i ≠ ⊥ ∧ K i ≠ ⊤) (hV : ∀ i, Vv i ≠ ⊥ ∧ Vv i ≠ ⊤)
    (b : Fin 4) (qi : Fin 8) (p : Fin 512) (n : ℕ) (hn : n ≤ qi.val) :
    RowInv (rowSt Q K Vv b qi.val n) p (zrow Q K b (seqRow qi.val p)) (fun o c => Vv (ix3 b c o)) (keysBefore n)
      ∧ (keysBefore n = ∅ ∨ Online.mx (zrow Q K b (seqRow qi.val p)) (keysBefore n) ≠ ⊥) := by
  induction n with
  | zero =>
    refine ⟨?_, Or.inl keysBefore_zero⟩
    rw [keysBefore_zero]
    refine ⟨?_, ?_, fun o => ?_⟩
    · rw [Online.mx_empty]; exact (reset_at p 0).1
    · rw [Online.den_empty]; exact (reset_at p 0).2.1
    · rw [Online.num_empty]; exact (reset_at p o).2.2
  | succ n ih =>
    have hlt : n < qi.val := by omega
    have hn8 : n < 8 := by have := qi.isLt; omega
    obtain ⟨inv, hKs⟩ := ih (by omega)
    rw [rowSt_below Q K Vv b qi n hlt, ← keysBefore_succ n hn8]
    have hr := seqRow_val qi.val qi.isLt p
    have h := below_step (blk Q b qi.val) (blk K b n) (blk Vv b n) (rowSt Q K Vv b qi.val n) p
      (zrow Q K b (seqRow qi.val p)) (fun o c => Vv (ix3 b c o)) (keysBefore n) (blkEmb n hn8)
      (fun c => by
        rw [pay5_at, blkEmb_apply]
        unfold zrow
        rw [if_pos (by rw [seqRow_val n hn8, hr]; have := c.isLt; omega)]
        rfl)
      (fun c o => rfl) (blkEmb_notMem n hn8) (zrow_ne_top Q K hQ hK b _) (fun o c => hV _)
      ⟨0, zrow_ne_bot Q K hQ hK b _ _ (by rw [blkEmb_apply, seqRow_val n hn8, hr]; show 512 * n + 0 ≤ _; omega)⟩
      hKs inv
    exact ⟨h.1, Or.inr h.2⟩

/-- After the diagonal block the output block holds causal softmax attention, row by row. -/
theorem flash_row (Q K Vv : Vec Ideal S4x4096x1024 .bf16)
    (hQ : ∀ i, Q i ≠ ⊥ ∧ Q i ≠ ⊤) (hK : ∀ i, K i ≠ ⊥ ∧ K i ≠ ⊤) (hV : ∀ i, Vv i ≠ ⊥ ∧ Vv i ≠ ⊤)
    (b : Fin 4) (qi : Fin 8) (p : Fin 512) (o : Fin 1024) :
    outDiag (rowSt Q K Vv b qi.val (qi.val + 1)) (ix3 (0 : Fin 1) p o)
      = ∑ c : Fin 4096,
          Ideal.div (Ideal.exp (zrow Q K b (seqRow qi.val p) c - Finset.univ.sup (zrow Q K b (seqRow qi.val p))))
            (∑ c' : Fin 4096, Ideal.exp (zrow Q K b (seqRow qi.val p) c' - Finset.univ.sup (zrow Q K b (seqRow qi.val p))))
          * Vv (ix3 b c o) := by
  have hr := seqRow_val qi.val qi.isLt p
  obtain ⟨inv, hKs⟩ := row_inv Q K Vv hQ hK hV b qi p qi.val le_rfl
  have hd := diag_step (blk Q b qi.val) (blk K b qi.val) (blk Vv b qi.val) (rowSt Q K Vv b qi.val qi.val) p
    (zrow Q K b (seqRow qi.val p)) (fun o c => Vv (ix3 b c o)) (keysBefore qi.val) (blkEmb qi.val qi.isLt)
    (fun c => by
      rw [pay13_at, pay5_at, blkEmb_apply]
      unfold zrow
      by_cases h : c.val ≤ p.val
      · rw [if_pos h, if_pos (by rw [seqRow_val qi.val qi.isLt, hr]; omega)]
        rfl
      · rw [if_neg h, if_neg (by rw [seqRow_val qi.val qi.isLt, hr]; omega)])
    (fun c o => rfl) (blkEmb_notMem qi.val qi.isLt) (zrow_ne_top Q K hQ hK b _) (fun o c => hV _)
    ⟨p, zrow_ne_bot Q K hQ hK b _ _ (by rw [blkEmb_apply])⟩
    hKs inv
  rw [← rowSt_diag Q K Vv b qi, keysBefore_succ qi.val qi.isLt] at hd
  obtain ⟨-, i2, i3⟩ := hd
  obtain ⟨hpos, -, hfin⟩ := Online.final (zrow Q K b (seqRow qi.val p)) (fun c => Vv (ix3 b c o)) (keysBefore (qi.val + 1))
    (fun c hc => zrow_masked Q K b _ c (by rw [mem_keysBefore] at hc; rw [hr]; have := p.isLt; omega))
    ⟨seqRow qi.val p, by rw [mem_keysBefore, hr]; have := p.isLt; omega, zrow_ne_bot Q K hQ hK b _ _ le_rfl⟩
    (zrow_ne_top Q K hQ hK b _) (fun c => hV _)
  show k1_pay12 (k1_pay20 _) _ _ (ix3 (0 : Fin 1) p o) = _
  rw [out_at, i2, i3 o, if_pos hpos]
  exact hfin

end Cert.KernelIdeal.Hand

end
-- ==== Proof.Glue.lean ====
/-
  From the per-row statement to the specification.

  The three projections of finite inputs are finite (a finite sum of products of reals is a real), and the causal
  logits of the projected queries and keys are the specification's logits; so the per-row softmax mean of the projected
  values is `Cert.Spec.attn` at that entry.
-/
import proofs.«431190_j5033701670934_3_alg».proof.Proof.Spec
import proofs.«431190_j5033701670934_3_alg».proof.Proof.Online
import proofs.«431190_j5033701670934_3_alg».proof.Proof.FlashRows

noncomputable section

namespace Cert.Glue

open Idealize.ShloMosaic Idealize.ShloMosaic.ValueIdx Cert.Spec

/-- A product of two reals, read in the extended reals, is neither infinity. -/
theorem mul_real {x y : EReal} (hx : x ≠ ⊥ ∧ x ≠ ⊤) (hy : y ≠ ⊥ ∧ y ≠ ⊤) : x * y ≠ ⊥ ∧ x * y ≠ ⊤ := by
  lift x to ℝ using ⟨hx.2, hx.1⟩
  lift y to ℝ using ⟨hy.2, hy.1⟩
  rw [← EReal.coe_mul]
  exact ⟨EReal.coe_ne_bot _, EReal.coe_ne_top _⟩

/-- A finite sum of reals, read in the extended reals, is neither infinity. -/
theorem sum_real {α : Type} (s : Finset α) (f : α → EReal) (hf : ∀ a, f a ≠ ⊥ ∧ f a ≠ ⊤) :
    (∑ a ∈ s, f a) ≠ ⊥ ∧ (∑ a ∈ s, f a) ≠ ⊤ := by
  classical
  induction s using Finset.induction_on with
  | empty => simp
  | insert a s ha ih =>
    rw [Finset.sum_insert ha]
    obtain ⟨h1, h2⟩ := hf a
    obtain ⟨h3, h4⟩ := ih
    lift f a to ℝ using ⟨h2, h1⟩ with u
    lift (∑ a ∈ s, f a) to ℝ using ⟨h4, h3⟩ with w
    rw [← EReal.coe_add]
    exact ⟨EReal.coe_ne_bot _, EReal.coe_ne_top _⟩

/-- A projection of finite inputs is finite. -/
theorem proj_real (x : SX.Idx → EReal) (W : SW.Idx → EReal) (hx : ∀ i, x i ≠ ⊥ ∧ x i ≠ ⊤) (hW : ∀ i, W i ≠ ⊥ ∧ W i ≠ ⊤)
    (b : Fin 4) (n : Fin 4096) (o : Fin 1024) : proj x W b n o ≠ ⊥ ∧ proj x W b n o ≠ ⊤ :=
  sum_real _ _ fun d => mul_real (hx _) (hW _)

/-- With the query, key and value arrays the three projections, the per-row softmax mean is the specification. -/
theorem rows_eq_attn (x : SX.Idx → EReal) (Wq Wk Wv : SW.Idx → EReal)
    (Q K Vv : Vec Ideal Cert.KernelIdeal.S4x4096x1024 .bf16)
    (hQ : ∀ b n o, Q (ix3 b n o) = proj x Wq b n o) (hK : ∀ b n o, K (ix3 b n o) = proj x Wk b n o)
    (hV : ∀ b n o, Vv (ix3 b n o) = proj x Wv b n o) (b : Fin 4) (r : Fin 4096) (o : Fin 1024) :
    (∑ c : Fin 4096,
        Ideal.div (Ideal.exp (Cert.KernelIdeal.Hand.zrow Q K b r c - Finset.univ.sup (Cert.KernelIdeal.Hand.zrow Q K b r)))
          (∑ c' : Fin 4096, Ideal.exp (Cert.KernelIdeal.Hand.zrow Q K b r c' - Finset.univ.sup (Cert.KernelIdeal.Hand.zrow Q K b r)))
        * Vv (ix3 b c o))
      = attn x Wq Wk Wv (ix3 b r o) := by
  have hz : Cert.KernelIdeal.Hand.zrow Q K b r = logit x Wq Wk b r := by
    funext c
    unfold Cert.KernelIdeal.Hand.zrow logit score
    simp only [hQ, hK]
  unfold attn weight denom rowMax
  simp only [hz, hV]
  rfl

end Cert.Glue

end
-- ==== Proof.AttnValue.lean ====
/-
  What the idealized kernel leaves in its result array: causal softmax attention of the three projections.

  Region 1's output array, row by row, is the output block of the finished running triple of the row's query block
  (the schedule read through the tables); that block is the softmax mean of the value rows under the causal logits of
  the query and key arrays (the block-by-block accumulation); and those three arrays are the projections of the
  program's inputs (region 0 and the reshapes around it). With finite inputs every projection is finite.
-/
import proofs.«431190_j5033701670934_3_alg».proof.Proof.Boundary
import proofs.«431190_j5033701670934_3_alg».proof.Proof.QkvValue
import proofs.«431190_j5033701670934_3_alg».proof.Proof.FlashRows
import proofs.«431190_j5033701670934_3_alg».proof.Proof.Glue

noncomputable section

namespace Cert.KernelIdeal.Hand

open Cert.KernelIdeal Cert.KernelIdeal.Gen Idealize.ShloMosaic Idealize.ShloMosaic.TcCoe Idealize.ShloMosaic.ValueIdx Idealize.SL.Sem

/-- Row `r` of the sequence axis is row `r % 512` of block `r / 512`. -/
theorem seqRow_div_mod (r : Fin 4096) : seqRow (r.val / 512) ⟨r.val % 512, Nat.mod_lt _ (by decide)⟩ = r := by
  apply Fin.ext
  unfold seqRow
  dsimp only
  have := r.isLt
  omega

/-- An array that is entry by entry a projection of finite inputs is finite. -/
theorem real_of_proj (A : Vec Ideal S4x4096x1024 .bf16) (x : Cert.Spec.SX.Idx → EReal) (W : Cert.Spec.SW.Idx → EReal)
    (hx : ∀ i, x i ≠ ⊥ ∧ x i ≠ ⊤) (hW : ∀ i, W i ≠ ⊥ ∧ W i ≠ ⊤)
    (h : ∀ b n o, A (ix3 b n o) = Cert.Spec.proj x W b n o) : ∀ j, A j ≠ ⊥ ∧ A j ≠ ⊤ := fun j => by
  obtain ⟨b, n, o, rfl⟩ : ∃ (b : Fin 4) (n : Fin 4096) (o : Fin 1024), j = ix3 b n o := ⟨j 0, j 1, j 2, eq_ix3 j⟩
  rw [h]
  exact Cert.Glue.proj_real x W hx hW b n o

/-- The result array of the idealized kernel, from the row-by-row reading of region 1's output (`hrows`) and finite
    inputs: the specification, entry by entry. -/
theorem result_eq_attn (m : (ℓ : Loc nD τ sig) → Buf (Elt Ideal) ℓ) (ρ : Dev nD → PrngReg) (c : Dev nD)
    (hx : ∀ i, m ((c.tc : Thread nD τ).loc main_arg0) i ≠ (⊥ : EReal) ∧ m ((c.tc : Thread nD τ).loc main_arg0) i ≠ (⊤ : EReal))
    (hq : ∀ i, m ((c.tc : Thread nD τ).loc main_arg1) i ≠ (⊥ : EReal) ∧ m ((c.tc : Thread nD τ).loc main_arg1) i ≠ (⊤ : EReal))
    (hk : ∀ i, m ((c.tc : Thread nD τ).loc main_arg2) i ≠ (⊥ : EReal) ∧ m ((c.tc : Thread nD τ).loc main_arg2) i ≠ (⊤ : EReal))
    (hv : ∀ i, m ((c.tc : Thread nD τ).loc main_arg3) i ≠ (⊥ : EReal) ∧ m ((c.tc : Thread nD τ).loc main_arg3) i ≠ (⊤ : EReal))
    (hrows : ∀ (b : Fin 4) (qi : Fin 8) (p : Fin 512) (o : Fin 1024),
      (dat1 (F := Ideal) (V3 m ρ) (adm 1) c).arrAt 3 (cfg1 (F := Ideal) (adm 1)).N (ix3 b (seqRow qi.val p) o)
        = outDiag (rowSt (V3 m ρ c main_v8) (V3 m ρ c main_v9) (V3 m ρ c main_v10) b qi.val (qi.val + 1)) (ix3 (0 : Fin 1) p o)) :
    W4 (F := Ideal) m ρ c (Proc.devRef .tc main_v11)
      = Cert.Spec.attn (m ((c.tc : Thread nD τ).loc main_arg0)) (m ((c.tc : Thread nD τ).loc main_arg1))
          (m ((c.tc : Thread nD τ).loc main_arg2)) (m ((c.tc : Thread nD τ).loc main_arg3)) := by
  obtain ⟨hQ, hK, hV⟩ := qkv_value m ρ c
  funext i
  obtain ⟨b, r, o, rfl⟩ : ∃ (b : Fin 4) (r : Fin 4096) (o : Fin 1024), i = ix3 b r o := ⟨i 0, i 1, i 2, eq_ix3 i⟩
  have hqi : r.val / 512 < 8 := by have := r.isLt; omega
  rw [W4_main_v11]
  have hr := seqRow_div_mod r
  have h1 := hrows b ⟨r.val / 512, hqi⟩ ⟨r.val % 512, Nat.mod_lt _ (by decide)⟩ o
  dsimp only at h1
  rw [hr] at h1
  refine h1.trans ?_
  have h2 := flash_row (V3 m ρ c main_v8) (V3 m ρ c main_v9) (V3 m ρ c main_v10)
    (real_of_proj _ _ _ hx hq hQ) (real_of_proj _ _ _ hx hk hK) (real_of_proj _ _ _ hx hv hV) b ⟨r.val / 512, hqi⟩
    ⟨r.val % 512, Nat.mod_lt _ (by decide)⟩ o
  dsimp only at h2
  rw [hr] at h2
  refine h2.trans ?_
  exact Cert.Glue.rows_eq_attn _ _ _ _ _ _ _ hQ hK hV b r o

end Cert.KernelIdeal.Hand

end
-- ==== Proof.Schedule.lean ====
/-
  The schedule of the attention region: what its two tables hold, and what the index maps and the write-backs are under it.

  Per batch the region's 36 points list the pairs (query block qi, key block ki) with ki ≤ qi < 8, query block by query
  block; position qi (qi + 1) / 2 + ki of a batch holds the pair (qi, ki). The two tables hold qi and ki per position.
  From that alone: the query and output windows sit at block (batch, qi), the key and value windows at block (batch, ki),
  and the output block is written back exactly at the diagonal points ki = qi.
-/
import proofs.«431190_j5033701670934_3_alg».proof.Proof.R1Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.ShloMosaic.Pipeline (Dat Cfg Window)

variable {F : FTy → Type} [FloatOps F] [Named F]

/-! ## The schedule as arithmetic

Inside a batch the 36 points list the pairs (query block, key block) with the key block at most the query block, query
block by query block: position qi (qi + 1) / 2 + ki holds the pair (qi, ki). -/

/-- The query block of position p of a batch: the largest q with q (q + 1) / 2 ≤ p. -/
def qiOf : ℕ → ℕ
  | 0 => 0 | 1 => 1 | 2 => 1 | 3 => 2 | 4 => 2 | 5 => 2 | 6 => 3 | 7 => 3 | 8 => 3 | 9 => 3
  | 10 => 4 | 11 => 4 | 12 => 4 | 13 => 4 | 14 => 4 | 15 => 5 | 16 => 5 | 17 => 5 | 18 => 5 | 19 => 5 | 20 => 5
  | 21 => 6 | 22 => 6 | 23 => 6 | 24 => 6 | 25 => 6 | 26 => 6 | 27 => 6
  | _ => 7

/-- The key block of position p of a batch: what is left of p above its query block's first position. -/
def kiOf (p : ℕ) : ℕ := p - qiOf p * (qiOf p + 1) / 2

/-- The first position of query block q. -/
def tri (q : ℕ) : ℕ := q * (q + 1) / 2

/-- Every position below 36 is the position of its pair, and its pair is below the diagonal or on it. -/
theorem tri_facts : ∀ p : Fin 36, kiOf p.val ≤ qiOf p.val ∧ qiOf p.val < 8 ∧ p.val = tri (qiOf p.val) + kiOf p.val := by decide

/-- Position tri q + k, k ≤ q < 8, holds the pair (q, k). -/
theorem pair_at : ∀ q : Fin 8, ∀ k : Fin 8, k.val ≤ q.val → tri q.val + k.val < 36 ∧ qiOf (tri q.val + k.val) = q.val ∧ kiOf (tri q.val + k.val) = k.val := by decide

/-- Within a batch the query block changes after a position exactly when the position is a diagonal one. -/
theorem next_qi : ∀ p : Fin 35, (qiOf (p.val + 1) ≠ qiOf p.val ↔ kiOf p.val = qiOf p.val) := by decide

/-! ## The schedule tables -/

/-- The two tables hold the schedule: entry j of the first is the query block of position j, of the second its key block. -/
structure Sched (a : (pcfg1 (F := F)).Adm) : Prop where
  qi : ∀ j : Fin 36, a.1.atD 0 ![j.val] = BitVec.ofNat 32 (qiOf j.val)
  ki : ∀ j : Fin 36, a.1.atD 1 ![j.val] = BitVec.ofNat 32 (kiOf j.val)

section Points

variable (a : (pcfg1 (F := F)).Adm)

theorem N1 : (cfg1 a).N = 144 := (by decide : grid1.N = 144)

/-- The second coordinate of point t is its position in its batch. -/
theorem coords1_1 (t : Fin (cfg1 a).N) : ((cfg1 a).grid.coords t 1).val = t.val % 36 := by
  show t.val / (cfg1 a).grid.stride 1 % 36 = _
  rw [show (cfg1 a).grid.stride 1 = 1 from (by decide : grid1.stride 1 = 1), Nat.div_one]

/-- The first coordinate of point t is its batch. -/
theorem coords1_0 (t : Fin (cfg1 a).N) : ((cfg1 a).grid.coords t 0).val = t.val / 36 := by
  show t.val / (cfg1 a).grid.stride 0 % 4 = _
  have h : t.val < 144 := t.isLt
  rw [show (cfg1 a).grid.stride 0 = 36 from (by decide : grid1.stride 0 = 36)]; omega

/-- The tables are read at the point's position in its batch. -/
theorem off1_eq (t : Fin (cfg1 a).N) : k1_off1 ((cfg1 a).grid.coords t) = ![t.val % 36] := by
  unfold k1_off1
  dsimp only
  rw [coords1_1]
  refine congrArg (fun n : ℕ => (![n] : Fin 1 → ℕ)) ?_
  show (BitVec.ofNat 32 (t.val % 36)).toNat = _
  rw [BitVec.toNat_ofNat]
  omega

variable {a} (h : Sched a)
include h

theorem qiw_eq (t : Fin (cfg1 a).N) : qiw a t = BitVec.ofNat 32 (qiOf (t.val % 36)) := by
  unfold qiw
  rw [off1_eq]
  exact h.qi ⟨t.val % 36, Nat.mod_lt _ (by decide)⟩

theorem kiw_eq (t : Fin (cfg1 a).N) : kiw a t = BitVec.ofNat 32 (kiOf (t.val % 36)) := by
  unfold kiw
  rw [off1_eq]
  exact h.ki ⟨t.val % 36, Nat.mod_lt _ (by decide)⟩

end Points

/-! ## The index maps -/

section Index

/-- An index map's table load reads the table's word at the point's position. -/
theorem at0_eq (pf : pre1.Contents (Elt F)) (i : grid1.Coords) :
    pf.at 0 (Rect.unit (s := S36) (k1_off1 i) S1.size (k1_off1_inb i)) numel1_S1 = pf.atD 0 (k1_off1 i) := by
  have hc : ∀ x : Fin (pre1.ref 0).ty.shape.rank, k1_off1 i x + 1 ≤ (pre1.ref 0).ty.shape.size x :=
    (Fin.forall_fin_one (p := fun x => k1_off1 i x + 1 ≤ S36.size x)).mpr (k1_off1_inb i 0)
  show _ = dite _ _ _
  rw [dif_pos hc]
  refine congrArg (pf 0) (funext ((Fin.forall_fin_one (p := fun x => _ = _)).mpr (Fin.ext ?_)))
  show k1_off1 i 0 + 1 * 0 = k1_off1 i 0
  omega

theorem at1_eq (pf : pre1.Contents (Elt F)) (i : grid1.Coords) :
    pf.at 1 (Rect.unit (s := S36) (k1_off1 i) S1.size (k1_off1_inb i)) numel1_S1 = pf.atD 1 (k1_off1 i) := by
  have hc : ∀ x : Fin (pre1.ref 1).ty.shape.rank, k1_off1 i x + 1 ≤ (pre1.ref 1).ty.shape.size x :=
    (Fin.forall_fin_one (p := fun x => k1_off1 i x + 1 ≤ S36.size x)).mpr (k1_off1_inb i 0)
  show _ = dite _ _ _
  rw [dif_pos hc]
  refine congrArg (pf 1) (funext ((Fin.forall_fin_one (p := fun x => _ = _)).mpr (Fin.ext ?_)))
  show k1_off1 i 0 + 1 * 0 = k1_off1 i 0
  omega

theorem toNat_small (n : ℕ) (hn : n < 4096) : (BitVec.ofNat 32 n).toNat = n := by
  rw [BitVec.toNat_ofNat]; omega

variable (a : (pcfg1 (F := F)).Adm)

/-- The query and output windows take block (batch, query-block word); the key and value windows block (batch, key-block word). -/
theorem index1_q (t : Fin (cfg1 a).N) : ((cfg1 a).win 0).index t = ![t.val / 36, (qiw a t).toNat, 0] := by
  show ![(BitVec.ofNat 32 ((cfg1 a).grid.coords t 0).val).toNat, (a.1.at 0 (Rect.unit (s := S36) (k1_off1 ((cfg1 a).grid.coords t)) S1.size (k1_off1_inb _)) numel1_S1 : BitVec 32).toNat, (0#32).toNat] = _
  rw [at0_eq, coords1_0, toNat_small _ (by have := t.isLt; have := N1 a; omega)]
  rfl

theorem index1_k (t : Fin (cfg1 a).N) : ((cfg1 a).win 1).index t = ![t.val / 36, (kiw a t).toNat, 0] := by
  show ![(BitVec.ofNat 32 ((cfg1 a).grid.coords t 0).val).toNat, (a.1.at 1 (Rect.unit (s := S36) (k1_off1 ((cfg1 a).grid.coords t)) S1.size (k1_off1_inb _)) numel1_S1 : BitVec 32).toNat, (0#32).toNat] = _
  rw [at1_eq, coords1_0, toNat_small _ (by have := t.isLt; have := N1 a; omega)]
  rfl

theorem index1_v (t : Fin (cfg1 a).N) : ((cfg1 a).win 2).index t = ![t.val / 36, (kiw a t).toNat, 0] := by
  show ![(BitVec.ofNat 32 ((cfg1 a).grid.coords t 0).val).toNat, (a.1.at 1 (Rect.unit (s := S36) (k1_off1 ((cfg1 a).grid.coords t)) S1.size (k1_off1_inb _)) numel1_S1 : BitVec 32).toNat, (0#32).toNat] = _
  rw [at1_eq, coords1_0, toNat_small _ (by have := t.isLt; have := N1 a; omega)]
  rfl

theorem index1_o (t : Fin (cfg1 a).N) : ((cfg1 a).win 3).index t = ![t.val / 36, (qiw a t).toNat, 0] := by
  show ![(BitVec.ofNat 32 ((cfg1 a).grid.coords t 0).val).toNat, (a.1.at 0 (Rect.unit (s := S36) (k1_off1 ((cfg1 a).grid.coords t)) S1.size (k1_off1_inb _)) numel1_S1 : BitVec 32).toNat, (0#32).toNat] = _
  rw [at0_eq, coords1_0, toNat_small _ (by have := t.isLt; have := N1 a; omega)]
  rfl

end Index

/-! ## The points under the schedule -/

section Under

theorem qiOf_lt (p : ℕ) (hp : p < 36) : qiOf p < 8 := (tri_facts ⟨p, hp⟩).2.1
theorem kiOf_le (p : ℕ) (hp : p < 36) : kiOf p ≤ qiOf p := (tri_facts ⟨p, hp⟩).1
theorem mod36_lt (n : ℕ) : n % 36 < 36 := Nat.mod_lt _ (by decide)

variable {a : (pcfg1 (F := F)).Adm} (h : Sched a)
include h

theorem qiw_toNat (t : Fin (cfg1 a).N) : (qiw a t).toNat = qiOf (t.val % 36) := by
  rw [qiw_eq h, toNat_small _ (by have := qiOf_lt _ (mod36_lt t.val); omega)]

theorem kiw_toNat (t : Fin (cfg1 a).N) : (kiw a t).toNat = kiOf (t.val % 36) := by
  rw [kiw_eq h, toNat_small _ (by have := qiOf_lt _ (mod36_lt t.val); have := kiOf_le _ (mod36_lt t.val); omega)]

theorem index_q (t : Fin (cfg1 a).N) : ((cfg1 a).win 0).index t = ![t.val / 36, qiOf (t.val % 36), 0] := by
  rw [index1_q, qiw_toNat h]
theorem index_k (t : Fin (cfg1 a).N) : ((cfg1 a).win 1).index t = ![t.val / 36, kiOf (t.val % 36), 0] := by
  rw [index1_k, kiw_toNat h]
theorem index_v (t : Fin (cfg1 a).N) : ((cfg1 a).win 2).index t = ![t.val / 36, kiOf (t.val % 36), 0] := by
  rw [index1_v, kiw_toNat h]
theorem index_o (t : Fin (cfg1 a).N) : ((cfg1 a).win 3).index t = ![t.val / 36, qiOf (t.val % 36), 0] := by
  rw [index1_o, qiw_toNat h]

/-- The output block is written back exactly at the diagonal points: there the next point has another query block or
    another batch, or there is no next point. -/
theorem flush_o_iff (t : Fin (cfg1 a).N) : ((cfg1 a).win 3).flush t = true ↔ kiOf (t.val % 36) = qiOf (t.val % 36) := by
  have hN : (cfg1 a).grid.N = 144 := N1 a
  have ht : t.val < 144 := hN ▸ t.isLt
  have hlast : kiOf 35 = qiOf 35 := by decide
  unfold Window.flush
  rw [show ((cfg1 a).win 3).isOut = true from rfl, Bool.true_and, Bool.or_eq_true, decide_eq_true_eq, decide_eq_true_eq]
  constructor
  · rintro (e | ⟨hlt, hne⟩)
    · rw [show t.val % 36 = 35 by omega]; exact hlast
    · rw [index_o h, index_o h] at hne
      by_cases hp : t.val % 36 = 35
      · rw [hp]; exact hlast
      · refine (next_qi ⟨t.val % 36, by have := mod36_lt t.val; omega⟩).mp fun e => hne ?_
        have e1 : (t.val + 1) / 36 = t.val / 36 := by omega
        have e2 : (t.val + 1) % 36 = t.val % 36 + 1 := by omega
        show ![(t.val + 1) / 36, qiOf ((t.val + 1) % 36), 0] = _
        rw [e1, e2]
        exact congrArg (fun n : ℕ => (![t.val / 36, n, 0] : Fin 3 → ℕ)) e
  · intro hd
    by_cases hl : t.val + 1 = (cfg1 a).grid.N
    · exact Or.inl hl
    · refine Or.inr ⟨by omega, ?_⟩
      rw [index_o h, index_o h]
      by_cases hp : t.val % 36 = 35
      · intro e
        have := congrFun e 0
        have e0 : (t.val + 1) / 36 = t.val / 36 := this
        omega
      · intro e
        have e1 : qiOf ((t.val + 1) % 36) = qiOf (t.val % 36) := congrFun e 1
        rw [show (t.val + 1) % 36 = t.val % 36 + 1 by omega] at e1
        exact (next_qi ⟨t.val % 36, by have := mod36_lt t.val; omega⟩).mpr hd e1

end Under

end Cert.KernelIdeal.Hand
end
-- ==== Proof.SchedValue.lean ====
/-
  The attention region's output array under the schedule.

  With the two tables holding the schedule, each input window holds the block its index map names, the running triple
  along query block q of a batch is that of the block's key blocks in order, each diagonal point writes back the output
  block of its query block, and those blocks cover the array: row 512 q + p of batch b ends at row p of the output block
  of query block q after its q + 1 key blocks.
-/
import proofs.«431190_j5033701670934_3_alg».proof.Proof.Schedule
import proofs.«431190_j5033701670934_3_alg».proof.Proof.FlashRows
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.Pipeline (Dat Cfg Window)

/-! ## The input blocks

A block's coordinate in its array is the block index times the block size plus the coordinate inside the block; with the
index maps above, the query window holds query block qi of the batch and the key and value windows key block ki. -/

section Blocks

variable (V : (c : Dev nD) → (b : Ref sig .tc) → Buf (Elt Ideal) ((c : Thread nD τ).loc b))
variable {a : (pcfg1 (F := Ideal)).Adm} (h : Sched a) (c : Dev nD)
include h

theorem iblk_q_apply (t : Fin (cfg1 a).N) (y : S1x512x1024.Idx) (k : S4x4096x1024.Idx)
    (hk0 : (k 0).val = t.val / 36) (hk1 : (k 1).val = 512 * qiOf (t.val % 36) + (y 1).val) (hk2 : (k 2).val = (y 2).val) :
    (iblk1 V a c 0 t : Vec Ideal S1x512x1024 .bf16) y = (V c main_v8 : S4x4096x1024.Idx → EReal) k := by
  have h0 : (y 0).val < 1 := (y 0).isLt
  unfold iblk1
  show V c main_v8 ((((cfg1 a).win 0).blk t).view.emb y) = V c main_v8 k
  refine congrArg (V c main_v8) (funext fun x => Fin.ext ?_)
  match x with
  | ⟨0, hx⟩ => show ((cfg1 a).win 0).index t ⟨0, hx⟩ * 1 + 1 * (y 0).val = (k 0).val
               rw [index_q h, hk0]; show t.val / 36 * 1 + 1 * (y 0).val = _; omega
  | ⟨1, hx⟩ => show ((cfg1 a).win 0).index t ⟨1, hx⟩ * 512 + 1 * (y 1).val = (k 1).val
               rw [index_q h, hk1]; show qiOf (t.val % 36) * 512 + 1 * (y 1).val = _; omega
  | ⟨2, hx⟩ => show ((cfg1 a).win 0).index t ⟨2, hx⟩ * 1024 + 1 * (y 2).val = (k 2).val
               rw [index_q h, hk2]; show 0 * 1024 + 1 * (y 2).val = _; omega

theorem iblk_q (t : Fin (cfg1 a).N) (b : Fin 4) (hb : t.val / 36 = b.val) :
    (iblk1 V a c 0 t : Vec Ideal S1x512x1024 .bf16) = blk (V c main_v8) b (qiOf (t.val % 36)) := by
  have hq := qiOf_lt _ (mod36_lt t.val)
  have hk := kiOf_le _ (mod36_lt t.val)
  refine funext fun (y : S1x512x1024.Idx) => ?_
  have h1 : (y 1).val < 512 := (y 1).isLt
  refine iblk_q_apply V h c t y (ix3 b (seqRow (qiOf (t.val % 36)) (y 1)) (y 2)) hb.symm ?_ rfl
  show (512 * qiOf (t.val % 36) + (y 1).val) % 4096 = _
  omega

theorem iblk_k_apply (t : Fin (cfg1 a).N) (y : S1x512x1024.Idx) (k : S4x4096x1024.Idx)
    (hk0 : (k 0).val = t.val / 36) (hk1 : (k 1).val = 512 * kiOf (t.val % 36) + (y 1).val) (hk2 : (k 2).val = (y 2).val) :
    (iblk1 V a c 1 t : Vec Ideal S1x512x1024 .bf16) y = (V c main_v9 : S4x4096x1024.Idx → EReal) k := by
  have h0 : (y 0).val < 1 := (y 0).isLt
  unfold iblk1
  show V c main_v9 ((((cfg1 a).win 1).blk t).view.emb y) = V c main_v9 k
  refine congrArg (V c main_v9) (funext fun x => Fin.ext ?_)
  match x with
  | ⟨0, hx⟩ => show ((cfg1 a).win 1).index t ⟨0, hx⟩ * 1 + 1 * (y 0).val = (k 0).val
               rw [index_k h, hk0]; show t.val / 36 * 1 + 1 * (y 0).val = _; omega
  | ⟨1, hx⟩ => show ((cfg1 a).win 1).index t ⟨1, hx⟩ * 512 + 1 * (y 1).val = (k 1).val
               rw [index_k h, hk1]; show kiOf (t.val % 36) * 512 + 1 * (y 1).val = _; omega
  | ⟨2, hx⟩ => show ((cfg1 a).win 1).index t ⟨2, hx⟩ * 1024 + 1 * (y 2).val = (k 2).val
               rw [index_k h, hk2]; show 0 * 1024 + 1 * (y 2).val = _; omega

theorem iblk_k (t : Fin (cfg1 a).N) (b : Fin 4) (hb : t.val / 36 = b.val) :
    (iblk1 V a c 1 t : Vec Ideal S1x512x1024 .bf16) = blk (V c main_v9) b (kiOf (t.val % 36)) := by
  have hq := qiOf_lt _ (mod36_lt t.val)
  have hk := kiOf_le _ (mod36_lt t.val)
  refine funext fun (y : S1x512x1024.Idx) => ?_
  have h1 : (y 1).val < 512 := (y 1).isLt
  refine iblk_k_apply V h c t y (ix3 b (seqRow (kiOf (t.val % 36)) (y 1)) (y 2)) hb.symm ?_ rfl
  show (512 * kiOf (t.val % 36) + (y 1).val) % 4096 = _
  omega

theorem iblk_v_apply (t : Fin (cfg1 a).N) (y : S1x512x1024.Idx) (k : S4x4096x1024.Idx)
    (hk0 : (k 0).val = t.val / 36) (hk1 : (k 1).val = 512 * kiOf (t.val % 36) + (y 1).val) (hk2 : (k 2).val = (y 2).val) :
    (iblk1 V a c 2 t : Vec Ideal S1x512x1024 .bf16) y = (V c main_v10 : S4x4096x1024.Idx → EReal) k := by
  have h0 : (y 0).val < 1 := (y 0).isLt
  unfold iblk1
  show V c main_v10 ((((cfg1 a).win 2).blk t).view.emb y) = V c main_v10 k
  refine congrArg (V c main_v10) (funext fun x => Fin.ext ?_)
  match x with
  | ⟨0, hx⟩ => show ((cfg1 a).win 2).index t ⟨0, hx⟩ * 1 + 1 * (y 0).val = (k 0).val
               rw [index_v h, hk0]; show t.val / 36 * 1 + 1 * (y 0).val = _; omega
  | ⟨1, hx⟩ => show ((cfg1 a).win 2).index t ⟨1, hx⟩ * 512 + 1 * (y 1).val = (k 1).val
               rw [index_v h, hk1]; show kiOf (t.val % 36) * 512 + 1 * (y 1).val = _; omega
  | ⟨2, hx⟩ => show ((cfg1 a).win 2).index t ⟨2, hx⟩ * 1024 + 1 * (y 2).val = (k 2).val
               rw [index_v h, hk2]; show 0 * 1024 + 1 * (y 2).val = _; omega

theorem iblk_v (t : Fin (cfg1 a).N) (b : Fin 4) (hb : t.val / 36 = b.val) :
    (iblk1 V a c 2 t : Vec Ideal S1x512x1024 .bf16) = blk (V c main_v10) b (kiOf (t.val % 36)) := by
  have hq := qiOf_lt _ (mod36_lt t.val)
  have hk := kiOf_le _ (mod36_lt t.val)
  refine funext fun (y : S1x512x1024.Idx) => ?_
  have h1 : (y 1).val < 512 := (y 1).isLt
  refine iblk_v_apply V h c t y (ix3 b (seqRow (kiOf (t.val % 36)) (y 1)) (y 2)) hb.symm ?_ rfl
  show (512 * kiOf (t.val % 36) + (y 1).val) % 4096 = _
  omega

end Blocks

/-! ## The running triple along a batch's points -/

section Rows

variable (V : (c : Dev nD) → (b : Ref sig .tc) → Buf (Elt Ideal) ((c : Thread nD τ).loc b))
variable {a : (pcfg1 (F := Ideal)).Adm} (h : Sched a) (c : Dev nD)

/-- At a query block's first key block the triple is reset, so what the point before left does not matter. -/
theorem scStep_first (qi : BitVec 32) (q k v : Vec Ideal S1x512x1024 .bf16) (s s' : Sc Ideal) :
    scStep qi (BitVec.ofNat 32 0) q k v s = scStep qi (BitVec.ofNat 32 0) q k v s' := by
  have hf : cFirst (BitVec.ofNat 32 0) := by decide
  unfold scStep
  simp only [if_pos hf]

include h

/-- One point: at position tri q + k of batch b the triple takes in key block k against query block q. -/
theorem scAt_along (t : Fin (cfg1 a).N) (b : Fin 4) (q k : ℕ) (hk : k ≤ q) (hq : q < 8) (ht : t.val = 36 * b.val + tri q + k) :
    scAt V a c (t.val + 1)
      = scStep (BitVec.ofNat 32 q) (BitVec.ofNat 32 k) (blk (V c main_v8) b q) (blk (V c main_v9) b k) (blk (V c main_v10) b k)
          (scAt V a c t.val) := by
  have hp := pair_at ⟨q, hq⟩ ⟨k, by omega⟩ hk
  dsimp only at hp
  obtain ⟨hlt, hqi, hki⟩ := hp
  have hm : t.val % 36 = tri q + k := by omega
  have hb : t.val / 36 = b.val := by omega
  rw [scAt_succ V a c t.val t.isLt]
  show scStep (qiw a t) (kiw a t) (iblk1 V a c 0 t) (iblk1 V a c 1 t) (iblk1 V a c 2 t) _ = _
  rw [qiw_eq h, kiw_eq h, iblk_q V h c t b hb, iblk_k V h c t b hb, iblk_v V h c t b hb, hm, hqi, hki]

/-- Along query block q of batch b: after its first n + 1 points the triple is that of the block's first n + 1 key blocks. -/
theorem scAt_row (b : Fin 4) (q : ℕ) (hq : q < 8) :
    ∀ n, n ≤ q → scAt V a c (36 * b.val + tri q + n + 1) = rowSt (V c main_v8) (V c main_v9) (V c main_v10) b q (n + 1)
  | 0, _ => by
    have hlt := (pair_at ⟨q, hq⟩ ⟨0, by omega⟩ (Nat.zero_le _)).1
    dsimp only at hlt
    have htN : 36 * b.val + tri q + 0 < (cfg1 a).N := by rw [N1]; omega
    refine (scAt_along V h c ⟨36 * b.val + tri q + 0, htN⟩ b q 0 (Nat.zero_le _) hq rfl).trans ?_
    exact scStep_first _ _ _ _ _ _
  | n + 1, hn => by
    have hlt := (pair_at ⟨q, hq⟩ ⟨n + 1, by omega⟩ hn).1
    dsimp only at hlt
    have htN : 36 * b.val + tri q + (n + 1) < (cfg1 a).N := by rw [N1]; omega
    refine (scAt_along V h c ⟨36 * b.val + tri q + (n + 1), htN⟩ b q (n + 1) hn hq rfl).trans ?_
    show scStep _ _ _ _ _ (scAt V a c (36 * b.val + tri q + n + 1)) = _
    rw [scAt_row b q hq n (by omega)]
    rfl

end Rows

/-! ## The output array from its write-backs -/

section Out

/-- The output array: row 512 q + p of batch b holds the output block of query block q after its q + 1 key blocks, at row p. -/
def outG (Q K Vv : Vec Ideal S4x4096x1024 .bf16) : S4x4096x1024.Idx → EReal := fun i =>
  outDiag (rowSt Q K Vv (i 0) ((i 1).val / 512) ((i 1).val / 512 + 1))
    (ix3 (0 : Fin 1) ⟨(i 1).val % 512, Nat.mod_lt _ (by decide)⟩ (i 2))

/-- outG at an index given by its batch, query block and place inside the block. -/
theorem outG_at (Q K Vv : Vec Ideal S4x4096x1024 .bf16) (i : S4x4096x1024.Idx) (b : Fin 4) (q : ℕ) (y : S1x512x1024.Idx)
    (h0 : (i 0).val = b.val) (h1 : (i 1).val = q * 512 + (y 1).val) (h2 : (i 2).val = (y 2).val) :
    outG Q K Vv i = outDiag (rowSt Q K Vv b q (q + 1)) y := by
  have hy1 : (y 1).val < 512 := (y 1).isLt
  have hy0 : (y 0).val < 1 := (y 0).isLt
  have e0 : i 0 = b := Fin.ext h0
  have e1 : (i 1).val / 512 = q := by omega
  have ey : ix3 (0 : Fin 1) (⟨(i 1).val % 512, Nat.mod_lt _ (by decide)⟩ : Fin 512) (i 2) = y := by
    funext x
    match x with
    | ⟨0, _⟩ => exact Fin.ext (by show 0 = (y 0).val; omega)
    | ⟨1, _⟩ => exact Fin.ext (by show (i 1).val % 512 = (y 1).val; omega)
    | ⟨2, _⟩ => exact Fin.ext h2
  unfold outG
  rw [e0, e1]
  exact congrArg (outDiag (rowSt Q K Vv b q (q + 1))) ey

variable (V : (c : Dev nD) → (b : Ref sig .tc) → Buf (Elt Ideal) ((c : Thread nD τ).loc b))
variable {a : (pcfg1 (F := Ideal)).Adm} (h : Sched a) (c : Dev nD)
include h

/-- Where the output block of point t sits in the array. -/
theorem emb_o (t : Fin (cfg1 a).N) (y : S1x512x1024.Idx) (i : S4x4096x1024.Idx)
    (hi : i = (((cfg1 a).win 3).blk t).view.emb y) :
    (i 0).val = t.val / 36 ∧ (i 1).val = qiOf (t.val % 36) * 512 + (y 1).val ∧ (i 2).val = (y 2).val := by
  have hy0 : (y 0).val < 1 := (y 0).isLt
  subst hi
  refine ⟨?_, ?_, ?_⟩
  · show ((cfg1 a).win 3).index t ⟨0, _⟩ * 1 + 1 * (y 0).val = _
    rw [index_o h]; show t.val / 36 * 1 + 1 * (y 0).val = _; omega
  · show ((cfg1 a).win 3).index t ⟨1, _⟩ * 512 + 1 * (y 1).val = _
    rw [index_o h]; show qiOf (t.val % 36) * 512 + 1 * (y 1).val = _; omega
  · show ((cfg1 a).win 3).index t ⟨2, _⟩ * 1024 + 1 * (y 2).val = _
    rw [index_o h]; show 0 * 1024 + 1 * (y 2).val = _; omega

/-- What a diagonal point writes back is its block of outG. -/
theorem flushed_o (t : Fin (cfg1 a).N) (hf : ((cfg1 a).win 3).flush t = true) :
    (dat1 V a c).flushed 3 t
      = (((cfg1 a).win 3).blk t).view.read (Elt Ideal) (outG (V c main_v8) (V c main_v9) (V c main_v10)) := by
  have hd := (flush_o_iff h t).mp hf
  have hN := N1 a
  have htlt : t.val < 144 := hN ▸ t.isLt
  have hq := qiOf_lt _ (mod36_lt t.val)
  have hp := (tri_facts ⟨t.val % 36, mod36_lt _⟩).2.2
  dsimp only at hp
  have ht : t.val = 36 * (t.val / 36) + tri (qiOf (t.val % 36)) + qiOf (t.val % 36) := by omega
  have hs : scAt V a c (t.val + 1)
      = rowSt (V c main_v8) (V c main_v9) (V c main_v10) ⟨t.val / 36, by omega⟩ (qiOf (t.val % 36)) (qiOf (t.val % 36) + 1) := by
    have := scAt_row V h c ⟨t.val / 36, by omega⟩ (qiOf (t.val % 36)) hq (qiOf (t.val % 36)) (Nat.le_refl _)
    rw [← this]
    exact congrArg (fun n => scAt V a c (n + 1)) ht
  show ((cfg1 a).win 3).cut ((cfg1 a).grid.coords t) ((dat1 V a c).after 3 t) = _
  rw [after1_3, hs]
  refine funext fun (y : S1x512x1024.Idx) => ?_
  show outDiag (F := Ideal) _ y = outG (V c main_v8) (V c main_v9) (V c main_v10) ((((cfg1 a).win 3).blk t).view.emb y)
  obtain ⟨g0, g1, g2⟩ := emb_o h t y _ rfl
  exact (outG_at _ _ _ _ ⟨t.val / 36, by omega⟩ (qiOf (t.val % 36)) y g0 g1 g2).symm

/-- Every row of the array lies in the block some diagonal point writes back: row r of batch b in that of query block r / 512. -/
theorem cover_o (i : S4x4096x1024.Idx) :
    ∃ t : Fin (cfg1 a).N, ((cfg1 a).win 3).flush t = true ∧ i ∈ (((cfg1 a).win 3).blk t).view.set := by
  have hi0 : (i 0).val < 4 := (i 0).isLt
  have hi1 : (i 1).val < 4096 := (i 1).isLt
  have hi2 : (i 2).val < 1024 := (i 2).isLt
  have hq : (i 1).val / 512 < 8 := by omega
  have hp := pair_at ⟨(i 1).val / 512, hq⟩ ⟨(i 1).val / 512, hq⟩ (Nat.le_refl _)
  dsimp only at hp
  obtain ⟨hlt, hqi, hki⟩ := hp
  have htN : 36 * (i 0).val + tri ((i 1).val / 512) + (i 1).val / 512 < (cfg1 a).N := by rw [N1]; omega
  obtain ⟨T, hm, hb⟩ : ∃ T : Fin (cfg1 a).N, T.val % 36 = tri ((i 1).val / 512) + (i 1).val / 512 ∧ T.val / 36 = (i 0).val :=
    ⟨⟨_, htN⟩, by show (36 * (i 0).val + tri ((i 1).val / 512) + (i 1).val / 512) % 36 = _; omega,
      by show (36 * (i 0).val + tri ((i 1).val / 512) + (i 1).val / 512) / 36 = _; omega⟩
  refine ⟨T, ?_, ?_⟩
  · refine (flush_o_iff h T).mpr ?_
    rw [hm, hqi, hki]
  · have e := View.set_slice_whole main_v11 (((cfg1 a).win 3).rect T)
    refine (Eq.mpr (congrArg (fun s => _ ∈ s) e) ?_ : _ ∈ ((View.whole main_v11).slice (((cfg1 a).win 3).rect T)).set)
    refine Rect.mem_set_unit.mpr fun x => ?_
    match x with
    | ⟨0, hx⟩ =>
      show ((cfg1 a).win 3).index T ⟨0, hx⟩ * 1 ≤ (i 0).val ∧ (i 0).val < ((cfg1 a).win 3).index T ⟨0, hx⟩ * 1 + 1
      rw [index_o h]
      show T.val / 36 * 1 ≤ (i 0).val ∧ (i 0).val < T.val / 36 * 1 + 1
      rw [hb]; omega
    | ⟨1, hx⟩ =>
      show ((cfg1 a).win 3).index T ⟨1, hx⟩ * 512 ≤ (i 1).val ∧ (i 1).val < ((cfg1 a).win 3).index T ⟨1, hx⟩ * 512 + 512
      rw [index_o h]
      show qiOf (T.val % 36) * 512 ≤ (i 1).val ∧ (i 1).val < qiOf (T.val % 36) * 512 + 512
      rw [hm, hqi]; omega
    | ⟨2, hx⟩ =>
      show ((cfg1 a).win 3).index T ⟨2, hx⟩ * 1024 ≤ (i 2).val ∧ (i 2).val < ((cfg1 a).win 3).index T ⟨2, hx⟩ * 1024 + 1024
      rw [index_o h]
      show 0 * 1024 ≤ (i 2).val ∧ (i 2).val < 0 * 1024 + 1024
      omega

/-- So the output array ends at outG. -/
theorem out_array : (dat1 V a c).arrAt 3 (cfg1 a).N = outG (V c main_v8) (V c main_v9) (V c main_v10) :=
  (dat1 V a c).arrAt_eq_of_cover 3 (outG (V c main_v8) (V c main_v9) (V c main_v10)) (fun t hf => flushed_o V h c t hf) (cover_o h)

/-- Row 512 qi + p of batch b of the output array is row p of the output block of query block qi after its qi + 1 key blocks. -/
theorem out_rows (b : Fin 4) (qi : Fin 8) (p : Fin 512) (o : Fin 1024) :
    ((dat1 V a c).arrAt 3 (cfg1 a).N : S4x4096x1024.Idx → EReal) (ix3 b (seqRow qi.val p) o)
      = outDiag (rowSt (V c main_v8) (V c main_v9) (V c main_v10) b qi.val (qi.val + 1)) (ix3 (0 : Fin 1) p o) := by
  have hq : qi.val < 8 := qi.isLt
  have hp : p.val < 512 := p.isLt
  rw [out_array V h c]
  refine outG_at _ _ _ _ b qi.val (ix3 (0 : Fin 1) p o) rfl ?_ rfl
  show (512 * qi.val + p.val) % 4096 = qi.val * 512 + p.val
  omega

end Out

end Cert.KernelIdeal.Hand
end
-- ==== Proof.Tables.lean ====
/-
  The two constant tables hold the schedule: entry j of the first is the query block of position j, of the second
  its key block.
-/
import proofs.«431190_j5033701670934_3_alg».proof.Proof.Boundary
import proofs.«431190_j5033701670934_3_alg».proof.Proof.Schedule

set_option maxRecDepth 16384

noncomputable section

namespace Cert.KernelIdeal.Hand

open Cert.KernelIdeal Cert.KernelIdeal.Gen
open Idealize.ShloMosaic Idealize.ShloMosaic.TcCoe

variable {F : FTy → Type} [FloatOps F] [Named F]

/-- The first table lists the query blocks, the second the key blocks, position by position. -/
theorem lit0_qi : ∀ j : Fin 36, lit0 j = BitVec.ofNat 32 (qiOf j.val) := by decide
theorem lit1_ki : ∀ j : Fin 36, lit1 j = BitVec.ofNat 32 (kiOf j.val) := by decide

/-- Reading a table at position j reads its j-th word. -/
theorem atD_tab1_0 (j : Fin 36) : (tab1 (F := F)).atD 0 ![j.val] = lit0 j := by
  have hc : ∀ x : Fin (pre1.ref 0).ty.shape.rank, (![j.val] : Fin 1 → ℕ) x + 1 ≤ (pre1.ref 0).ty.shape.size x :=
    (Fin.forall_fin_one (p := fun x => (![j.val] : Fin 1 → ℕ) x + 1 ≤ S36.size x)).mpr (by show j.val + 1 ≤ 36; omega)
  show dite _ _ _ = _
  rw [dif_pos hc]
  show lit0 (S36.rowMajor _) = lit0 j
  exact congrArg lit0 (Fin.ext ((Shape.rowMajor_val_one _).trans rfl))

theorem atD_tab1_1 (j : Fin 36) : (tab1 (F := F)).atD 1 ![j.val] = lit1 j := by
  have hc : ∀ x : Fin (pre1.ref 1).ty.shape.rank, (![j.val] : Fin 1 → ℕ) x + 1 ≤ (pre1.ref 1).ty.shape.size x :=
    (Fin.forall_fin_one (p := fun x => (![j.val] : Fin 1 → ℕ) x + 1 ≤ S36.size x)).mpr (by show j.val + 1 ≤ 36; omega)
  show dite _ _ _ = _
  rw [dif_pos hc]
  show lit1 (S36.rowMajor _) = lit1 j
  exact congrArg lit1 (Fin.ext ((Shape.rowMajor_val_one _).trans rfl))

/-- The schedule tables hold the schedule. -/
theorem sched_adm1 : Sched (adm1 (F := F)) where
  qi j := (atD_tab1_0 j).trans (lit0_qi j)
  ki j := (atD_tab1_1 j).trans (lit1_ki j)

end Cert.KernelIdeal.Hand

end
-- ==== Proof.R1Runs.lean ====
/-
  What the per-case runs of the attention body share: the two schedule tables as the body is handed them, the
  word the body loads from a table at a grid point, and the views through which the scratch triple and the
  output block are read back.
-/
import proofs.«431190_j5033701670934_3_alg».proof.Proof.R1Data
import Idealize.ShloMosaic.Lib.Ring

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The schedule tables as the body reads them -/

/-- The two tables as whole-buffer memrefs: query-block words, key-block words. -/
abbrev tbM1_0 : Memref sig .tc .smem S36 .i32 := Memref.whole main_c
abbrev htbM1_0 : tbM1_0.IsWhole := Memref.isWhole_whole _
abbrev tbM1_1 : Memref sig .tc .smem S36 .i32 := Memref.whole main_c_0
abbrev htbM1_1 : tbM1_1.IsWhole := Memref.isWhole_whole _

/-- A table's contents on core c, and the table held whole at them. -/
abbrev TbBuf1 (c : Dev nD) {S : Shape} {e : EltTy} (M : Memref sig .tc .smem S e) : Type := Buf (Elt F) (M.view.loc (c : Thread nD τ))
abbrev tbPt1 (c : Dev nD) {S : Shape} {e : EltTy} (M : Memref sig .tc .smem S e) (f : TbBuf1 (F := F) c M) : sProp 𝕄 :=
  M.view.loc (c : Thread nD τ) ↦{fullShare} f

/-- The word the body loads from table M at the offset of the point with coordinates i, the table holding f. -/
abbrev wordAt1 (c : Dev nD) (i : grid1.Coords) (M : Memref sig .tc .smem S36 .i32) (f : TbBuf1 (F := F) c M) : BitVec 32 :=
  M.view.readAt (Elt F) (Rect.unit (s := S36) (k1_off1 i) S1.size (k1_off1_inb i)).toLoadRect f (Shape.Idx.first (numel1_S1.symm ▸ Nat.one_pos))

/-! ## Views for reading back -/

/-- The views through which the contents of the scratch triple and of the output block are stated. -/
abbrev VS1_0 : View sig .tc .vmem S512x1 .f32 := scM1_0.view
abbrev VS1_1 : View sig .tc .vmem S512x1 .f32 := scM1_1.view
abbrev VS1_2 : View sig .tc .vmem S512x1024 .f32 := scM1_2.view
abbrev VO1_3 : View sig .tc .vmem S1x512x1024 .f32 := (spec1_3.stage 0).view

end Cert.KernelIdeal.Hand

end
-- ==== Proof.R1Kit.lean ====
/-
  The attention region around its body: the schedule words as the body loads them, where the output window is
  idle, what the input windows hold at every point, the body as the pipeline calls it, and the region's
  invariant at its two ends.
-/
import proofs.«431190_j5033701670934_3_alg».proof.Proof.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The schedule words, as the body loads them and as the idle table names them -/

/-- The word the body loads from the first table at the offset of the point with coordinates i is the table's
    element there. -/
theorem word_gen0 (c : Dev nD) (i : grid1.Coords) (pf : pre1.Contents (Elt F)) : wordAt1 c i tbM1_0 (pf 0) = pf.atD 0 (k1_off1 i) := by
  unfold Pipeline.Prefetch.Contents.atD
  have h : ∀ j : Fin (pre1.ref 0).ty.shape.rank, k1_off1 i j + 1 ≤ (pre1.ref 0).ty.shape.size j :=
    fun j => by fin_cases j; exact k1_off1_inb i 0
  rw [dif_pos h]
  rfl

theorem word_gen1 (c : Dev nD) (i : grid1.Coords) (pf : pre1.Contents (Elt F)) : wordAt1 c i tbM1_1 (pf 1) = pf.atD 1 (k1_off1 i) := by
  unfold Pipeline.Prefetch.Contents.atD
  have h : ∀ j : Fin (pre1.ref 1).ty.shape.rank, k1_off1 i j + 1 ≤ (pre1.ref 1).ty.shape.size j :=
    fun j => by fin_cases j; exact k1_off1_inb i 0
  rw [dif_pos h]
  rfl

/-- The idle table's entry for the output window, at any contents of the tables. -/
theorem idle1_3_gen (pf : pre1.Contents (Elt F)) (i : grid1.Coords) :
    idle1 pf 3 i = !(k1_cond3 (pf.atD 0 (k1_off1 i)) (pf.atD 1 (k1_off1 i)) == 1#1) := by
  unfold idle1; rfl

section Kit

variable (V : (c : Dev nD) → (b : Ref sig .tc) → Buf (Elt F) ((c : Thread nD τ).loc b)) (a : (pcfg1 (F := F)).Adm)

/-- The word the body loads from the first table at point t is the point's query-block word. -/
theorem wordAt1_q (c : Dev nD) (t : Fin (cfg1 a).N) : wordAt1 c ((cfg1 a).grid.coords t) tbM1_0 (a.1 0) = qiw a t := by
  unfold qiw; exact word_gen0 c _ a.1

/-- The word the body loads from the second table at point t is the point's key-block word. -/
theorem wordAt1_k (c : Dev nD) (t : Fin (cfg1 a).N) : wordAt1 c ((cfg1 a).grid.coords t) tbM1_1 (a.1 1) = kiw a t := by
  unfold kiw; exact word_gen1 c _ a.1

/-- The tables the invariant holds, one by one. -/
theorem prefHeld1_eq (c : Dev nD) :
    (Pipeline.prefHeld pre1 c (fun _ => fullShare) a.1 : sProp 𝕄) = iprop(tbPt1 c tbM1_0 (a.1 0) ∗ tbPt1 c tbM1_1 (a.1 1)) := by
  unfold Pipeline.prefHeld
  rw [show (Finset.univ : Finset (Fin 2)) = insert (0 : Fin 2) {(1 : Fin 2)} from by decide,
    bigSep_insert (by decide), bigSep_singleton]
  rfl

/-! ## Where the windows are idle -/

theorem liveAt1_0 (i : (cfg1 a).grid.Coords) : (cfg1 a).idle 0 i = false := rfl
theorem liveAt1_1 (i : (cfg1 a).grid.Coords) : (cfg1 a).idle 1 i = false := rfl
theorem liveAt1_2 (i : (cfg1 a).grid.Coords) : (cfg1 a).idle 2 i = false := rfl

/-- The output window is idle exactly where the key block is not the diagonal one. -/
theorem idle1_3 (t : Fin (cfg1 a).N) :
    (cfg1 a).idle 3 ((cfg1 a).grid.coords t) = !(k1_cond3 (qiw a t) (kiw a t) == 1#1) := by
  unfold qiw kiw; exact idle1_3_gen a.1 _

theorem liveAt1_3 (t : Fin (cfg1 a).N) (h : cDiag (qiw a t) (kiw a t)) : (cfg1 a).idle 3 ((cfg1 a).grid.coords t) = false := by
  rw [idle1_3]; simp only [cDiag] at h; simp [h]

theorem idleAt1_3 (t : Fin (cfg1 a).N) (h : ¬cDiag (qiw a t) (kiw a t)) : (cfg1 a).idle 3 ((cfg1 a).grid.coords t) = true := by
  rw [idle1_3]; simp only [cDiag] at h; simp [h]

/-! ## What the tables' contents must satisfy -/

/-- The facts about the schedule tables the region's proof uses: the first point resets the triple; every point's
    key block is strictly below the diagonal or on it, not both; the output block is not written back where the
    key block is not the diagonal one. -/
structure TabOk (a : (pcfg1 (F := F)).Adm) : Prop where
  first0 : ∀ t : Fin (cfg1 a).N, t.val = 0 → cFirst (kiw a t)
  met : ∀ t : Fin (cfg1 a).N, (cBelow (qiw a t) (kiw a t) ∧ ¬cDiag (qiw a t) (kiw a t)) ∨ (¬cBelow (qiw a t) (kiw a t) ∧ cDiag (qiw a t) (kiw a t))
  noFlush : ∀ t : Fin (cfg1 a).N, ¬cDiag (qiw a t) (kiw a t) → ((cfg1 a).win 3).flush t = false

/-! ## The input windows at every point -/

/-- An input window's current staging buffer holds its block at every point, fetched there or not: unfetched,
    the block index has not moved. -/
theorem before1_0_of {c : Dev nD} (dat : Dat τ (Elt F) Unit ℕ (UR sig nD τ) ℕ (cfg1 a) c) (hA : dat.A 0 = V c (Pipeline.arrRef spec1 0))
    (hafter : ∀ t, dat.after 0 t = iblk1 V a c 0 t) (t : Fin (cfg1 a).N) (d) : dat.before 0 t d = iblk1 V a c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ (cfg1 a) c) (hA : dat.A 1 = V c (Pipeline.arrRef spec1 1))
    (hafter : ∀ t, dat.after 1 t = iblk1 V a c 1 t) (t : Fin (cfg1 a).N) (d) : dat.before 1 t d = iblk1 V a c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ (cfg1 a) c) (hA : dat.A 2 = V c (Pipeline.arrRef spec1 2))
    (hafter : ∀ t, dat.after 2 t = iblk1 V a c 2 t) (t : Fin (cfg1 a).N) (d) : dat.before 2 t d = iblk1 V a c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin (cfg1 a).N) (d) : (dat1 V a c).before 0 t d = iblk1 V a c 0 t :=
  before1_0_of V a (dat1 V a c) (A_eq1 V a c 0) (after1_0 V a c) t d
theorem before1_1 (c : Dev nD) (t : Fin (cfg1 a).N) (d) : (dat1 V a c).before 1 t d = iblk1 V a c 1 t :=
  before1_1_of V a (dat1 V a c) (A_eq1 V a c 1) (after1_1 V a c) t d
theorem before1_2 (c : Dev nD) (t : Fin (cfg1 a).N) (d) : (dat1 V a c).before 2 t d = iblk1 V a c 2 t :=
  before1_2_of V a (dat1 V a c) (A_eq1 V a c 2) (after1_2 V a c) t d

/-! ## The body as the pipeline calls it -/

/-- Each window's current staging memref at point t, and its wholeness. -/
abbrev ms1_0 (t : Fin (cfg1 a).N) : Memref sig .tc .vmem S1x512x1024 .bf16 := spec1_0.stage ((cfg1 a).slots t 0)
abbrev hs1_0 (t : Fin (cfg1 a).N) : (ms1_0 a t).IsWhole := hstage1_0 (((cfg1 a).slots t 0).cast nbuf1_0)
abbrev ms1_1 (t : Fin (cfg1 a).N) : Memref sig .tc .vmem S1x512x1024 .bf16 := spec1_1.stage ((cfg1 a).slots t 1)
abbrev hs1_1 (t : Fin (cfg1 a).N) : (ms1_1 a t).IsWhole := hstage1_1 (((cfg1 a).slots t 1).cast nbuf1_1)
abbrev ms1_2 (t : Fin (cfg1 a).N) : Memref sig .tc .vmem S1x512x1024 .bf16 := spec1_2.stage ((cfg1 a).slots t 2)
abbrev hs1_2 (t : Fin (cfg1 a).N) : (ms1_2 a t).IsWhole := hstage1_2 (((cfg1 a).slots t 2).cast nbuf1_2)
abbrev ms1_3 (t : Fin (cfg1 a).N) : Memref sig .tc .vmem S1x512x1024 .f32 := spec1_3.stage ((cfg1 a).slots t 3)
abbrev hs1_3 (t : Fin (cfg1 a).N) : (ms1_3 a t).IsWhole := hstage1_3 (((cfg1 a).slots t 3).cast nbuf1_3)

/-- The kernel body at point t, on what the pipeline calls it with. -/
abbrev bodyAt1 (t : Fin (cfg1 a).N) : Prog (TpuEff nD τ sig (Elt F) Λ₀ .tc) PUnit :=
  cc1__attn_kernel ((cfg1 a).grid.coords t) tbM1_0 htbM1_0 tbM1_1 htbM1_1 (ms1_0 a t) (hs1_0 a t) (ms1_1 a t) (hs1_1 a t) (ms1_2 a t) (hs1_2 a t)
    (ms1_3 a t) (hs1_3 a t) scM1_0 (Memref.isWhole_whole _) scM1_1 (Memref.isWhole_whole _) scM1_2 (Memref.isWhole_whole _)

/-! ## The invariant at the region's two ends -/

/-- The scoped buffers no window stages, with the three scratch buffers named. -/
theorem scopedRest1_split (c : Dev nD) :
    (Pipeline.scopedRest (Ix := Unit) (Name := ℕ) (U := UR sig nD τ) (Lvl := ℕ) (Val := Elt F) spec1 c : sProp 𝕄)
      = iprop(((∃ d, owns (c : Thread nD τ) scM1_0 fullShare d) ∗ (∃ d, owns (c : Thread nD τ) scM1_1 fullShare d)
            ∗ (∃ d, owns (c : Thread nD τ) scM1_2 fullShare d))
          ∗ Pipeline.scopedRestBut (Ix := Unit) (Name := ℕ) (U := UR sig nD τ) (Lvl := ℕ) (Val := Elt F) spec1 c scL1) := by
  rw [Pipeline.scopedRest_split_of_list spec1 c scL1 (by decide) (by decide)]
  simp only [scM1_0, scM1_1, scM1_2, owns_whole]; rfl

/-- What the region hands the invariant is the invariant before the first point. -/
theorem hin1 (c : Dev nD) :
    iprop(iprop(∃ r, prngReg c r) ∗ Pipeline.prefHeld pre1 c (fun _ => fullShare) a.1
        ∗ Pipeline.scopedRest (Ix := Unit) (Name := ℕ) (U := UR sig nD τ) (Lvl := ℕ) spec1 c) ⊢ (dat1 V a c).Φ 0 := by
  rw [show (dat1 V a c).Φ 0 = PhiS1 V a c 0 (Nat.zero_le _) from rfl, PhiS1_zero V a c 0 _ rfl, scopedRest1_split]
  unfold restS1
  iintro ⟨Hp, HT, ⟨⟨H0, H1, H2⟩, Hr⟩⟩
  isplitl [H0]; · iexact H0
  isplitl [H1]; · iexact H1
  isplitl [H2]; · iexact H2
  isplitl [Hr]; · iexact Hr
  isplitl [Hp]; · iexact Hp
  iexact HT

/-- After any point the invariant gives that back: the triple's named contents are forgotten. -/
theorem Phi_out1 (c : Dev nD) (t : Fin ((cfg1 a).N + 1)) (ht : t.val ≠ 0) :
    (dat1 V a c).Φ t ⊢ iprop(iprop(iprop(∃ r, prngReg c r) ∗ Pipeline.prefHeld pre1 c (fun _ => fullShare) a.1)
        ∗ Pipeline.scopedRest (Ix := Unit) (Name := ℕ) (U := UR sig nD τ) (Lvl := ℕ) spec1 c) := by
  rw [show (dat1 V a c).Φ t = PhiS1 V a c t.val (Nat.le_of_lt_succ t.isLt) from rfl, PhiS1_pos V a c _ _ ht, scopedRest1_split]
  unfold restS1
  iintro ⟨H0, H1, H2, Hr, Hp, HT⟩
  isplitl [Hp HT]
  · isplitl [Hp]; · iexact Hp
    iexact HT
  isplitl [H0 H1 H2]
  · isplitl [H0]; · iexists _; iexact H0
    isplitl [H1]; · iexists _; iexact H1
    iexists _; iexact H2
  iexact Hr

/-- The same after the last point. -/
theorem hout1 (c : Dev nD) :
    (dat1 V a c).Φ (Fin.last (cfg1 a).N) ⊢ iprop(iprop(iprop(∃ r, prngReg c r) ∗ Pipeline.prefHeld pre1 c (fun _ => fullShare) a.1)
        ∗ Pipeline.scopedRest (Ix := Unit) (Name := ℕ) (U := UR sig nD τ) (Lvl := ℕ) spec1 c) :=
  Phi_out1 V a c _ (by rw [Fin.val_last]; have : (cfg1 a).N = 144 := N_1; omega)

end Kit

end Cert.KernelIdeal.Hand

end
-- ==== Proof.TabFacts.lean ====
/-
  What the attention region's proof uses of its two tables follows from the schedule alone: the first point of
  the grid resets the running triple, every point's key block is strictly below its query block or equal to it,
  and the output block is written back only at the points where the two are equal.
-/
import proofs.«431190_j5033701670934_3_alg».proof.Proof.Tables
import proofs.«431190_j5033701670934_3_alg».proof.Proof.R1Kit

set_option maxRecDepth 16384

noncomputable section

namespace Cert.KernelIdeal.Hand

open Cert.KernelIdeal Cert.KernelIdeal.Gen
open Idealize.ShloMosaic Idealize.ShloMosaic.TcCoe
open Idealize.ShloMosaic.Pipeline (Dat Cfg Window)

variable {F : FTy → Type} [FloatOps F] [Named F]

/-! ## What the region's proof uses of the tables, from the schedule -/

/-- Position 0 of a batch has key block 0, as the kernel tests it. -/
theorem cFirst_zero : cFirst (BitVec.ofNat 32 (kiOf 0)) := by decide

/-- At every position the key block is strictly below the query block or equal to it, never both, as the kernel tests it. -/
theorem met_pos : ∀ p : Fin 36,
    (cBelow (BitVec.ofNat 32 (qiOf p.val)) (BitVec.ofNat 32 (kiOf p.val)) ∧ ¬cDiag (BitVec.ofNat 32 (qiOf p.val)) (BitVec.ofNat 32 (kiOf p.val)))
      ∨ (¬cBelow (BitVec.ofNat 32 (qiOf p.val)) (BitVec.ofNat 32 (kiOf p.val)) ∧ cDiag (BitVec.ofNat 32 (qiOf p.val)) (BitVec.ofNat 32 (kiOf p.val))) := by
  decide

/-- The kernel's equality test of the two words is equality of the two blocks. -/
theorem cDiag_pos : ∀ p : Fin 36, cDiag (BitVec.ofNat 32 (qiOf p.val)) (BitVec.ofNat 32 (kiOf p.val)) ↔ kiOf p.val = qiOf p.val := by
  decide

theorem tabOk_of_sched {a : (pcfg1 (F := F)).Adm} (h : Sched a) : TabOk a where
  first0 t ht := by
    rw [kiw_eq h, ht]; exact cFirst_zero
  met t := by
    rw [qiw_eq h, kiw_eq h]; exact met_pos ⟨t.val % 36, mod36_lt _⟩
  noFlush t hd := by
    rw [qiw_eq h, kiw_eq h] at hd
    have hne : ¬ (kiOf (t.val % 36) = qiOf (t.val % 36)) := fun e => hd ((cDiag_pos ⟨t.val % 36, mod36_lt _⟩).mpr e)
    cases hf : ((cfg1 a).win 3).flush t with
    | false => rfl
    | true => exact absurd ((flush_o_iff h t).mp hf) hne

/-- The schedule tables satisfy what the region's proof uses. -/
theorem tabOk_adm1 : TabOk (adm1 (F := F)) := tabOk_of_sched sched_adm1

end Cert.KernelIdeal.Hand

end
-- ==== Proof.R1RunA.lean ====
/-
  The attention body at a point whose key block is the first of its query block and lies strictly below the
  diagonal: the triple is reset and then takes the whole block in; the output block is left alone.
-/
import proofs.«431190_j5033701670934_3_alg».proof.Proof.R1Runs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The pieces the body leaves in the three scratch buffers in this case, with the proof that the body runs from
    the input blocks, the output block, the triple and the tables to the same with those pieces written. -/
noncomputable def kernelRun1_A (c : Dev nD) (i : grid1.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole)
    (xt0 : TbBuf1 (F := F) c tbM1_0) (xt1 : TbBuf1 (F := F) c tbM1_1)
    (h0 : cFirst (wordAt1 c i tbM1_1 xt1)) (h1 : cBelow (wordAt1 c i tbM1_0 xt0) (wordAt1 c i tbM1_1 xt1))
    (h2 : ¬cDiag (wordAt1 c i tbM1_0 xt0) (wordAt1 c i tbM1_1 xt1))
    (q k v : Vec F S1x512x1024 .bf16) (s0 s1 : Vec F S512x1 .f32) (s2 : Vec F S512x1024 .f32) :
    Σ' (LS0 : List (View.Piece (Elt F) S512x1 .f32)) (LS1 : List (View.Piece (Elt F) S512x1 .f32)), { LS2 : List (View.Piece (Elt F) S512x1024 .f32) //
      ∀ (xi : Vec F S1x512x1024 .f32) (E : Set ℕ) (K : PUnit → sProp 𝕄),
        iprop(owns (c : Thread nD τ) arg4 fullShare q ∗ owns (c : Thread nD τ) arg5 fullShare k ∗ owns (c : Thread nD τ) arg6 fullShare v
            ∗ owns (c : Thread nD τ) arg7 fullShare xi
            ∗ owns (c : Thread nD τ) arg8 fullShare s0 ∗ owns (c : Thread nD τ) arg9 fullShare s1 ∗ owns (c : Thread nD τ) arg10 fullShare s2
            ∗ tbPt1 c tbM1_0 xt0 ∗ tbPt1 c tbM1_1 xt1
            ∗ (iprop(owns (c : Thread nD τ) arg4 fullShare q ∗ owns (c : Thread nD τ) arg5 fullShare k ∗ owns (c : Thread nD τ) arg6 fullShare v
                ∗ owns (c : Thread nD τ) arg7 fullShare xi
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)
                ∗ tbPt1 c tbM1_0 xt0 ∗ tbPt1 c tbM1_1 xt1) -∗ K ⟨⟩))
          ⊢ wp frame (wpE (defs₀ (F := F)) Variants.none c none) E
              (cc1__attn_kernel i tbM1_0 htbM1_0 tbM1_1 htbM1_1 arg4 harg4 arg5 harg5 arg6 harg6 arg7 harg7 arg8 harg8 arg9 harg9 arg10 harg10) K } := by
  refine ⟨?_, ?_, ?_, fun xi E K => ?run⟩
  case run =>
    simp only [cc1__attn_kernel_eq_skeleton]; unfold cc1__attn_kernel_skel
    unfold owns
    iintro ⟨⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, HT0, HT1, Hk⟩
    obtain rfl := harg4.eq_unread hf4; obtain rfl := harg5.eq_unread hf5; obtain rfl := harg6.eq_unread hf6
    obtain rfl := harg7.eq_unread hf7
    obtain rfl := harg8.eq_unread hf8; obtain rfl := harg9.eq_unread hf9; obtain rfl := harg10.eq_unread hf10
    sl_exec (disch := first | exact h0 | exact h1 | exact h2)
    sl_step
    iapply Hk
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    isplitl [H9]; · iexists _; iexact H9
    isplitl [H10]; · iexists _; iexact H10
    isplitl [HT0]; · iexact HT0
    iexact HT1

private theorem hz2 : (![0, 0] : Fin 2 → Nat) = fun _ => 0 := funext fun a => by fin_cases a <;> rfl
private theorem hz3 : (![0, 0, 0] : Fin 3 → Nat) = fun _ => 0 := funext fun a => by fin_cases a <;> rfl

section Pieces

variable (c : Dev nD) (i : grid1.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole)
    (xt0 : TbBuf1 (F := F) c tbM1_0) (xt1 : TbBuf1 (F := F) c tbM1_1)
    (h0 : cFirst (wordAt1 c i tbM1_1 xt1)) (h1 : cBelow (wordAt1 c i tbM1_0 xt0) (wordAt1 c i tbM1_1 xt1))
    (h2 : ¬cDiag (wordAt1 c i tbM1_0 xt0) (wordAt1 c i tbM1_1 xt1))
    (q k v : Vec F S1x512x1024 .bf16) (s0 s1 : Vec F S512x1 .f32) (s2 : Vec F S512x1024 .f32)

local notation "RA" => kernelRun1_A c i arg4 harg4 arg5 harg5 arg6 harg6 arg7 harg7 arg8 harg8 arg9 harg9 arg10 harg10 xt0 xt1 h0 h1 h2 q k v s0 s1 s2

/-- Each scratch buffer's pieces tile it: the reset's whole store, then the update's. -/
theorem scover1_A_0 (y : S512x1.Idx) : ∃ pc ∈ RA.1, y ∈ pc.1.set :=
  View.cover_of_tiledL RA.1 S512x1.size (by sl_kernel_rfl) y
theorem scover1_A_1 (y : S512x1.Idx) : ∃ pc ∈ RA.2.1, y ∈ pc.1.set :=
  View.cover_of_tiledL RA.2.1 S512x1.size (by sl_kernel_rfl) y
theorem scover1_A_2 (y : S512x1024.Idx) : ∃ pc ∈ RA.2.2.1, y ∈ pc.1.set :=
  View.cover_of_tiledL RA.2.2.1 S512x1024.size (by sl_kernel_rfl) y

/-- What the pieces leave: the maximum, denominator and numerator of the whole block taken in from the reset triple
    (the update's loads read what the reset stored). -/
theorem canon1_A_0 : View.canon RA.1 = k1_pay11 q k (k1_pay1 (F := F)) := by
  unfold kernelRun1_A; dsimp only; sl_unfold_words
  rw [View.canon_cons_unit_zero hz2]
  simp only [View.readCov_unit_zero (S := S512x1) _ hz2, View.readCov_unit_zero (S := S512x1024) _ hz2, View.readAt_eq_ld, harg4.read_unread, harg5.read_unread, harg6.read_unread, harg8.read_unread, harg9.read_unread, harg10.read_unread,
    View.ld_unit_zero (S := S1x512x1024) hz3, View.ld_unit_zero (S := S512x1) hz2, View.ld_unit_zero (S := S512x1024) hz2]

theorem canon1_A_1 : View.canon RA.2.1 = k1_pay9 q k (k1_pay1 (F := F)) (k1_pay2 (F := F)) := by
  unfold kernelRun1_A; dsimp only; sl_unfold_words
  rw [View.canon_cons_unit_zero hz2]
  simp only [View.readCov_unit_zero (S := S512x1) _ hz2, View.readCov_unit_zero (S := S512x1024) _ hz2, View.readAt_eq_ld, harg4.read_unread, harg5.read_unread, harg6.read_unread, harg8.read_unread, harg9.read_unread, harg10.read_unread,
    View.ld_unit_zero (S := S1x512x1024) hz3, View.ld_unit_zero (S := S512x1) hz2, View.ld_unit_zero (S := S512x1024) hz2]

theorem canon1_A_2 : View.canon RA.2.2.1 = k1_pay10 q k v (k1_pay1 (F := F)) (k1_pay3 (F := F)) := by
  unfold kernelRun1_A; dsimp only; sl_unfold_words
  rw [View.canon_cons_unit_zero hz2]
  simp only [View.readCov_unit_zero (S := S512x1) _ hz2, View.readCov_unit_zero (S := S512x1024) _ hz2, View.readAt_eq_ld, harg4.read_unread, harg5.read_unread, harg6.read_unread, harg8.read_unread, harg9.read_unread, harg10.read_unread,
    View.ld_unit_zero (S := S1x512x1024) hz3, View.ld_unit_zero (S := S512x1) hz2, View.ld_unit_zero (S := S512x1024) hz2]

include h0 h1 h2 in
/-- The body in this case, stated over the triple: from any (s0, s1, s2) to the whole block taken in from the
    reset triple; the input blocks, the output block and the tables are handed back as found. -/
theorem run1_A (xi : Vec F S1x512x1024 .f32) (E : Set ℕ) (K : PUnit → sProp 𝕄) :
    iprop(owns (c : Thread nD τ) arg4 fullShare q ∗ owns (c : Thread nD τ) arg5 fullShare k ∗ owns (c : Thread nD τ) arg6 fullShare v
        ∗ owns (c : Thread nD τ) arg7 fullShare xi
        ∗ owns (c : Thread nD τ) arg8 fullShare s0 ∗ owns (c : Thread nD τ) arg9 fullShare s1 ∗ owns (c : Thread nD τ) arg10 fullShare s2
        ∗ tbPt1 c tbM1_0 xt0 ∗ tbPt1 c tbM1_1 xt1
        ∗ (iprop(owns (c : Thread nD τ) arg4 fullShare q ∗ owns (c : Thread nD τ) arg5 fullShare k ∗ owns (c : Thread nD τ) arg6 fullShare v
            ∗ owns (c : Thread nD τ) arg7 fullShare xi
            ∗ owns (c : Thread nD τ) arg8 fullShare (k1_pay11 q k (k1_pay1 (F := F))) ∗ owns (c : Thread nD τ) arg9 fullShare (k1_pay9 q k (k1_pay1 (F := F)) (k1_pay2 (F := F)))
            ∗ owns (c : Thread nD τ) arg10 fullShare (k1_pay10 q k v (k1_pay1 (F := F)) (k1_pay3 (F := F)))
            ∗ tbPt1 c tbM1_0 xt0 ∗ tbPt1 c tbM1_1 xt1) -∗ K ⟨⟩))
      ⊢ wp frame (wpE (defs₀ (F := F)) Variants.none c none) E (cc1__attn_kernel i tbM1_0 htbM1_0 tbM1_1 htbM1_1 arg4 harg4 arg5 harg5 arg6 harg6 arg7 harg7 arg8 harg8 arg9 harg9 arg10 harg10) K := by
  iintro ⟨H4, H5, H6, H7, H8, H9, H10, HT0, HT1, Hk⟩
  iapply (RA.2.2.2 xi E K)
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HT0]; · iexact HT0
  isplitl [HT1]; · iexact HT1
  iintro ⟨H4, H5, H6, H7, ⟨%e8, H8⟩, ⟨%e9, H9⟩, ⟨%e10, H10⟩, HT0, HT1⟩
  iapply Hk
  isplitl [H4]; · iexact H4
  isplitl [H5]; · iexact H5
  isplitl [H6]; · iexact H6
  isplitl [H7]; · iexact H7
  isplitl [H8]
  · unfold owns; iexists _; isplitr
    swap; · iexact H8
    ipureintro; exact (View.read_writes_eq_canon _ _ _ (scover1_A_0 c i arg4 harg4 arg5 harg5 arg6 harg6 arg7 harg7 arg8 harg8 arg9 harg9 arg10 harg10 xt0 xt1 h0 h1 h2 q k v s0 s1 s2)).trans (canon1_A_0 c i arg4 harg4 arg5 harg5 arg6 harg6 arg7 harg7 arg8 harg8 arg9 harg9 arg10 harg10 xt0 xt1 h0 h1 h2 q k v s0 s1 s2)
  isplitl [H9]
  · unfold owns; iexists _; isplitr
    swap; · iexact H9
    ipureintro; exact (View.read_writes_eq_canon _ _ _ (scover1_A_1 c i arg4 harg4 arg5 harg5 arg6 harg6 arg7 harg7 arg8 harg8 arg9 harg9 arg10 harg10 xt0 xt1 h0 h1 h2 q k v s0 s1 s2)).trans (canon1_A_1 c i arg4 harg4 arg5 harg5 arg6 harg6 arg7 harg7 arg8 harg8 arg9 harg9 arg10 harg10 xt0 xt1 h0 h1 h2 q k v s0 s1 s2)
  isplitl [H10]
  · unfold owns; iexists _; isplitr
    swap; · iexact H10
    ipureintro; exact (View.read_writes_eq_canon _ _ _ (scover1_A_2 c i arg4 harg4 arg5 harg5 arg6 harg6 arg7 harg7 arg8 harg8 arg9 harg9 arg10 harg10 xt0 xt1 h0 h1 h2 q k v s0 s1 s2)).trans (canon1_A_2 c i arg4 harg4 arg5 harg5 arg6 harg6 arg7 harg7 arg8 harg8 arg9 harg9 arg10 harg10 xt0 xt1 h0 h1 h2 q k v s0 s1 s2)
  isplitl [HT0]; · iexact HT0
  iexact HT1

end Pieces

end Cert.KernelIdeal.Hand

end
-- ==== Proof.R1RunB.lean ====
/-
  The attention body at a point whose key block is not the first of its query block and lies strictly below
  the diagonal: the triple takes the whole block in; the output block is left alone.
-/
import proofs.«431190_j5033701670934_3_alg».proof.Proof.R1Runs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The pieces the body leaves in the three scratch buffers in this case, with the proof that the body runs from
    the input blocks, the output block, the triple and the tables to the same with those pieces written. -/
noncomputable def kernelRun1_B (c : Dev nD) (i : grid1.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole)
    (xt0 : TbBuf1 (F := F) c tbM1_0) (xt1 : TbBuf1 (F := F) c tbM1_1)
    (h0 : ¬cFirst (wordAt1 c i tbM1_1 xt1)) (h1 : cBelow (wordAt1 c i tbM1_0 xt0) (wordAt1 c i tbM1_1 xt1))
    (h2 : ¬cDiag (wordAt1 c i tbM1_0 xt0) (wordAt1 c i tbM1_1 xt1))
    (q k v : Vec F S1x512x1024 .bf16) (s0 s1 : Vec F S512x1 .f32) (s2 : Vec F S512x1024 .f32) :
    Σ' (LS0 : List (View.Piece (Elt F) S512x1 .f32)) (LS1 : List (View.Piece (Elt F) S512x1 .f32)), { LS2 : List (View.Piece (Elt F) S512x1024 .f32) //
      ∀ (xi : Vec F S1x512x1024 .f32) (E : Set ℕ) (K : PUnit → sProp 𝕄),
        iprop(owns (c : Thread nD τ) arg4 fullShare q ∗ owns (c : Thread nD τ) arg5 fullShare k ∗ owns (c : Thread nD τ) arg6 fullShare v
            ∗ owns (c : Thread nD τ) arg7 fullShare xi
            ∗ owns (c : Thread nD τ) arg8 fullShare s0 ∗ owns (c : Thread nD τ) arg9 fullShare s1 ∗ owns (c : Thread nD τ) arg10 fullShare s2
            ∗ tbPt1 c tbM1_0 xt0 ∗ tbPt1 c tbM1_1 xt1
            ∗ (iprop(owns (c : Thread nD τ) arg4 fullShare q ∗ owns (c : Thread nD τ) arg5 fullShare k ∗ owns (c : Thread nD τ) arg6 fullShare v
                ∗ owns (c : Thread nD τ) arg7 fullShare xi
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)
                ∗ tbPt1 c tbM1_0 xt0 ∗ tbPt1 c tbM1_1 xt1) -∗ K ⟨⟩))
          ⊢ wp frame (wpE (defs₀ (F := F)) Variants.none c none) E
              (cc1__attn_kernel i tbM1_0 htbM1_0 tbM1_1 htbM1_1 arg4 harg4 arg5 harg5 arg6 harg6 arg7 harg7 arg8 harg8 arg9 harg9 arg10 harg10) K } := by
  refine ⟨?_, ?_, ?_, fun xi E K => ?run⟩
  case run =>
    simp only [cc1__attn_kernel_eq_skeleton]; unfold cc1__attn_kernel_skel
    unfold owns
    iintro ⟨⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, HT0, HT1, Hk⟩
    obtain rfl := harg4.eq_unread hf4; obtain rfl := harg5.eq_unread hf5; obtain rfl := harg6.eq_unread hf6
    obtain rfl := harg7.eq_unread hf7
    obtain rfl := harg8.eq_unread hf8; obtain rfl := harg9.eq_unread hf9; obtain rfl := harg10.eq_unread hf10
    sl_exec (disch := first | exact h0 | exact h1 | exact h2)
    sl_step
    iapply Hk
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    isplitl [H9]; · iexists _; iexact H9
    isplitl [H10]; · iexists _; iexact H10
    isplitl [HT0]; · iexact HT0
    iexact HT1

private theorem hz2 : (![0, 0] : Fin 2 → Nat) = fun _ => 0 := funext fun a => by fin_cases a <;> rfl
private theorem hz3 : (![0, 0, 0] : Fin 3 → Nat) = fun _ => 0 := funext fun a => by fin_cases a <;> rfl

section Pieces

variable (c : Dev nD) (i : grid1.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole)
    (xt0 : TbBuf1 (F := F) c tbM1_0) (xt1 : TbBuf1 (F := F) c tbM1_1)
    (h0 : ¬cFirst (wordAt1 c i tbM1_1 xt1)) (h1 : cBelow (wordAt1 c i tbM1_0 xt0) (wordAt1 c i tbM1_1 xt1))
    (h2 : ¬cDiag (wordAt1 c i tbM1_0 xt0) (wordAt1 c i tbM1_1 xt1))
    (q k v : Vec F S1x512x1024 .bf16) (s0 s1 : Vec F S512x1 .f32) (s2 : Vec F S512x1024 .f32)

local notation "RB" => kernelRun1_B c i arg4 harg4 arg5 harg5 arg6 harg6 arg7 harg7 arg8 harg8 arg9 harg9 arg10 harg10 xt0 xt1 h0 h1 h2 q k v s0 s1 s2

/-- Each scratch buffer's pieces tile it: one whole store each. -/
theorem scover1_B_0 (y : S512x1.Idx) : ∃ pc ∈ RB.1, y ∈ pc.1.set :=
  View.cover_of_tiledL RB.1 S512x1.size (by sl_kernel_rfl) y
theorem scover1_B_1 (y : S512x1.Idx) : ∃ pc ∈ RB.2.1, y ∈ pc.1.set :=
  View.cover_of_tiledL RB.2.1 S512x1.size (by sl_kernel_rfl) y
theorem scover1_B_2 (y : S512x1024.Idx) : ∃ pc ∈ RB.2.2.1, y ∈ pc.1.set :=
  View.cover_of_tiledL RB.2.2.1 S512x1024.size (by sl_kernel_rfl) y

/-- What the pieces leave: the new maximum, denominator and numerator of the whole block taken in. -/
theorem canon1_B_0 : View.canon RB.1 = k1_pay11 q k s0 := by
  unfold kernelRun1_B; dsimp only; sl_unfold_words
  rw [View.canon_unit_zero hz2]
  simp only [View.readAt_eq_ld, harg4.read_unread, harg5.read_unread, harg6.read_unread, harg8.read_unread, harg9.read_unread, harg10.read_unread,
    View.ld_unit_zero (S := S1x512x1024) hz3, View.ld_unit_zero (S := S512x1) hz2, View.ld_unit_zero (S := S512x1024) hz2]

theorem canon1_B_1 : View.canon RB.2.1 = k1_pay9 q k s0 s1 := by
  unfold kernelRun1_B; dsimp only; sl_unfold_words
  rw [View.canon_unit_zero hz2]
  simp only [View.readAt_eq_ld, harg4.read_unread, harg5.read_unread, harg6.read_unread, harg8.read_unread, harg9.read_unread, harg10.read_unread,
    View.ld_unit_zero (S := S1x512x1024) hz3, View.ld_unit_zero (S := S512x1) hz2, View.ld_unit_zero (S := S512x1024) hz2]

theorem canon1_B_2 : View.canon RB.2.2.1 = k1_pay10 q k v s0 s2 := by
  unfold kernelRun1_B; dsimp only; sl_unfold_words
  rw [View.canon_unit_zero hz2]
  simp only [View.readAt_eq_ld, harg4.read_unread, harg5.read_unread, harg6.read_unread, harg8.read_unread, harg9.read_unread, harg10.read_unread,
    View.ld_unit_zero (S := S1x512x1024) hz3, View.ld_unit_zero (S := S512x1) hz2, View.ld_unit_zero (S := S512x1024) hz2]

include h0 h1 h2 in
/-- The body in this case, stated over the triple: from (s0, s1, s2) to the whole block taken in; the input
    blocks, the output block and the tables are handed back as found. -/
theorem run1_B (xi : Vec F S1x512x1024 .f32) (E : Set ℕ) (K : PUnit → sProp 𝕄) :
    iprop(owns (c : Thread nD τ) arg4 fullShare q ∗ owns (c : Thread nD τ) arg5 fullShare k ∗ owns (c : Thread nD τ) arg6 fullShare v
        ∗ owns (c : Thread nD τ) arg7 fullShare xi
        ∗ owns (c : Thread nD τ) arg8 fullShare s0 ∗ owns (c : Thread nD τ) arg9 fullShare s1 ∗ owns (c : Thread nD τ) arg10 fullShare s2
        ∗ tbPt1 c tbM1_0 xt0 ∗ tbPt1 c tbM1_1 xt1
        ∗ (iprop(owns (c : Thread nD τ) arg4 fullShare q ∗ owns (c : Thread nD τ) arg5 fullShare k ∗ owns (c : Thread nD τ) arg6 fullShare v
            ∗ owns (c : Thread nD τ) arg7 fullShare xi
            ∗ owns (c : Thread nD τ) arg8 fullShare (k1_pay11 q k s0) ∗ owns (c : Thread nD τ) arg9 fullShare (k1_pay9 q k s0 s1)
            ∗ owns (c : Thread nD τ) arg10 fullShare (k1_pay10 q k v s0 s2)
            ∗ tbPt1 c tbM1_0 xt0 ∗ tbPt1 c tbM1_1 xt1) -∗ K ⟨⟩))
      ⊢ wp frame (wpE (defs₀ (F := F)) Variants.none c none) E (cc1__attn_kernel i tbM1_0 htbM1_0 tbM1_1 htbM1_1 arg4 harg4 arg5 harg5 arg6 harg6 arg7 harg7 arg8 harg8 arg9 harg9 arg10 harg10) K := by
  iintro ⟨H4, H5, H6, H7, H8, H9, H10, HT0, HT1, Hk⟩
  iapply (RB.2.2.2 xi E K)
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HT0]; · iexact HT0
  isplitl [HT1]; · iexact HT1
  iintro ⟨H4, H5, H6, H7, ⟨%e8, H8⟩, ⟨%e9, H9⟩, ⟨%e10, H10⟩, HT0, HT1⟩
  iapply Hk
  isplitl [H4]; · iexact H4
  isplitl [H5]; · iexact H5
  isplitl [H6]; · iexact H6
  isplitl [H7]; · iexact H7
  isplitl [H8]
  · unfold owns; iexists _; isplitr
    swap; · iexact H8
    ipureintro; exact (View.read_writes_eq_canon _ _ _ (scover1_B_0 c i arg4 harg4 arg5 harg5 arg6 harg6 arg7 harg7 arg8 harg8 arg9 harg9 arg10 harg10 xt0 xt1 h0 h1 h2 q k v s0 s1 s2)).trans (canon1_B_0 c i arg4 harg4 arg5 harg5 arg6 harg6 arg7 harg7 arg8 harg8 arg9 harg9 arg10 harg10 xt0 xt1 h0 h1 h2 q k v s0 s1 s2)
  isplitl [H9]
  · unfold owns; iexists _; isplitr
    swap; · iexact H9
    ipureintro; exact (View.read_writes_eq_canon _ _ _ (scover1_B_1 c i arg4 harg4 arg5 harg5 arg6 harg6 arg7 harg7 arg8 harg8 arg9 harg9 arg10 harg10 xt0 xt1 h0 h1 h2 q k v s0 s1 s2)).trans (canon1_B_1 c i arg4 harg4 arg5 harg5 arg6 harg6 arg7 harg7 arg8 harg8 arg9 harg9 arg10 harg10 xt0 xt1 h0 h1 h2 q k v s0 s1 s2)
  isplitl [H10]
  · unfold owns; iexists _; isplitr
    swap; · iexact H10
    ipureintro; exact (View.read_writes_eq_canon _ _ _ (scover1_B_2 c i arg4 harg4 arg5 harg5 arg6 harg6 arg7 harg7 arg8 harg8 arg9 harg9 arg10 harg10 xt0 xt1 h0 h1 h2 q k v s0 s1 s2)).trans (canon1_B_2 c i arg4 harg4 arg5 harg5 arg6 harg6 arg7 harg7 arg8 harg8 arg9 harg9 arg10 harg10 xt0 xt1 h0 h1 h2 q k v s0 s1 s2)
  isplitl [HT0]; · iexact HT0
  iexact HT1

end Pieces

end Cert.KernelIdeal.Hand

end
-- ==== Proof.R1RunC.lean ====
/-
  The attention body at a point whose key block is the first of its query block and the diagonal one (the query
  block has this one key block): the triple is reset, takes the block in under the causal mask, and the output
  block is the numerator scaled by the guarded reciprocal of the denominator.
-/
import proofs.«431190_j5033701670934_3_alg».proof.Proof.R1Runs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The pieces the body leaves in the output block and the three scratch buffers in this case, with the proof that
    the body runs from the input blocks, the output block at anything, the triple and the tables to the same with
    those pieces written. -/
noncomputable def kernelRun1_C (c : Dev nD) (i : grid1.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole)
    (xt0 : TbBuf1 (F := F) c tbM1_0) (xt1 : TbBuf1 (F := F) c tbM1_1)
    (h0 : cFirst (wordAt1 c i tbM1_1 xt1)) (h1 : ¬cBelow (wordAt1 c i tbM1_0 xt0) (wordAt1 c i tbM1_1 xt1))
    (h2 : cDiag (wordAt1 c i tbM1_0 xt0) (wordAt1 c i tbM1_1 xt1))
    (q k v : Vec F S1x512x1024 .bf16) (s0 s1 : Vec F S512x1 .f32) (s2 : Vec F S512x1024 .f32) :
    Σ' (L7 : List (View.Piece (Elt F) S1x512x1024 .f32)) (LS0 : List (View.Piece (Elt F) S512x1 .f32)) (LS1 : List (View.Piece (Elt F) S512x1 .f32)), { LS2 : List (View.Piece (Elt F) S512x1024 .f32) //
      ∀ (E : Set ℕ) (K : PUnit → sProp 𝕄),
        iprop(owns (c : Thread nD τ) arg4 fullShare q ∗ owns (c : Thread nD τ) arg5 fullShare k ∗ owns (c : Thread nD τ) arg6 fullShare v
            ∗ (∃ d, owns (c : Thread nD τ) arg7 fullShare d)
            ∗ owns (c : Thread nD τ) arg8 fullShare s0 ∗ owns (c : Thread nD τ) arg9 fullShare s1 ∗ owns (c : Thread nD τ) arg10 fullShare s2
            ∗ tbPt1 c tbM1_0 xt0 ∗ tbPt1 c tbM1_1 xt1
            ∗ (iprop(owns (c : Thread nD τ) arg4 fullShare q ∗ owns (c : Thread nD τ) arg5 fullShare k ∗ owns (c : Thread nD τ) arg6 fullShare v
                ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)
                ∗ tbPt1 c tbM1_0 xt0 ∗ tbPt1 c tbM1_1 xt1) -∗ K ⟨⟩))
          ⊢ wp frame (wpE (defs₀ (F := F)) Variants.none c none) E
              (cc1__attn_kernel i tbM1_0 htbM1_0 tbM1_1 htbM1_1 arg4 harg4 arg5 harg5 arg6 harg6 arg7 harg7 arg8 harg8 arg9 harg9 arg10 harg10) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, HT0, HT1, Hk⟩
    obtain rfl := harg4.eq_unread hf4; obtain rfl := harg5.eq_unread hf5; obtain rfl := harg6.eq_unread hf6
    obtain rfl := harg8.eq_unread hf8; obtain rfl := harg9.eq_unread hf9; obtain rfl := harg10.eq_unread hf10
    sl_exec (disch := first | exact h0 | exact h1 | exact h2)
    sl_step
    iapply Hk
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    isplitl [H9]; · iexists _; iexact H9
    isplitl [H10]; · iexists _; iexact H10
    isplitl [HT0]; · iexact HT0
    iexact HT1

private theorem hz2 : (![0, 0] : Fin 2 → Nat) = fun _ => 0 := funext fun a => by fin_cases a <;> rfl
private theorem hz3 : (![0, 0, 0] : Fin 3 → Nat) = fun _ => 0 := funext fun a => by fin_cases a <;> rfl

section Pieces

variable (c : Dev nD) (i : grid1.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole)
    (xt0 : TbBuf1 (F := F) c tbM1_0) (xt1 : TbBuf1 (F := F) c tbM1_1)
    (h0 : cFirst (wordAt1 c i tbM1_1 xt1)) (h1 : ¬cBelow (wordAt1 c i tbM1_0 xt0) (wordAt1 c i tbM1_1 xt1))
    (h2 : cDiag (wordAt1 c i tbM1_0 xt0) (wordAt1 c i tbM1_1 xt1))
    (q k v : Vec F S1x512x1024 .bf16) (s0 s1 : Vec F S512x1 .f32) (s2 : Vec F S512x1024 .f32)

local notation "RC" => kernelRun1_C c i arg4 harg4 arg5 harg5 arg6 harg6 arg7 harg7 arg8 harg8 arg9 harg9 arg10 harg10 xt0 xt1 h0 h1 h2 q k v s0 s1 s2

/-- The output block's pieces (one whole store) and each scratch buffer's (the reset's whole store, then the update's) tile it. -/
theorem cover1_C_3 (y : S1x512x1024.Idx) : ∃ pc ∈ RC.1, y ∈ pc.1.set :=
  View.cover_of_tiledL RC.1 S1x512x1024.size (by sl_kernel_rfl) y
theorem scover1_C_0 (y : S512x1.Idx) : ∃ pc ∈ RC.2.1, y ∈ pc.1.set :=
  View.cover_of_tiledL RC.2.1 S512x1.size (by sl_kernel_rfl) y
theorem scover1_C_1 (y : S512x1.Idx) : ∃ pc ∈ RC.2.2.1, y ∈ pc.1.set :=
  View.cover_of_tiledL RC.2.2.1 S512x1.size (by sl_kernel_rfl) y
theorem scover1_C_2 (y : S512x1024.Idx) : ∃ pc ∈ RC.2.2.2.1, y ∈ pc.1.set :=
  View.cover_of_tiledL RC.2.2.2.1 S512x1024.size (by sl_kernel_rfl) y

/-- What the pieces leave: the maximum, denominator and numerator of the diagonal block taken in under the mask from
    the reset triple (the update's loads read what the reset stored); -/
theorem canon1_C_0 : View.canon RC.2.1 = k1_pay19 (k1_pay5 q k) (k1_pay1 (F := F)) := by
  unfold kernelRun1_C; dsimp only; sl_unfold_words
  rw [View.canon_cons_unit_zero hz2]
  simp only [View.readCov_cons_toLoadRect, View.readCov_unit_zero (S := S512x1) _ hz2, View.readCov_unit_zero (S := S512x1024) _ hz2, View.readAt_eq_ld, harg4.read_unread, harg5.read_unread, harg6.read_unread, harg8.read_unread, harg9.read_unread, harg10.read_unread,
    View.ld_unit_zero (S := S1x512x1024) hz3, View.ld_unit_zero (S := S512x1) hz2, View.ld_unit_zero (S := S512x1024) hz2]

theorem canon1_C_1 : View.canon RC.2.2.1 = k1_pay17 (k1_pay5 q k) (k1_pay1 (F := F)) (k1_pay2 (F := F)) := by
  unfold kernelRun1_C; dsimp only; sl_unfold_words
  rw [View.canon_cons_unit_zero hz2]
  simp only [View.readCov_cons_toLoadRect, View.readCov_unit_zero (S := S512x1) _ hz2, View.readCov_unit_zero (S := S512x1024) _ hz2, View.readAt_eq_ld, harg4.read_unread, harg5.read_unread, harg6.read_unread, harg8.read_unread, harg9.read_unread, harg10.read_unread,
    View.ld_unit_zero (S := S1x512x1024) hz3, View.ld_unit_zero (S := S512x1) hz2, View.ld_unit_zero (S := S512x1024) hz2]

theorem canon1_C_2 : View.canon RC.2.2.2.1 = k1_pay18 (k1_pay4 v) (k1_pay5 q k) (k1_pay1 (F := F)) (k1_pay3 (F := F)) := by
  unfold kernelRun1_C; dsimp only; sl_unfold_words
  rw [View.canon_cons_unit_zero hz2]
  simp only [View.readCov_cons_toLoadRect, View.readCov_unit_zero (S := S512x1) _ hz2, View.readCov_unit_zero (S := S512x1024) _ hz2, View.readAt_eq_ld, harg4.read_unread, harg5.read_unread, harg6.read_unread, harg8.read_unread, harg9.read_unread, harg10.read_unread,
    View.ld_unit_zero (S := S1x512x1024) hz3, View.ld_unit_zero (S := S512x1) hz2, View.ld_unit_zero (S := S512x1024) hz2]

/-- and the output block: the new numerator times the guarded reciprocal of the new denominator (the loads after
    the updates read what the updates stored). -/
theorem canon1_C_3 : View.canon RC.1
      = k1_pay12 (k1_pay20 (k1_pay17 (k1_pay5 q k) (k1_pay1 (F := F)) (k1_pay2 (F := F)))) (k1_pay17 (k1_pay5 q k) (k1_pay1 (F := F)) (k1_pay2 (F := F))) (k1_pay18 (k1_pay4 v) (k1_pay5 q k) (k1_pay1 (F := F)) (k1_pay3 (F := F))) := by
  unfold kernelRun1_C; dsimp only; sl_unfold_words
  rw [View.canon_unit_zero hz3]
  simp only [View.readCov_cons_toLoadRect, View.readCov_unit_zero (S := S512x1) _ hz2, View.readCov_unit_zero (S := S512x1024) _ hz2, View.readAt_eq_ld, harg4.read_unread, harg5.read_unread, harg6.read_unread, harg8.read_unread, harg9.read_unread, harg10.read_unread,
    View.ld_unit_zero (S := S1x512x1024) hz3, View.ld_unit_zero (S := S512x1) hz2, View.ld_unit_zero (S := S512x1024) hz2]

include h0 h1 h2 in
/-- The body in this case, stated over the triple: from any (s0, s1, s2) to the diagonal block taken in under the mask from the reset triple,
    the output block written from the new triple; the input blocks and the tables are handed back as found. -/
theorem run1_C (E : Set ℕ) (K : PUnit → sProp 𝕄) :
    iprop(owns (c : Thread nD τ) arg4 fullShare q ∗ owns (c : Thread nD τ) arg5 fullShare k ∗ owns (c : Thread nD τ) arg6 fullShare v
        ∗ (∃ d, owns (c : Thread nD τ) arg7 fullShare d)
        ∗ owns (c : Thread nD τ) arg8 fullShare s0 ∗ owns (c : Thread nD τ) arg9 fullShare s1 ∗ owns (c : Thread nD τ) arg10 fullShare s2
        ∗ tbPt1 c tbM1_0 xt0 ∗ tbPt1 c tbM1_1 xt1
        ∗ (iprop(owns (c : Thread nD τ) arg4 fullShare q ∗ owns (c : Thread nD τ) arg5 fullShare k ∗ owns (c : Thread nD τ) arg6 fullShare v
            ∗ owns (c : Thread nD τ) arg7 fullShare (k1_pay12 (k1_pay20 (k1_pay17 (k1_pay5 q k) (k1_pay1 (F := F)) (k1_pay2 (F := F)))) (k1_pay17 (k1_pay5 q k) (k1_pay1 (F := F)) (k1_pay2 (F := F))) (k1_pay18 (k1_pay4 v) (k1_pay5 q k) (k1_pay1 (F := F)) (k1_pay3 (F := F))))
            ∗ owns (c : Thread nD τ) arg8 fullShare (k1_pay19 (k1_pay5 q k) (k1_pay1 (F := F))) ∗ owns (c : Thread nD τ) arg9 fullShare (k1_pay17 (k1_pay5 q k) (k1_pay1 (F := F)) (k1_pay2 (F := F)))
            ∗ owns (c : Thread nD τ) arg10 fullShare (k1_pay18 (k1_pay4 v) (k1_pay5 q k) (k1_pay1 (F := F)) (k1_pay3 (F := F)))
            ∗ tbPt1 c tbM1_0 xt0 ∗ tbPt1 c tbM1_1 xt1) -∗ K ⟨⟩))
      ⊢ wp frame (wpE (defs₀ (F := F)) Variants.none c none) E (cc1__attn_kernel i tbM1_0 htbM1_0 tbM1_1 htbM1_1 arg4 harg4 arg5 harg5 arg6 harg6 arg7 harg7 arg8 harg8 arg9 harg9 arg10 harg10) K := by
  iintro ⟨H4, H5, H6, H7, H8, H9, H10, HT0, HT1, Hk⟩
  iapply (RC.2.2.2.2 E K)
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HT0]; · iexact HT0
  isplitl [HT1]; · iexact HT1
  iintro ⟨H4, H5, H6, ⟨%e7, H7⟩, ⟨%e8, H8⟩, ⟨%e9, H9⟩, ⟨%e10, H10⟩, HT0, HT1⟩
  iapply Hk
  isplitl [H4]; · iexact H4
  isplitl [H5]; · iexact H5
  isplitl [H6]; · iexact H6
  isplitl [H7]
  · unfold owns; iexists _; isplitr
    swap; · iexact H7
    ipureintro; exact (View.read_writes_eq_canon _ _ _ (cover1_C_3 c i arg4 harg4 arg5 harg5 arg6 harg6 arg7 harg7 arg8 harg8 arg9 harg9 arg10 harg10 xt0 xt1 h0 h1 h2 q k v s0 s1 s2)).trans (canon1_C_3 c i arg4 harg4 arg5 harg5 arg6 harg6 arg7 harg7 arg8 harg8 arg9 harg9 arg10 harg10 xt0 xt1 h0 h1 h2 q k v s0 s1 s2)
  isplitl [H8]
  · unfold owns; iexists _; isplitr
    swap; · iexact H8
    ipureintro; exact (View.read_writes_eq_canon _ _ _ (scover1_C_0 c i arg4 harg4 arg5 harg5 arg6 harg6 arg7 harg7 arg8 harg8 arg9 harg9 arg10 harg10 xt0 xt1 h0 h1 h2 q k v s0 s1 s2)).trans (canon1_C_0 c i arg4 harg4 arg5 harg5 arg6 harg6 arg7 harg7 arg8 harg8 arg9 harg9 arg10 harg10 xt0 xt1 h0 h1 h2 q k v s0 s1 s2)
  isplitl [H9]
  · unfold owns; iexists _; isplitr
    swap; · iexact H9
    ipureintro; exact (View.read_writes_eq_canon _ _ _ (scover1_C_1 c i arg4 harg4 arg5 harg5 arg6 harg6 arg7 harg7 arg8 harg8 arg9 harg9 arg10 harg10 xt0 xt1 h0 h1 h2 q k v s0 s1 s2)).trans (canon1_C_1 c i arg4 harg4 arg5 harg5 arg6 harg6 arg7 harg7 arg8 harg8 arg9 harg9 arg10 harg10 xt0 xt1 h0 h1 h2 q k v s0 s1 s2)
  isplitl [H10]
  · unfold owns; iexists _; isplitr
    swap; · iexact H10
    ipureintro; exact (View.read_writes_eq_canon _ _ _ (scover1_C_2 c i arg4 harg4 arg5 harg5 arg6 harg6 arg7 harg7 arg8 harg8 arg9 harg9 arg10 harg10 xt0 xt1 h0 h1 h2 q k v s0 s1 s2)).trans (canon1_C_2 c i arg4 harg4 arg5 harg5 arg6 harg6 arg7 harg7 arg8 harg8 arg9 harg9 arg10 harg10 xt0 xt1 h0 h1 h2 q k v s0 s1 s2)
  isplitl [HT0]; · iexact HT0
  iexact HT1

end Pieces

end Cert.KernelIdeal.Hand

end
-- ==== Proof.R1RunD.lean ====
/-
  The attention body at a point whose key block is not the first of its query block and is the diagonal one:
  the triple takes the block in under the causal mask, and the output block is the numerator scaled by the
  guarded reciprocal of the denominator.
-/
import proofs.«431190_j5033701670934_3_alg».proof.Proof.R1Runs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The pieces the body leaves in the output block and the three scratch buffers in this case, with the proof that
    the body runs from the input blocks, the output block at anything, the triple and the tables to the same with
    those pieces written. -/
noncomputable def kernelRun1_D (c : Dev nD) (i : grid1.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole)
    (xt0 : TbBuf1 (F := F) c tbM1_0) (xt1 : TbBuf1 (F := F) c tbM1_1)
    (h0 : ¬cFirst (wordAt1 c i tbM1_1 xt1)) (h1 : ¬cBelow (wordAt1 c i tbM1_0 xt0) (wordAt1 c i tbM1_1 xt1))
    (h2 : cDiag (wordAt1 c i tbM1_0 xt0) (wordAt1 c i tbM1_1 xt1))
    (q k v : Vec F S1x512x1024 .bf16) (s0 s1 : Vec F S512x1 .f32) (s2 : Vec F S512x1024 .f32) :
    Σ' (L7 : List (View.Piece (Elt F) S1x512x1024 .f32)) (LS0 : List (View.Piece (Elt F) S512x1 .f32)) (LS1 : List (View.Piece (Elt F) S512x1 .f32)), { LS2 : List (View.Piece (Elt F) S512x1024 .f32) //
      ∀ (E : Set ℕ) (K : PUnit → sProp 𝕄),
        iprop(owns (c : Thread nD τ) arg4 fullShare q ∗ owns (c : Thread nD τ) arg5 fullShare k ∗ owns (c : Thread nD τ) arg6 fullShare v
            ∗ (∃ d, owns (c : Thread nD τ) arg7 fullShare d)
            ∗ owns (c : Thread nD τ) arg8 fullShare s0 ∗ owns (c : Thread nD τ) arg9 fullShare s1 ∗ owns (c : Thread nD τ) arg10 fullShare s2
            ∗ tbPt1 c tbM1_0 xt0 ∗ tbPt1 c tbM1_1 xt1
            ∗ (iprop(owns (c : Thread nD τ) arg4 fullShare q ∗ owns (c : Thread nD τ) arg5 fullShare k ∗ owns (c : Thread nD τ) arg6 fullShare v
                ∗ (∃ f, arg7.view.loc (c : Thread nD τ) ↦[arg7.view.set]{fullShare} arg7.view.writes (Elt F) f L7)
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)
                ∗ tbPt1 c tbM1_0 xt0 ∗ tbPt1 c tbM1_1 xt1) -∗ K ⟨⟩))
          ⊢ wp frame (wpE (defs₀ (F := F)) Variants.none c none) E
              (cc1__attn_kernel i tbM1_0 htbM1_0 tbM1_1 htbM1_1 arg4 harg4 arg5 harg5 arg6 harg6 arg7 harg7 arg8 harg8 arg9 harg9 arg10 harg10) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f4, %hf4, H4⟩, ⟨%f5, %hf5, H5⟩, ⟨%f6, %hf6, H6⟩, ⟨%d7, %f7, -, H7⟩, ⟨%f8, %hf8, H8⟩, ⟨%f9, %hf9, H9⟩, ⟨%f10, %hf10, H10⟩, HT0, HT1, Hk⟩
    obtain rfl := harg4.eq_unread hf4; obtain rfl := harg5.eq_unread hf5; obtain rfl := harg6.eq_unread hf6
    obtain rfl := harg8.eq_unread hf8; obtain rfl := harg9.eq_unread hf9; obtain rfl := harg10.eq_unread hf10
    sl_exec (disch := first | exact h0 | exact h1 | exact h2)
    sl_step
    iapply Hk
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    isplitl [H9]; · iexists _; iexact H9
    isplitl [H10]; · iexists _; iexact H10
    isplitl [HT0]; · iexact HT0
    iexact HT1

private theorem hz2 : (![0, 0] : Fin 2 → Nat) = fun _ => 0 := funext fun a => by fin_cases a <;> rfl
private theorem hz3 : (![0, 0, 0] : Fin 3 → Nat) = fun _ => 0 := funext fun a => by fin_cases a <;> rfl

section Pieces

variable (c : Dev nD) (i : grid1.Coords) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x1024 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1024 .f32) (harg10 : arg10.IsWhole)
    (xt0 : TbBuf1 (F := F) c tbM1_0) (xt1 : TbBuf1 (F := F) c tbM1_1)
    (h0 : ¬cFirst (wordAt1 c i tbM1_1 xt1)) (h1 : ¬cBelow (wordAt1 c i tbM1_0 xt0) (wordAt1 c i tbM1_1 xt1))
    (h2 : cDiag (wordAt1 c i tbM1_0 xt0) (wordAt1 c i tbM1_1 xt1))
    (q k v : Vec F S1x512x1024 .bf16) (s0 s1 : Vec F S512x1 .f32) (s2 : Vec F S512x1024 .f32)

local notation "RD" => kernelRun1_D c i arg4 harg4 arg5 harg5 arg6 harg6 arg7 harg7 arg8 harg8 arg9 harg9 arg10 harg10 xt0 xt1 h0 h1 h2 q k v s0 s1 s2

/-- The output block's and each scratch buffer's pieces tile it: one whole store each. -/
theorem cover1_D_3 (y : S1x512x1024.Idx) : ∃ pc ∈ RD.1, y ∈ pc.1.set :=
  View.cover_of_tiledL RD.1 S1x512x1024.size (by sl_kernel_rfl) y
theorem scover1_D_0 (y : S512x1.Idx) : ∃ pc ∈ RD.2.1, y ∈ pc.1.set :=
  View.cover_of_tiledL RD.2.1 S512x1.size (by sl_kernel_rfl) y
theorem scover1_D_1 (y : S512x1.Idx) : ∃ pc ∈ RD.2.2.1, y ∈ pc.1.set :=
  View.cover_of_tiledL RD.2.2.1 S512x1.size (by sl_kernel_rfl) y
theorem scover1_D_2 (y : S512x1024.Idx) : ∃ pc ∈ RD.2.2.2.1, y ∈ pc.1.set :=
  View.cover_of_tiledL RD.2.2.2.1 S512x1024.size (by sl_kernel_rfl) y

/-- What the pieces leave: the maximum, denominator and numerator of the diagonal block taken in under the mask; -/
theorem canon1_D_0 : View.canon RD.2.1 = k1_pay19 (k1_pay5 q k) s0 := by
  unfold kernelRun1_D; dsimp only; sl_unfold_words
  rw [View.canon_unit_zero hz2]
  simp only [View.readCov_unit_zero (S := S512x1) _ hz2, View.readCov_unit_zero (S := S512x1024) _ hz2, View.readAt_eq_ld, harg4.read_unread, harg5.read_unread, harg6.read_unread, harg8.read_unread, harg9.read_unread, harg10.read_unread,
    View.ld_unit_zero (S := S1x512x1024) hz3, View.ld_unit_zero (S := S512x1) hz2, View.ld_unit_zero (S := S512x1024) hz2]

theorem canon1_D_1 : View.canon RD.2.2.1 = k1_pay17 (k1_pay5 q k) s0 s1 := by
  unfold kernelRun1_D; dsimp only; sl_unfold_words
  rw [View.canon_unit_zero hz2]
  simp only [View.readCov_unit_zero (S := S512x1) _ hz2, View.readCov_unit_zero (S := S512x1024) _ hz2, View.readAt_eq_ld, harg4.read_unread, harg5.read_unread, harg6.read_unread, harg8.read_unread, harg9.read_unread, harg10.read_unread,
    View.ld_unit_zero (S := S1x512x1024) hz3, View.ld_unit_zero (S := S512x1) hz2, View.ld_unit_zero (S := S512x1024) hz2]

theorem canon1_D_2 : View.canon RD.2.2.2.1 = k1_pay18 (k1_pay4 v) (k1_pay5 q k) s0 s2 := by
  unfold kernelRun1_D; dsimp only; sl_unfold_words
  rw [View.canon_unit_zero hz2]
  simp only [View.readCov_unit_zero (S := S512x1) _ hz2, View.readCov_unit_zero (S := S512x1024) _ hz2, View.readAt_eq_ld, harg4.read_unread, harg5.read_unread, harg6.read_unread, harg8.read_unread, harg9.read_unread, harg10.read_unread,
    View.ld_unit_zero (S := S1x512x1024) hz3, View.ld_unit_zero (S := S512x1) hz2, View.ld_unit_zero (S := S512x1024) hz2]

/-- and the output block: the new numerator times the guarded reciprocal of the new denominator (the loads after
    the updates read what the updates stored). -/
theorem canon1_D_3 : View.canon RD.1
      = k1_pay12 (k1_pay20 (k1_pay17 (k1_pay5 q k) s0 s1)) (k1_pay17 (k1_pay5 q k) s0 s1) (k1_pay18 (k1_pay4 v) (k1_pay5 q k) s0 s2) := by
  unfold kernelRun1_D; dsimp only; sl_unfold_words
  rw [View.canon_unit_zero hz3]
  simp only [View.readCov_unit_zero (S := S512x1) _ hz2, View.readCov_unit_zero (S := S512x1024) _ hz2, View.readAt_eq_ld, harg4.read_unread, harg5.read_unread, harg6.read_unread, harg8.read_unread, harg9.read_unread, harg10.read_unread,
    View.ld_unit_zero (S := S1x512x1024) hz3, View.ld_unit_zero (S := S512x1) hz2, View.ld_unit_zero (S := S512x1024) hz2]

include h0 h1 h2 in
/-- The body in this case, stated over the triple: from (s0, s1, s2) to the diagonal block taken in under the mask,
    the output block written from the new triple; the input blocks and the tables are handed back as found. -/
theorem run1_D (E : Set ℕ) (K : PUnit → sProp 𝕄) :
    iprop(owns (c : Thread nD τ) arg4 fullShare q ∗ owns (c : Thread nD τ) arg5 fullShare k ∗ owns (c : Thread nD τ) arg6 fullShare v
        ∗ (∃ d, owns (c : Thread nD τ) arg7 fullShare d)
        ∗ owns (c : Thread nD τ) arg8 fullShare s0 ∗ owns (c : Thread nD τ) arg9 fullShare s1 ∗ owns (c : Thread nD τ) arg10 fullShare s2
        ∗ tbPt1 c tbM1_0 xt0 ∗ tbPt1 c tbM1_1 xt1
        ∗ (iprop(owns (c : Thread nD τ) arg4 fullShare q ∗ owns (c : Thread nD τ) arg5 fullShare k ∗ owns (c : Thread nD τ) arg6 fullShare v
            ∗ owns (c : Thread nD τ) arg7 fullShare (k1_pay12 (k1_pay20 (k1_pay17 (k1_pay5 q k) s0 s1)) (k1_pay17 (k1_pay5 q k) s0 s1) (k1_pay18 (k1_pay4 v) (k1_pay5 q k) s0 s2))
            ∗ owns (c : Thread nD τ) arg8 fullShare (k1_pay19 (k1_pay5 q k) s0) ∗ owns (c : Thread nD τ) arg9 fullShare (k1_pay17 (k1_pay5 q k) s0 s1)
            ∗ owns (c : Thread nD τ) arg10 fullShare (k1_pay18 (k1_pay4 v) (k1_pay5 q k) s0 s2)
            ∗ tbPt1 c tbM1_0 xt0 ∗ tbPt1 c tbM1_1 xt1) -∗ K ⟨⟩))
      ⊢ wp frame (wpE (defs₀ (F := F)) Variants.none c none) E (cc1__attn_kernel i tbM1_0 htbM1_0 tbM1_1 htbM1_1 arg4 harg4 arg5 harg5 arg6 harg6 arg7 harg7 arg8 harg8 arg9 harg9 arg10 harg10) K := by
  iintro ⟨H4, H5, H6, H7, H8, H9, H10, HT0, HT1, Hk⟩
  iapply (RD.2.2.2.2 E K)
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HT0]; · iexact HT0
  isplitl [HT1]; · iexact HT1
  iintro ⟨H4, H5, H6, ⟨%e7, H7⟩, ⟨%e8, H8⟩, ⟨%e9, H9⟩, ⟨%e10, H10⟩, HT0, HT1⟩
  iapply Hk
  isplitl [H4]; · iexact H4
  isplitl [H5]; · iexact H5
  isplitl [H6]; · iexact H6
  isplitl [H7]
  · unfold owns; iexists _; isplitr
    swap; · iexact H7
    ipureintro; exact (View.read_writes_eq_canon _ _ _ (cover1_D_3 c i arg4 harg4 arg5 harg5 arg6 harg6 arg7 harg7 arg8 harg8 arg9 harg9 arg10 harg10 xt0 xt1 h0 h1 h2 q k v s0 s1 s2)).trans (canon1_D_3 c i arg4 harg4 arg5 harg5 arg6 harg6 arg7 harg7 arg8 harg8 arg9 harg9 arg10 harg10 xt0 xt1 h0 h1 h2 q k v s0 s1 s2)
  isplitl [H8]
  · unfold owns; iexists _; isplitr
    swap; · iexact H8
    ipureintro; exact (View.read_writes_eq_canon _ _ _ (scover1_D_0 c i arg4 harg4 arg5 harg5 arg6 harg6 arg7 harg7 arg8 harg8 arg9 harg9 arg10 harg10 xt0 xt1 h0 h1 h2 q k v s0 s1 s2)).trans (canon1_D_0 c i arg4 harg4 arg5 harg5 arg6 harg6 arg7 harg7 arg8 harg8 arg9 harg9 arg10 harg10 xt0 xt1 h0 h1 h2 q k v s0 s1 s2)
  isplitl [H9]
  · unfold owns; iexists _; isplitr
    swap; · iexact H9
    ipureintro; exact (View.read_writes_eq_canon _ _ _ (scover1_D_1 c i arg4 harg4 arg5 harg5 arg6 harg6 arg7 harg7 arg8 harg8 arg9 harg9 arg10 harg10 xt0 xt1 h0 h1 h2 q k v s0 s1 s2)).trans (canon1_D_1 c i arg4 harg4 arg5 harg5 arg6 harg6 arg7 harg7 arg8 harg8 arg9 harg9 arg10 harg10 xt0 xt1 h0 h1 h2 q k v s0 s1 s2)
  isplitl [H10]
  · unfold owns; iexists _; isplitr
    swap; · iexact H10
    ipureintro; exact (View.read_writes_eq_canon _ _ _ (scover1_D_2 c i arg4 harg4 arg5 harg5 arg6 harg6 arg7 harg7 arg8 harg8 arg9 harg9 arg10 harg10 xt0 xt1 h0 h1 h2 q k v s0 s1 s2)).trans (canon1_D_2 c i arg4 harg4 arg5 harg5 arg6 harg6 arg7 harg7 arg8 harg8 arg9 harg9 arg10 harg10 xt0 xt1 h0 h1 h2 q k v s0 s1 s2)
  isplitl [HT0]; · iexact HT0
  iexact HT1

end Pieces

end Cert.KernelIdeal.Hand

end
-- ==== Proof.R1Half.lean ====
/-
  The attention region's half of the run: at every grid point the body takes the invariant and the windows'
  buffers to the invariant at the next point and the buffers at the proof data's contents. The point's case is
  read off the two schedule words; the triple the scratch buffers carry is stepped by scStep.
-/
import proofs.«431190_j5033701670934_3_alg».proof.Proof.R1Kit
import proofs.«431190_j5033701670934_3_alg».proof.Proof.R1RunA
import proofs.«431190_j5033701670934_3_alg».proof.Proof.R1RunB
import proofs.«431190_j5033701670934_3_alg».proof.Proof.R1RunC
import proofs.«431190_j5033701670934_3_alg».proof.Proof.R1RunD

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Half

variable (V : (c : Dev nD) → (b : Ref sig .tc) → Buf (Elt F) ((c : Thread nD τ).loc b)) (a : (pcfg1 (F := F)).Adm)

/-! ## The triple after a point, case by case -/

/-- The triple after point t is the step of the triple before it. -/
theorem scAt_step (c : Dev nD) (t : Fin (cfg1 a).N) :
    scAt V a c (t.val + 1) = scStep (qiw a t) (kiw a t) (iblk1 V a c 0 t) (iblk1 V a c 1 t) (iblk1 V a c 2 t) (scAt V a c t.val) :=
  scAt_succ V a c t.val t.isLt

section Cases

variable (c : Dev nD) (t : Fin (cfg1 a).N)

/-- First key block, strictly below the diagonal: reset, then the whole block. -/
theorem scAt_A (hF : cFirst (kiw a t)) (hB : cBelow (qiw a t) (kiw a t)) (hD : ¬cDiag (qiw a t) (kiw a t)) :
    scAt V a c (t.val + 1) = scBelow (iblk1 V a c 0 t) (iblk1 V a c 1 t) (iblk1 V a c 2 t) scReset := by
  rw [scAt_step]; unfold scStep; simp only [if_pos hF, if_pos hB, if_neg hD]
theorem scAtA_0 (hF : cFirst (kiw a t)) (hB : cBelow (qiw a t) (kiw a t)) (hD : ¬cDiag (qiw a t) (kiw a t)) :
    (scAt V a c (t.val + 1)).1 = k1_pay11 (iblk1 V a c 0 t) (iblk1 V a c 1 t) (k1_pay1 (F := F)) := by rw [scAt_A V a c t hF hB hD]; rfl
theorem scAtA_1 (hF : cFirst (kiw a t)) (hB : cBelow (qiw a t) (kiw a t)) (hD : ¬cDiag (qiw a t) (kiw a t)) :
    (scAt V a c (t.val + 1)).2.1 = k1_pay9 (iblk1 V a c 0 t) (iblk1 V a c 1 t) (k1_pay1 (F := F)) (k1_pay2 (F := F)) := by rw [scAt_A V a c t hF hB hD]; rfl
theorem scAtA_2 (hF : cFirst (kiw a t)) (hB : cBelow (qiw a t) (kiw a t)) (hD : ¬cDiag (qiw a t) (kiw a t)) :
    (scAt V a c (t.val + 1)).2.2 = k1_pay10 (iblk1 V a c 0 t) (iblk1 V a c 1 t) (iblk1 V a c 2 t) (k1_pay1 (F := F)) (k1_pay3 (F := F)) := by rw [scAt_A V a c t hF hB hD]; rfl

/-- A later key block, strictly below the diagonal: the whole block. -/
theorem scAt_B (hF : ¬cFirst (kiw a t)) (hB : cBelow (qiw a t) (kiw a t)) (hD : ¬cDiag (qiw a t) (kiw a t)) :
    scAt V a c (t.val + 1) = scBelow (iblk1 V a c 0 t) (iblk1 V a c 1 t) (iblk1 V a c 2 t) (scAt V a c t.val) := by
  rw [scAt_step]; unfold scStep; simp only [if_neg hF, if_pos hB, if_neg hD]
theorem scAtB_0 (hF : ¬cFirst (kiw a t)) (hB : cBelow (qiw a t) (kiw a t)) (hD : ¬cDiag (qiw a t) (kiw a t)) :
    (scAt V a c (t.val + 1)).1 = k1_pay11 (iblk1 V a c 0 t) (iblk1 V a c 1 t) (scAt V a c t.val).1 := by rw [scAt_B V a c t hF hB hD]; rfl
theorem scAtB_1 (hF : ¬cFirst (kiw a t)) (hB : cBelow (qiw a t) (kiw a t)) (hD : ¬cDiag (qiw a t) (kiw a t)) :
    (scAt V a c (t.val + 1)).2.1 = k1_pay9 (iblk1 V a c 0 t) (iblk1 V a c 1 t) (scAt V a c t.val).1 (scAt V a c t.val).2.1 := by rw [scAt_B V a c t hF hB hD]; rfl
theorem scAtB_2 (hF : ¬cFirst (kiw a t)) (hB : cBelow (qiw a t) (kiw a t)) (hD : ¬cDiag (qiw a t) (kiw a t)) :
    (scAt V a c (t.val + 1)).2.2 = k1_pay10 (iblk1 V a c 0 t) (iblk1 V a c 1 t) (iblk1 V a c 2 t) (scAt V a c t.val).1 (scAt V a c t.val).2.2 := by rw [scAt_B V a c t hF hB hD]; rfl

/-- First key block and the diagonal one: reset, then the block under the mask. -/
theorem scAt_C (hF : cFirst (kiw a t)) (hB : ¬cBelow (qiw a t) (kiw a t)) (hD : cDiag (qiw a t) (kiw a t)) :
    scAt V a c (t.val + 1) = scDiag (iblk1 V a c 0 t) (iblk1 V a c 1 t) (iblk1 V a c 2 t) scReset := by
  rw [scAt_step]; unfold scStep; simp only [if_pos hF, if_neg hB, if_pos hD]
theorem scAtC_0 (hF : cFirst (kiw a t)) (hB : ¬cBelow (qiw a t) (kiw a t)) (hD : cDiag (qiw a t) (kiw a t)) :
    (scAt V a c (t.val + 1)).1 = k1_pay19 (k1_pay5 (iblk1 V a c 0 t) (iblk1 V a c 1 t)) (k1_pay1 (F := F)) := by rw [scAt_C V a c t hF hB hD]; rfl
theorem scAtC_1 (hF : cFirst (kiw a t)) (hB : ¬cBelow (qiw a t) (kiw a t)) (hD : cDiag (qiw a t) (kiw a t)) :
    (scAt V a c (t.val + 1)).2.1 = k1_pay17 (k1_pay5 (iblk1 V a c 0 t) (iblk1 V a c 1 t)) (k1_pay1 (F := F)) (k1_pay2 (F := F)) := by rw [scAt_C V a c t hF hB hD]; rfl
theorem scAtC_2 (hF : cFirst (kiw a t)) (hB : ¬cBelow (qiw a t) (kiw a t)) (hD : cDiag (qiw a t) (kiw a t)) :
    (scAt V a c (t.val + 1)).2.2 = k1_pay18 (k1_pay4 (iblk1 V a c 2 t)) (k1_pay5 (iblk1 V a c 0 t) (iblk1 V a c 1 t)) (k1_pay1 (F := F)) (k1_pay3 (F := F)) := by rw [scAt_C V a c t hF hB hD]; rfl
theorem scAtC_out (hF : cFirst (kiw a t)) (hB : ¬cBelow (qiw a t) (kiw a t)) (hD : cDiag (qiw a t) (kiw a t)) :
    outDiag (scAt V a c (t.val + 1))
      = k1_pay12 (k1_pay20 (k1_pay17 (k1_pay5 (iblk1 V a c 0 t) (iblk1 V a c 1 t)) (k1_pay1 (F := F)) (k1_pay2 (F := F))))
          (k1_pay17 (k1_pay5 (iblk1 V a c 0 t) (iblk1 V a c 1 t)) (k1_pay1 (F := F)) (k1_pay2 (F := F)))
          (k1_pay18 (k1_pay4 (iblk1 V a c 2 t)) (k1_pay5 (iblk1 V a c 0 t) (iblk1 V a c 1 t)) (k1_pay1 (F := F)) (k1_pay3 (F := F))) := by
  rw [scAt_C V a c t hF hB hD]; rfl

/-- A later key block, the diagonal one: the block under the mask. -/
theorem scAt_D (hF : ¬cFirst (kiw a t)) (hB : ¬cBelow (qiw a t) (kiw a t)) (hD : cDiag (qiw a t) (kiw a t)) :
    scAt V a c (t.val + 1) = scDiag (iblk1 V a c 0 t) (iblk1 V a c 1 t) (iblk1 V a c 2 t) (scAt V a c t.val) := by
  rw [scAt_step]; unfold scStep; simp only [if_neg hF, if_neg hB, if_pos hD]
theorem scAtD_0 (hF : ¬cFirst (kiw a t)) (hB : ¬cBelow (qiw a t) (kiw a t)) (hD : cDiag (qiw a t) (kiw a t)) :
    (scAt V a c (t.val + 1)).1 = k1_pay19 (k1_pay5 (iblk1 V a c 0 t) (iblk1 V a c 1 t)) (scAt V a c t.val).1 := by rw [scAt_D V a c t hF hB hD]; rfl
theorem scAtD_1 (hF : ¬cFirst (kiw a t)) (hB : ¬cBelow (qiw a t) (kiw a t)) (hD : cDiag (qiw a t) (kiw a t)) :
    (scAt V a c (t.val + 1)).2.1 = k1_pay17 (k1_pay5 (iblk1 V a c 0 t) (iblk1 V a c 1 t)) (scAt V a c t.val).1 (scAt V a c t.val).2.1 := by rw [scAt_D V a c t hF hB hD]; rfl
theorem scAtD_2 (hF : ¬cFirst (kiw a t)) (hB : ¬cBelow (qiw a t) (kiw a t)) (hD : cDiag (qiw a t) (kiw a t)) :
    (scAt V a c (t.val + 1)).2.2 = k1_pay18 (k1_pay4 (iblk1 V a c 2 t)) (k1_pay5 (iblk1 V a c 0 t) (iblk1 V a c 1 t)) (scAt V a c t.val).1 (scAt V a c t.val).2.2 := by rw [scAt_D V a c t hF hB hD]; rfl
theorem scAtD_out (hF : ¬cFirst (kiw a t)) (hB : ¬cBelow (qiw a t) (kiw a t)) (hD : cDiag (qiw a t) (kiw a t)) :
    outDiag (scAt V a c (t.val + 1))
      = k1_pay12 (k1_pay20 (k1_pay17 (k1_pay5 (iblk1 V a c 0 t) (iblk1 V a c 1 t)) (scAt V a c t.val).1 (scAt V a c t.val).2.1))
          (k1_pay17 (k1_pay5 (iblk1 V a c 0 t) (iblk1 V a c 1 t)) (scAt V a c t.val).1 (scAt V a c t.val).2.1)
          (k1_pay18 (k1_pay4 (iblk1 V a c 2 t)) (k1_pay5 (iblk1 V a c 0 t) (iblk1 V a c 1 t)) (scAt V a c t.val).1 (scAt V a c t.val).2.2) := by
  rw [scAt_D V a c t hF hB hD]; rfl

end Cases

/-! ## The invariant, opened -/

/-- What the invariant carries beside the triple, the tables one by one. -/
theorem restS1_eq (c : Dev nD) :
    restS1 a c = iprop(Pipeline.scopedRestBut (Ix := Unit) (Name := ℕ) (U := UR sig nD τ) (Lvl := ℕ) (Val := Elt F) spec1 c scL1
      ∗ (∃ r, prngReg c r) ∗ tbPt1 c tbM1_0 (a.1 0) ∗ tbPt1 c tbM1_1 (a.1 1)) := by
  unfold restS1; rw [prefHeld1_eq]

/-- Before any point the scratch buffers are owned at some contents. -/
theorem PhiS1_weak (c : Dev nD) (n : ℕ) (h : n ≤ (cfg1 a).N) :
    PhiS1 V a c n h ⊢ iprop((∃ d, owns (c : Thread nD τ) scM1_0 fullShare d) ∗ (∃ d, owns (c : Thread nD τ) scM1_1 fullShare d)
      ∗ (∃ d, owns (c : Thread nD τ) scM1_2 fullShare d)
      ∗ Pipeline.scopedRestBut (Ix := Unit) (Name := ℕ) (U := UR sig nD τ) (Lvl := ℕ) (Val := Elt F) spec1 c scL1
      ∗ (∃ r, prngReg c r) ∗ tbPt1 c tbM1_0 (a.1 0) ∗ tbPt1 c tbM1_1 (a.1 1)) := by
  cases n with
  | zero =>
    rw [PhiS1_zero V a c 0 h rfl, restS1_eq]
  | succ n =>
    rw [PhiS1_succ, restS1_eq]
    iintro ⟨H0, H1, H2, Hr⟩
    isplitl [H0]; · iexists _; iexact H0
    isplitl [H1]; · iexists _; iexact H1
    isplitl [H2]; · iexists _; iexact H2
    iexact Hr

/-- Before a point that is not the first they hold the running triple. -/
theorem PhiS1_strong (c : Dev nD) (n : ℕ) (h : n ≤ (cfg1 a).N) (hz : n ≠ 0) :
    PhiS1 V a c n h = iprop(owns (c : Thread nD τ) scM1_0 fullShare (scAt V a c n).1
      ∗ owns (c : Thread nD τ) scM1_1 fullShare (scAt V a c n).2.1
      ∗ owns (c : Thread nD τ) scM1_2 fullShare (scAt V a c n).2.2
      ∗ Pipeline.scopedRestBut (Ix := Unit) (Name := ℕ) (U := UR sig nD τ) (Lvl := ℕ) (Val := Elt F) spec1 c scL1
      ∗ (∃ r, prngReg c r) ∗ tbPt1 c tbM1_0 (a.1 0) ∗ tbPt1 c tbM1_1 (a.1 1)) := by
  rw [PhiS1_pos V a c n h hz, restS1_eq]

/-! ## The body obligation, at a generic point -/

/-- What the body is called with at point t, the windows one by one, -/
def bodyPre1 (c : Dev nD) (t : Fin (cfg1 a).N) : sProp 𝕄 :=
  iprop((dat1 V a c).Φ t.castSucc ∗ (dat1 V a c).owesAt () t.castSucc
    ∗ (∃ d, owns (c : Thread nD τ) (ms1_0 a t) fullShare ((dat1 V a c).before 0 t d))
    ∗ (∃ d, owns (c : Thread nD τ) (ms1_1 a t) fullShare ((dat1 V a c).before 1 t d))
    ∗ (∃ d, owns (c : Thread nD τ) (ms1_2 a t) fullShare ((dat1 V a c).before 2 t d))
    ∗ (∃ d, owns (c : Thread nD τ) (ms1_3 a t) fullShare ((dat1 V a c).before 3 t d)))

/-- and what it returns. -/
def bodyPost1 (c : Dev nD) (t : Fin (cfg1 a).N) : sProp 𝕄 :=
  iprop((dat1 V a c).Φ t.succ ∗ (dat1 V a c).owesAt () t.succ
    ∗ (dat1 V a c).leavesExact 0 t
    ∗ (dat1 V a c).leavesExact 1 t
    ∗ (dat1 V a c).leavesExact 2 t
    ∗ (dat1 V a c).leavesExact 3 t)

set_option maxHeartbeats 4000000 in
/-- The body at any point. The input windows hold their blocks; the two schedule words say which case the point is
    in: strictly below the diagonal (the output window idle and not written back: its buffer is handed back as found)
    or on it (the output window stored), at the first key block of a query block (the scratch buffers' contents
    are not read: they may be anything, as they are at the first point) or not (they hold the running triple); that
    case's run applies, and the triple it leaves is the step of the triple before. -/
theorem sound_body1 (hT : TabOk a) (c : Dev nD) (t : Fin (cfg1 a).N) :
    bodyPre1 V a c t ⊢ wp frame (wpE (defs₀ (F := F)) Variants.none c none) Set.univ (bodyAt1 a t) (fun _ => bodyPost1 V a c t) := by
  unfold bodyPre1 bodyPost1 bodyAt1
  simp only [before1_0, before1_1, before1_2]
  rw [show (dat1 V a c).owesAt () t.succ = (dat1 V a c).owesAt () t.castSucc from rfl]
  rw [show (dat1 V a c).Φ t.succ = PhiS1 V a c (t.val + 1) t.isLt from rfl, PhiS1_succ, restS1_eq, PhiS1_castSucc]
  rw [show (dat1 V a c).leavesExact 0 t = owns (c : Thread nD τ) (ms1_0 a t) fullShare ((dat1 V a c).after 0 t) from (by
    unfold Dat.leavesExact; rw [liveAt1_0 a _]; rfl), after1_0]
  rw [show (dat1 V a c).leavesExact 1 t = owns (c : Thread nD τ) (ms1_1 a t) fullShare ((dat1 V a c).after 1 t) from (by
    unfold Dat.leavesExact; rw [liveAt1_1 a _]; rfl), after1_1]
  rw [show (dat1 V a c).leavesExact 2 t = owns (c : Thread nD τ) (ms1_2 a t) fullShare ((dat1 V a c).after 2 t) from (by
    unfold Dat.leavesExact; rw [liveAt1_2 a _]; rfl), after1_2]
  rcases hT.met t with ⟨hB, hD⟩ | ⟨hB, hD⟩
  · rw [Dat.leavesExact_idle (dat1 V a c) 3 t (idleAt1_3 a t hD) (hT.noFlush t hD)]
    by_cases hF : cFirst (kiw a t)
    · -- first key block, strictly below the diagonal
      iintro ⟨HΦ, Ho, ⟨%d0, H0⟩, ⟨%d1, H1⟩, ⟨%d2, H2⟩, ⟨%d3, H3⟩⟩
      ihave HΦ' := (PhiS1_weak V a c t.val (Nat.le_of_lt t.isLt)) $$ HΦ
      icases HΦ' with ⟨⟨%e0, HS0⟩, ⟨%e1, HS1⟩, ⟨%e2, HS2⟩, Hr, Hp, HT0, HT1⟩
      iapply (run1_A c ((cfg1 a).grid.coords t) (ms1_0 a t) (hs1_0 a t) (ms1_1 a t) (hs1_1 a t) (ms1_2 a t) (hs1_2 a t) (ms1_3 a t) (hs1_3 a t)
          scM1_0 (Memref.isWhole_whole _) scM1_1 (Memref.isWhole_whole _) scM1_2 (Memref.isWhole_whole _) (a.1 0) (a.1 1)
          (by rw [wordAt1_k]; exact hF) (by rw [wordAt1_q, wordAt1_k]; exact hB) (by rw [wordAt1_q, wordAt1_k]; exact hD)
          (iblk1 V a c 0 t) (iblk1 V a c 1 t) (iblk1 V a c 2 t) e0 e1 e2 ((dat1 V a c).before 3 t d3) Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      isplitl [HT0]; · iexact HT0
      isplitl [HT1]; · iexact HT1
      iintro ⟨H0, H1, H2, H3, HS0, HS1, HS2, HT0, HT1⟩
      isplitl [HS0 HS1 HS2 Hr Hp HT0 HT1]
      · isplitl [HS0]; · rw [scAtA_0 V a c t hF hB hD]; iexact HS0
        isplitl [HS1]; · rw [scAtA_1 V a c t hF hB hD]; iexact HS1
        isplitl [HS2]; · rw [scAtA_2 V a c t hF hB hD]; iexact HS2
        isplitl [Hr]; · iexact Hr
        isplitl [Hp]; · iexact Hp
        isplitl [HT0]; · iexact HT0
        iexact HT1
      isplitl [Ho]; · iexact Ho
      isplitl [H0]; · iexact H0
      isplitl [H1]; · iexact H1
      isplitl [H2]; · iexact H2
      iexists _; iexact H3
    · -- a later key block, strictly below the diagonal
      have hz : t.val ≠ 0 := fun h => hF (hT.first0 t h)
      rw [PhiS1_strong V a c _ _ hz]
      iintro ⟨⟨HS0, HS1, HS2, Hr, Hp, HT0, HT1⟩, Ho, ⟨%d0, H0⟩, ⟨%d1, H1⟩, ⟨%d2, H2⟩, ⟨%d3, H3⟩⟩
      iapply (run1_B c ((cfg1 a).grid.coords t) (ms1_0 a t) (hs1_0 a t) (ms1_1 a t) (hs1_1 a t) (ms1_2 a t) (hs1_2 a t) (ms1_3 a t) (hs1_3 a t)
          scM1_0 (Memref.isWhole_whole _) scM1_1 (Memref.isWhole_whole _) scM1_2 (Memref.isWhole_whole _) (a.1 0) (a.1 1)
          (by rw [wordAt1_k]; exact hF) (by rw [wordAt1_q, wordAt1_k]; exact hB) (by rw [wordAt1_q, wordAt1_k]; exact hD)
          (iblk1 V a c 0 t) (iblk1 V a c 1 t) (iblk1 V a c 2 t) (scAt V a c t.val).1 (scAt V a c t.val).2.1 (scAt V a c t.val).2.2 ((dat1 V a c).before 3 t d3) Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      isplitl [HT0]; · iexact HT0
      isplitl [HT1]; · iexact HT1
      iintro ⟨H0, H1, H2, H3, HS0, HS1, HS2, HT0, HT1⟩
      isplitl [HS0 HS1 HS2 Hr Hp HT0 HT1]
      · isplitl [HS0]; · rw [scAtB_0 V a c t hF hB hD]; iexact HS0
        isplitl [HS1]; · rw [scAtB_1 V a c t hF hB hD]; iexact HS1
        isplitl [HS2]; · rw [scAtB_2 V a c t hF hB hD]; iexact HS2
        isplitl [Hr]; · iexact Hr
        isplitl [Hp]; · iexact Hp
        isplitl [HT0]; · iexact HT0
        iexact HT1
      isplitl [Ho]; · iexact Ho
      isplitl [H0]; · iexact H0
      isplitl [H1]; · iexact H1
      isplitl [H2]; · iexact H2
      iexists _; iexact H3
  · rw [show (dat1 V a c).leavesExact 3 t = owns (c : Thread nD τ) (ms1_3 a t) fullShare ((dat1 V a c).after 3 t) from (by
      unfold Dat.leavesExact; rw [liveAt1_3 a t hD]; rfl), after1_3]
    by_cases hF : cFirst (kiw a t)
    · -- first key block, the diagonal one
      iintro ⟨HΦ, Ho, ⟨%d0, H0⟩, ⟨%d1, H1⟩, ⟨%d2, H2⟩, ⟨%d3, H3⟩⟩
      ihave HΦ' := (PhiS1_weak V a c t.val (Nat.le_of_lt t.isLt)) $$ HΦ
      icases HΦ' with ⟨⟨%e0, HS0⟩, ⟨%e1, HS1⟩, ⟨%e2, HS2⟩, Hr, Hp, HT0, HT1⟩
      iapply (run1_C c ((cfg1 a).grid.coords t) (ms1_0 a t) (hs1_0 a t) (ms1_1 a t) (hs1_1 a t) (ms1_2 a t) (hs1_2 a t) (ms1_3 a t) (hs1_3 a t)
          scM1_0 (Memref.isWhole_whole _) scM1_1 (Memref.isWhole_whole _) scM1_2 (Memref.isWhole_whole _) (a.1 0) (a.1 1)
          (by rw [wordAt1_k]; exact hF) (by rw [wordAt1_q, wordAt1_k]; exact hB) (by rw [wordAt1_q, wordAt1_k]; exact hD)
          (iblk1 V a c 0 t) (iblk1 V a c 1 t) (iblk1 V a c 2 t) e0 e1 e2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      isplitl [HT0]; · iexact HT0
      isplitl [HT1]; · iexact HT1
      iintro ⟨H0, H1, H2, H3, HS0, HS1, HS2, HT0, HT1⟩
      isplitl [HS0 HS1 HS2 Hr Hp HT0 HT1]
      · isplitl [HS0]; · rw [scAtC_0 V a c t hF hB hD]; iexact HS0
        isplitl [HS1]; · rw [scAtC_1 V a c t hF hB hD]; iexact HS1
        isplitl [HS2]; · rw [scAtC_2 V a c t hF hB hD]; iexact HS2
        isplitl [Hr]; · iexact Hr
        isplitl [Hp]; · iexact Hp
        isplitl [HT0]; · iexact HT0
        iexact HT1
      isplitl [Ho]; · iexact Ho
      isplitl [H0]; · iexact H0
      isplitl [H1]; · iexact H1
      isplitl [H2]; · iexact H2
      rw [scAtC_out V a c t hF hB hD]; iexact H3
    · -- a later key block, the diagonal one
      have hz : t.val ≠ 0 := fun h => hF (hT.first0 t h)
      rw [PhiS1_strong V a c _ _ hz]
      iintro ⟨⟨HS0, HS1, HS2, Hr, Hp, HT0, HT1⟩, Ho, ⟨%d0, H0⟩, ⟨%d1, H1⟩, ⟨%d2, H2⟩, ⟨%d3, H3⟩⟩
      iapply (run1_D c ((cfg1 a).grid.coords t) (ms1_0 a t) (hs1_0 a t) (ms1_1 a t) (hs1_1 a t) (ms1_2 a t) (hs1_2 a t) (ms1_3 a t) (hs1_3 a t)
          scM1_0 (Memref.isWhole_whole _) scM1_1 (Memref.isWhole_whole _) scM1_2 (Memref.isWhole_whole _) (a.1 0) (a.1 1)
          (by rw [wordAt1_k]; exact hF) (by rw [wordAt1_q, wordAt1_k]; exact hB) (by rw [wordAt1_q, wordAt1_k]; exact hD)
          (iblk1 V a c 0 t) (iblk1 V a c 1 t) (iblk1 V a c 2 t) (scAt V a c t.val).1 (scAt V a c t.val).2.1 (scAt V a c t.val).2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      isplitl [HT0]; · iexact HT0
      isplitl [HT1]; · iexact HT1
      iintro ⟨H0, H1, H2, H3, HS0, HS1, HS2, HT0, HT1⟩
      isplitl [HS0 HS1 HS2 Hr Hp HT0 HT1]
      · isplitl [HS0]; · rw [scAtD_0 V a c t hF hB hD]; iexact HS0
        isplitl [HS1]; · rw [scAtD_1 V a c t hF hB hD]; iexact HS1
        isplitl [HS2]; · rw [scAtD_2 V a c t hF hB hD]; iexact HS2
        isplitl [Hr]; · iexact Hr
        isplitl [Hp]; · iexact Hp
        isplitl [HT0]; · iexact HT0
        iexact HT1
      isplitl [Ho]; · iexact Ho
      isplitl [H0]; · iexact H0
      isplitl [H1]; · iexact H1
      isplitl [H2]; · iexact H2
      rw [scAtD_out V a c t hF hB hD]; iexact H3

/-- The library's body obligation, at every point. -/
theorem body_obligation1 (hT : TabOk a) (c : Dev nD) :
    BodyObligation (dat1 (F := F) V a c) (defs₀ (F := F)) Variants.none () Set.univ := fun t => by
  rw [bigSep_W1, bigSep_W1]
  exact sound_body1 V a hT c t

end Half

end Cert.KernelIdeal.Hand

end
-- ==== Proof.RunMain.lean ====
/-
  The whole program as a run: the two stretches of host operations and the two pipeline regions chained from
  the launch to the return, each boundary's buffer contents named, and the final memory read back against the
  last boundary's contents.
-/
import proofs.«431190_j5033701670934_3_alg».proof.Proof.Boundary
import proofs.«431190_j5033701670934_3_alg».proof.Proof.TabFacts
import proofs.«431190_j5033701670934_3_alg».proof.Proof.R1Half
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the schedule tables' contents are never evaluated below: every fact used of them is a named theorem
attribute [local irreducible] adm1

section Run

variable (m : (ℓ : Loc nD τ sig) → Buf (Elt F) ℓ) (ρ : Dev nD → PrngReg)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) (adm 1) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    dues, at nothing. -/
abbrev R (c : Dev nD) : sProp 𝕄 := iprop((∃ r, prngReg c r) ∗ ∃ W, owes (c : Thread nD τ) (0 : CellTallies nD τ sig Unit) W)
/-- A stretch of host operations as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The projection region over the thread state: entered from every unscoped buffer at W1, left at W2. Its arrays are
    split out of the unscoped buffers and put back at the exit contents; the generator register goes into the
    invariant and comes out; nothing is owed; the kernel has no semaphore of its own. -/
def reg0 : Pipeline.RegionSeg (pcfgs (F := F)) (adm (F := F)) (pdats m ρ) () defs₀ 𝒱₀ L lv 0 where
  win := winFacts0.to₀
  block_pos := block_pos0
  stage_whole := stage_whole0
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) (adm (F := F)) (pdats m ρ) winFacts0 arr_whole0 c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm (F := F)) (Ix := Unit) (Name := ℕ) (U := UR sig nD τ) (Lvl := ℕ)
      winFacts0 arr_whole0 c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Run

section Run1

variable (m : (ℓ : Loc nD τ sig) → Buf (Elt F) ℓ) (ρ : Dev nD → PrngReg)

/-- At the attention region's entry the unscoped buffers are its arrays, the two schedule tables and the rest. -/
theorem entry_split1 (c : Dev nD) :
    StableHlo.held (c : Thread nD τ) (Pipeline.ucRefs τ sig) (W3 m ρ c)
      ⊢ (iprop((pdats m ρ 1 c).arrays ((pdats m ρ 1 c).arrAt · 0)
          ∗ Pipeline.prefHeld pre1 c (fun _ => fullShare) (adm1 (F := F)).1
          ∗ Pipeline.unscopedRestP (Ix := Unit) (Name := ℕ) (U := UR sig nD τ) (Lvl := ℕ) pre1 spec1 c (V3 m ρ c)) : sProp 𝕄) := by
  have hsplit := Pipeline.arrays_of_unscopedBufs (p := 1) (pcfgs (F := F)) (adm (F := F)) (pdats m ρ) winFacts1 arr_whole1 c
    ((pdats m ρ 1 c).share_full fun _ => rfl) (V3 m ρ c) fun _ => rfl
  rw [Pipeline.unscopedBufs_held] at hsplit
  refine hsplit.trans (sep_mono .rfl (Entails.of_eq ?_))
  refine (Pipeline.unscopedRest_split (win := spec1) preFacts1 c (V3 m ρ c)).trans ?_
  rw [show (fun k => V3 m ρ c (pre1.ref k)) = (adm1 (F := F)).1 from funext (V3_tab m ρ c)]

/-- At its exit the arrays at what the pipeline leaves, the tables and the rest are the unscoped buffers at W4. -/
theorem exit_join1 (c : Dev nD) :
    (iprop((pdats m ρ 1 c).arrays ((pdats m ρ 1 c).arrAt · (cfg1 (F := F) (adm 1)).N)
          ∗ Pipeline.prefHeld pre1 c (fun _ => fullShare) (adm1 (F := F)).1
          ∗ Pipeline.unscopedRestP (Ix := Unit) (Name := ℕ) (U := UR sig nD τ) (Lvl := ℕ) pre1 spec1 c (V3 m ρ c)) : sProp 𝕄)
      ⊢ StableHlo.held (c : Thread nD τ) (Pipeline.ucRefs τ sig) (W4 m ρ c) := by
  have hjoin := Pipeline.unscopedBufs_of_arrays (p := 1) (pcfgs (F := F)) (adm (F := F)) (Ix := Unit) (Name := ℕ) (U := UR sig nD τ) (Lvl := ℕ)
    winFacts1 arr_whole1 c (pdats m ρ) ((pdats m ρ 1 c).share_full fun _ => rfl)
    (V3 m ρ c) (V4 m ρ c) ((pdats m ρ 1 c).arrAt · (cfg1 (F := F) (adm 1)).N) (hF1 m ρ c) (hrest1 m ρ c)
  rw [Pipeline.unscopedBufs_held] at hjoin
  refine (sep_mono .rfl (Entails.of_eq ?_)).trans hjoin
  refine Eq.trans ?_ (Pipeline.unscopedRest_split (win := spec1) preFacts1 c (V3 m ρ c)).symm
  rw [show (fun k => V3 m ρ c (pre1.ref k)) = (adm1 (F := F)).1 from funext (V3_tab m ρ c)]

set_option backward.isDefEq.respectTransparency.types false in
/-- The attention region over the thread state: entered from every unscoped buffer at W3, left at W4. Its arrays and
    its two tables are split out of the unscoped buffers and put back at the exit; the generator register and the
    tables go into the invariant and come out; nothing is owed; the kernel has no semaphore of its own. -/
def reg1 : Pipeline.RegionSeg (pcfgs (F := F)) (adm (F := F)) (pdats m ρ) () defs₀ 𝒱₀ L lv 1 where
  win := winFacts1.to₀
  block_pos := block_pos1
  stage_whole := stage_whole1
  K := PEmpty
  osem k := k.elim
  ho := Pipeline.OwnSemFacts.none _
  hbody c := (body_obligation1 (V3 m ρ) adm1 tabOk_adm1 c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop((∃ r, prngReg c r) ∗ Pipeline.prefHeld pre1 c (fun _ => fullShare) (adm1 (F := F)).1)
  Z c := Pipeline.unscopedRestP (Ix := Unit) (Name := ℕ) (U := UR sig nD τ) (Lvl := ℕ) pre1 spec1 c (V3 m ρ c)
  hentry c := by
    rw [Pipeline.ownSems0_none]
    iintro ⟨⟨Hub, Hp, HO⟩, -, -⟩
    ihave H := (entry_split1 m ρ c) $$ Hub
    icases H with ⟨Ha, Hpf, Hrest⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin1 (V3 m ρ) adm1 c
  hout c := by
    rw [Pipeline.ownSems0_none]
    refine (hout1 (V3 m ρ) adm1 c).trans ?_
    iintro ⟨HY, Hr⟩
    isplitl [HY]; · iexact HY
    isplitr; · iempintro
    iexact Hr
  hexit c := by
    iintro ⟨Ha, HO, ⟨Hp, Hpf⟩, Hrest⟩
    imodintro
    isplitl [Ha Hpf Hrest Hp]
    · isplitl [Ha Hpf Hrest]
      · iapply (exit_join1 m ρ c)
        isplitl [Ha]; · iexact Ha
        isplitl [Hpf]; · iexact Hpf
        iexact Hrest
      iexact Hp
    unfold Pipeline.Dat.owesAt Pipeline.owesWithin
    icases HO with ⟨%W, -, HO⟩; iexists W; iexact HO

/-! ## The program as segments, and the launch -/

/-- The program's four segments in order. -/
abbrev segs : List (Pipeline.Seg (pcfgs (F := F)) (adm (F := F)) (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- The program is the run of the segments. -/
theorem main_run (c : Dev nD) : main (F := F) c = Pipeline.Seg.run (segs m ρ) := (main_chain c).trans (by chain_rfl)

set_option backward.isDefEq.respectTransparency.types false in
/-- From any memory with zero counters every weakly fair execution of the program terminates, and every final
    memory holds, in each unscoped buffer of each core, the last boundary's contents. -/
theorem run_main : θ_run defs (onTc (τ := τ) (main (F := F))) ⟨m, fun _ => 0, ρ⟩ (fun r => ∀ c : Dev nD,
      ∀ b ∈ Pipeline.ucRefs τ sig, r.2.mem ((c : Thread nD τ).1, b) = W4 m ρ c b) :=
  Pipeline.θ_run_regions_kit (pcfgs (F := F)) (adm (F := F)) (pdats m ρ) () (cellOf_inj (adm (F := F))) emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm (F := F))) (cellOf_inj (adm (F := F)))) (Pipeline.launchToks (Pipeline.pin (pcfgs (F := F)) (adm (F := F))) (cellOf_inj (adm (F := F)))))
    (hu₀ := by
      iintro Hu; imodintro
      isplitl [Hu]
      · iapply (show (ownU (initOf (Pipeline.cells (Pipeline.pin (pcfgs (F := F)) (adm (F := F))) (cellOf_inj (adm (F := F)))) (Pipeline.launchToks (Pipeline.pin (pcfgs (F := F)) (adm (F := F))) (cellOf_inj (adm (F := F))))) : sProp 𝕄)
            ⊢ BI.own (emb₁ (initOf (Pipeline.cells (Pipeline.pin (pcfgs (F := F)) (adm (F := F))) (cellOf_inj (adm (F := F)))) (Pipeline.launchToks (Pipeline.pin (pcfgs (F := F)) (adm (F := F))) (cellOf_inj (adm (F := F)))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h => h)

end Run1

end Cert.KernelIdeal.Hand

end
-- ==== Proof.lean ====
/-
  The certificate's five claims for the fused projection + causal flash-attention kernel against softmax attention.

  * The three frames. The kernel's program is two pipelined regions among reshapes and transposes; its run is proved once
    over the library's region rule, generic in the float instance, and read at the words (`frame_k`) and at the
    extended reals (`frame_ki`): every unscoped buffer ends at the last boundary's contents, and no region or host
    operation writes an argument. The reference has no kernel: its frame is its run with the result dropped.
  * `preserves`: the idealization's two rewrites both name the finite stand-in `-1e30` as `-∞`.
  * `algebraic`: at the extended reals the kernel's result array is causal softmax attention of the three projections,
    `Cert.Spec.attn` — region 0 computes the projections, region 1 accumulates the softmax block by block along the
    schedule the two tables list, and finite inputs keep every sum finite —, and the reference's composed stages are the
    same function (`Cert.RefIsSpec.val_eq_attn`).
-/
import proofs.«431190_j5033701670934_3_alg».proof.Defs
import proofs.«431190_j5033701670934_3_alg».proof.Proof.Gen.Kernel
import proofs.«431190_j5033701670934_3_alg».proof.Proof.Gen.KernelIdeal
import proofs.«431190_j5033701670934_3_alg».proof.Proof.Gen.ReferenceIdeal
import proofs.«431190_j5033701670934_3_alg».proof.Proof.Gen.Pre_finite_inputs
import proofs.«431190_j5033701670934_3_alg».proof.Proof.Gen.ReferenceIdeal.Run
import proofs.«431190_j5033701670934_3_alg».proof.Proof.Gen.ReferenceIdeal.Read
import proofs.«431190_j5033701670934_3_alg».proof.Proof.RefIsSpec
import proofs.«431190_j5033701670934_3_alg».proof.Proof.Finite
import proofs.«431190_j5033701670934_3_alg».proof.Proof.AttnValue
import proofs.«431190_j5033701670934_3_alg».proof.Proof.SchedValue
import proofs.«431190_j5033701670934_3_alg».proof.Proof.Tables
import proofs.«431190_j5033701670934_3_alg».proof.Proof.RunMain
import proofs.«431190_j5033701670934_3_alg».proof.Proof.Bits.RunMain

noncomputable section

namespace Cert.Proof

open Idealize.ShloMosaic Idealize.ShloMosaic.TcCoe Idealize.SL.Sem

/-- The word-level kernel runs and leaves its four arguments as launched. -/
theorem frame_k : Cert.frame_Kernel := fun m ρ _ =>
  (θ_run (Cert.Kernel.defs (F := Bits)) _ _).mono (fun _ h c =>
    ⟨(h c _ (Cert.Kernel.HandBits.mem_uc Cert.Kernel.main_arg0 (by decide))).trans (Cert.Kernel.HandBits.W4_main_arg0 m ρ c),
     (h c _ (Cert.Kernel.HandBits.mem_uc Cert.Kernel.main_arg1 (by decide))).trans (Cert.Kernel.HandBits.W4_main_arg1 m ρ c),
     (h c _ (Cert.Kernel.HandBits.mem_uc Cert.Kernel.main_arg2 (by decide))).trans (Cert.Kernel.HandBits.W4_main_arg2 m ρ c),
     (h c _ (Cert.Kernel.HandBits.mem_uc Cert.Kernel.main_arg3 (by decide))).trans (Cert.Kernel.HandBits.W4_main_arg3 m ρ c)⟩)
    (Cert.Kernel.HandBits.run_main (F := Bits) m ρ)

/-- The idealized kernel runs and leaves its four arguments as launched. -/
theorem frame_ki : Cert.frame_KernelIdeal := fun m ρ _ =>
  (θ_run (Cert.KernelIdeal.defs (F := Ideal)) _ _).mono (fun _ h c =>
    ⟨(h c _ (Cert.KernelIdeal.Hand.mem_uc Cert.KernelIdeal.main_arg0 (by decide))).trans (Cert.KernelIdeal.Hand.W4_main_arg0 m ρ c),
     (h c _ (Cert.KernelIdeal.Hand.mem_uc Cert.KernelIdeal.main_arg1 (by decide))).trans (Cert.KernelIdeal.Hand.W4_main_arg1 m ρ c),
     (h c _ (Cert.KernelIdeal.Hand.mem_uc Cert.KernelIdeal.main_arg2 (by decide))).trans (Cert.KernelIdeal.Hand.W4_main_arg2 m ρ c),
     (h c _ (Cert.KernelIdeal.Hand.mem_uc Cert.KernelIdeal.main_arg3 (by decide))).trans (Cert.KernelIdeal.Hand.W4_main_arg3 m ρ c)⟩)
    (Cert.KernelIdeal.Hand.run_main (F := Ideal) m ρ)

/-- The reference runs and leaves its arguments as launched: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both rewrites of the idealization read the stand-in `-1e30` as `-∞`, the value the table gives the name. -/
theorem preserves : Cert.preserves_Kernel_KernelIdeal :=
  ⟨IdealRules.named_const.statement Cert.KernelIdeal.κ "neg_big" .f32 0xF149F2CA#32 ⊥ rfl,
   IdealRules.named_const.statement Cert.KernelIdeal.κ "neg_big" .f32 0xF149F2CA#32 ⊥ rfl⟩

/-- At the extended reals both programs end with `Cert.Spec.attn` of the (agreeing) arguments in their result arrays. -/
theorem algebraic : Cert.algebraic_KernelIdeal_ReferenceIdeal := by
  intro m ρ m' ρ' hpre hagree
  refine ⟨fun c => Cert.Spec.attn (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run (Cert.KernelIdeal.defs (F := Ideal)) _ _).mono (fun _ h c => ?_) (Cert.KernelIdeal.Hand.run_main (F := Ideal) m ρ)
    obtain ⟨hx, hq, hk, hv⟩ := Cert.Finite.finite_of_Pre_KernelIdeal m hpre c
    exact ⟨(h c _ (Cert.KernelIdeal.Hand.mem_uc Cert.KernelIdeal.main_v11 (by decide))).trans
        (Cert.KernelIdeal.Hand.result_eq_attn m ρ c hx hq hk hv
          (Cert.KernelIdeal.Hand.out_rows (Cert.KernelIdeal.Hand.V3 m ρ) Cert.KernelIdeal.Hand.sched_adm1 c)),
      (h c _ (Cert.KernelIdeal.Hand.mem_uc Cert.KernelIdeal.main_arg0 (by decide))).trans (Cert.KernelIdeal.Hand.W4_main_arg0 m ρ c),
      (h c _ (Cert.KernelIdeal.Hand.mem_uc Cert.KernelIdeal.main_arg1 (by decide))).trans (Cert.KernelIdeal.Hand.W4_main_arg1 m ρ c),
      (h c _ (Cert.KernelIdeal.Hand.mem_uc Cert.KernelIdeal.main_arg2 (by decide))).trans (Cert.KernelIdeal.Hand.W4_main_arg2 m ρ c),
      (h c _ (Cert.KernelIdeal.Hand.mem_uc Cert.KernelIdeal.main_arg3 (by decide))).trans (Cert.KernelIdeal.Hand.W4_main_arg3 m ρ c)⟩
  · refine (θ_run Cert.ReferenceIdeal.defs _ _).mono (fun _ h c => ⟨?_, (h c).2⟩)
      (Cert.ReferenceIdeal.Value.run (F := Ideal) m' ρ')
    rw [(h c).1, Cert.ReferenceIdeal.Read.val_main_v22_eq, Cert.RefIsSpec.val_eq_attn,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
